-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S512x512 : Shape := ⟨2, ![512, 512]⟩
abbrev S512 : Shape := ⟨1, ![512]⟩
abbrev S8192 : Shape := ⟨1, ![8192]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : IVec S8192 32) (main_arg8 : IVec S8192 32) (main_v33 : IVec S_ 1) : IVec S_ 1 :=
  let main_c_12 : IVec S_ 32 := constantI S_ 32 0#32
  let main_v34 : IVec S8192 32 := broadcastInDim S8192 ![] bcast_S_S8192 main_c_12
  let main_v35 : IVec S8192 1 := cmpi .sge main_arg7 main_v34
  let main_c_13 : IVec S_ 1 := constantI S_ 1 1#1
  let main_v36 : IVec S_ 1 := (fun x v => Host.reduce IntOp.andi x v reducesTo_S8192_S_d0 h_S_) main_v35 main_c_13
  let main_v37 : IVec S_ 1 := andi main_v33 main_v36
  let main_c_14 : IVec S_ 32 := constantI S_ 32 32768#32
  let main_v38 : IVec S8192 32 := broadcastInDim S8192 ![] bcast_S_S8192 main_c_14
  let main_v39 : IVec S8192 1 := cmpi .slt main_arg7 main_v38
  let main_c_15 : IVec S_ 1 := constantI S_ 1 1#1
  let main_v40 : IVec S_ 1 := (fun x v => Host.reduce IntOp.andi x v reducesTo_S8192_S_d0 h_S_) main_v39 main_c_15
  let main_v41 : IVec S_ 1 := andi main_v37 main_v40
  let main_c_16 : IVec S_ 32 := constantI S_ 32 0#32
  let main_v42 : IVec S8192 32 := broadcastInDim S8192 ![] bcast_S_S8192 main_c_16
  let main_v43 : IVec S8192 1 := cmpi .sge main_arg8 main_v42
  let main_c_17 : IVec S_ 1 := constantI S_ 1 1#1
  let main_v44 : IVec S_ 1 := (fun x v => Host.reduce IntOp.andi x v reducesTo_S8192_S_d0 h_S_) main_v43 main_c_17
  let main_v45 : IVec S_ 1 := andi main_v41 main_v44
  let main_c_18 : IVec S_ 32 := constantI S_ 32 32768#32
  let main_v46 : IVec S8192 32 := broadcastInDim S8192 ![] bcast_S_S8192 main_c_18
  let main_v47 : IVec S8192 1 := cmpi .slt main_arg8 main_v46
  let main_c_19 : IVec S_ 1 := constantI S_ 1 1#1
  let main_v48 : IVec S_ 1 := (fun x v => Host.reduce IntOp.andi x v reducesTo_S8192_S_d0 h_S_) main_v47 main_c_19
  let main_v49 : IVec S_ 1 := andi main_v45 main_v48
  main_v49

def fn_part1 {F : FTy → Type} [FloatOps F] (main_arg4 : FVec F S512 .f32) (main_arg5 : FVec F S512x512 .f32) (main_arg6 : FVec F S512 .f32) (main_arg7 : IVec S8192 32) (main_arg8 : IVec S8192 32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S4x8192x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : IVec S8192 32) (main_arg8 : IVec S8192 32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S4x8192x512 : Shape := ⟨3, ![4, 8192, 512]⟩
abbrev S512x512 : Shape := ⟨2, ![512, 512]⟩
abbrev S512 : Shape := ⟨1, ![512]⟩
abbrev S8192 : Shape := ⟨1, ![8192]⟩
abbrev S32768x512 : Shape := ⟨2, ![32768, 512]⟩
abbrev S1536x512 : Shape := ⟨2, ![1536, 512]⟩
abbrev S1536 : Shape := ⟨1, ![1536]⟩
abbrev S1x1536 : Shape := ⟨2, ![1, 1536]⟩
abbrev S32768x1536 : Shape := ⟨2, ![32768, 1536]⟩
abbrev S1024x512 : Shape := ⟨2, ![1024, 512]⟩
abbrev S1024x1536 : Shape := ⟨2, ![1024, 1536]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x512 : Shape := ⟨2, ![8192, 512]⟩
abbrev S256x512 : Shape := ⟨2, ![256, 512]⟩
abbrev S256x8192 : Shape := ⟨2, ![256, 8192]⟩
abbrev S256 : Shape := ⟨1, ![256]⟩
abbrev S256x1 : Shape := ⟨2, ![256, 1]⟩

abbrev nBuf : Space → Nat
  | .hbm => 102
  | .vmem => 12
  | .smem => 0
  | _ => 0

abbrev bufTy : (tb : Table) → Fin (tcTables nBuf tb) → BufTy
  | .hbm, ⟨0, _⟩ => ⟨S4x8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8192, .i32⟩
  | .hbm, ⟨8, _⟩ => ⟨S8192, .i32⟩
  | .hbm, ⟨9, _⟩ => ⟨S32768x512, .f32⟩
  | .hbm, ⟨10, _⟩ => ⟨S1536x512, .f32⟩
  | .hbm, ⟨11, _⟩ => ⟨S1536, .f32⟩
  | .hbm, ⟨12, _⟩ => ⟨S1x1536, .f32⟩
  | .hbm, ⟨13, _⟩ => ⟨S32768x1536, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S1, .i32⟩
  | .hbm, ⟨28, _⟩ => ⟨S_, .i32⟩
  | .hbm, ⟨29, _⟩ => ⟨S8192x1, .i32⟩
  | .hbm, ⟨30, _⟩ => ⟨S8192x1, .i1⟩
  | .hbm, ⟨31, _⟩ => ⟨S1x1, .i32⟩
  | .hbm, ⟨32, _⟩ => ⟨S8192x1, .i32⟩
  | .hbm, ⟨33, _⟩ => ⟨S8192x1, .i1⟩
  | .hbm, ⟨34, _⟩ => ⟨S8192x1, .i1⟩
  | .hbm, ⟨35, _⟩ => ⟨S_, .i1⟩
  | .hbm, ⟨36, _⟩ => ⟨S8192, .i1⟩
  | .hbm, ⟨37, _⟩ => ⟨S8192x512, .f32⟩
  | .hbm, ⟨38, _⟩ => ⟨S8192x512, .i1⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S8192x512, .bf16⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S8192x1, .i32⟩
  | .hbm, ⟨51, _⟩ => ⟨S1, .i32⟩
  | .hbm, ⟨52, _⟩ => ⟨S_, .i32⟩
  | .hbm, ⟨53, _⟩ => ⟨S8192x1, .i32⟩
  | .hbm, ⟨54, _⟩ => ⟨S8192x1, .i1⟩
  | .hbm, ⟨55, _⟩ => ⟨S1x1, .i32⟩
  | .hbm, ⟨56, _⟩ => ⟨S8192x1, .i32⟩
  | .hbm, ⟨57, _⟩ => ⟨S8192x1, .i1⟩
  | .hbm, ⟨58, _⟩ => ⟨S8192x1, .i1⟩
  | .hbm, ⟨59, _⟩ => ⟨S_, .i1⟩
  | .hbm, ⟨60, _⟩ => ⟨S8192, .i1⟩
  | .hbm, ⟨61, _⟩ => ⟨S8192x512, .f32⟩
  | .hbm, ⟨62, _⟩ => ⟨S8192x512, .i1⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .bf16⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S1, .i32⟩
  | .hbm, ⟨76, _⟩ => ⟨S_, .i32⟩
  | .hbm, ⟨77, _⟩ => ⟨S8192x1, .i32⟩
  | .hbm, ⟨78, _⟩ => ⟨S8192x1, .i1⟩
  | .hbm, ⟨79, _⟩ => ⟨S1x1, .i32⟩
  | .hbm, ⟨80, _⟩ => ⟨S8192x1, .i32⟩
  | .hbm, ⟨81, _⟩ => ⟨S8192x1, .i1⟩
  | .hbm, ⟨82, _⟩ => ⟨S8192x1, .i1⟩
  | .hbm, ⟨83, _⟩ => ⟨S_, .i1⟩
  | .hbm, ⟨84, _⟩ => ⟨S8192, .i1⟩
  | .hbm, ⟨85, _⟩ => ⟨S8192x512, .f32⟩
  | .hbm, ⟨86, _⟩ => ⟨S8192x512, .i1⟩
  | .hbm, ⟨87, _⟩ => ⟨S_, .f32⟩
  | .hbm, ⟨88, _⟩ => ⟨S8192x512, .f32⟩
  | .hbm, ⟨89, _⟩ => ⟨S8192x512, .f32⟩
  | .hbm, ⟨90, _⟩ => ⟨S8192x512, .bf16⟩
  | .hbm, ⟨91, _⟩ => ⟨S8192x512, .f32⟩
  | .hbm, ⟨92, _⟩ => ⟨S_, .i32⟩
  | .hbm, ⟨93, _⟩ => ⟨S8192, .i32⟩
  | .hbm, ⟨94, _⟩ => ⟨S8192, .i1⟩
  | .hbm, ⟨95, _⟩ => ⟨S_, .i32⟩
  | .hbm, ⟨96, _⟩ => ⟨S8192, .i32⟩
  | .hbm, ⟨97, _⟩ => ⟨S8192, .i32⟩
  | .hbm, ⟨98, _⟩ => ⟨S8192, .i32⟩
  | .hbm, ⟨99, _⟩ => ⟨S8192x1, .i32⟩
  | .hbm, ⟨100, _⟩ => ⟨S32768x512, .f32⟩
  | .hbm, ⟨101, _⟩ => ⟨S4x8192x512, .f32⟩
  | .local _ .vmem, ⟨0, _⟩ => ⟨S1024x512, .f32⟩
  | .local _ .vmem, ⟨1, _⟩ => ⟨S1024x512, .f32⟩
  | .local _ .vmem, ⟨2, _⟩ => ⟨S1536x512, .f32⟩
  | .local _ .vmem, ⟨3, _⟩ => ⟨S1x1536, .f32⟩
  | .local _ .vmem, ⟨4, _⟩ => ⟨S1024x1536, .f32⟩
  | .local _ .vmem, ⟨5, _⟩ => ⟨S1024x1536, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S8192x512, .bf16⟩
  | .local _ .vmem, ⟨11, _⟩ => ⟨S8192x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_v14 : Ref sig .tc := ⟨.hbm, 38, rfl⟩
abbrev main_call2_cst : Ref sig .tc := ⟨.hbm, 39, rfl⟩
abbrev main_call2_v15 : Ref sig .tc := ⟨.hbm, 40, rfl⟩
abbrev main_v10 : Ref sig .tc := ⟨.hbm, 41, rfl⟩
abbrev main_v11 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_c_1 : Ref sig .tc := ⟨.hbm, 51, rfl⟩
abbrev main_call3_c_2 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_3 : Ref sig .tc := ⟨.hbm, 59, rfl⟩
abbrev main_call3_v12 : Ref sig .tc := ⟨.hbm, 60, rfl⟩
abbrev main_call3_v13 : Ref sig .tc := ⟨.hbm, 61, rfl⟩
abbrev main_call3_v14 : Ref sig .tc := ⟨.hbm, 62, rfl⟩
abbrev main_call3_cst : Ref sig .tc := ⟨.hbm, 63, rfl⟩
abbrev main_call3_v15 : Ref sig .tc := ⟨.hbm, 64, rfl⟩
abbrev main_v12 : Ref sig .tc := ⟨.hbm, 65, rfl⟩
abbrev main_v13 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_v14 : Ref sig .tc := ⟨.hbm, 86, rfl⟩
abbrev main_call4_cst : Ref sig .tc := ⟨.hbm, 87, rfl⟩
abbrev main_call4_v15 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_c : Ref sig .tc := ⟨.hbm, 92, rfl⟩
abbrev main_v17 : Ref sig .tc := ⟨.hbm, 93, rfl⟩
abbrev main_v18 : Ref sig .tc := ⟨.hbm, 94, rfl⟩
abbrev main_c_0 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S4x8192x512_S32768x512 : S4x8192x512.ShapeCasts S32768x512
  concatenates_S512x512_S512x512_S512x512_S1536x512_d0 : Shape.Concatenates [S512x512, S512x512, S512x512] S1536x512 0
  concatenates_S512_S512_S512_S1536_d0 : Shape.Concatenates [S512, S512, S512] S1536 0
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  slices_S32768x1536_S32768x512_0_0 : S32768x1536.Slices ![0, 0] S32768x512
  slices_S32768x1536_S32768x512_0_512 : S32768x1536.Slices ![0, 512] S32768x512
  slices_S32768x1536_S32768x512_0_1024 : S32768x1536.Slices ![0, 1024] S32768x512
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x512_0 : S8192.BroadcastsInDim S8192x512 (![0] : Fin 1 → Fin S8192x512.rank)
  bcast_S_S8192x512 : S_.BroadcastsInDim S8192x512 (![] : Fin 0 → Fin S8192x512.rank)
  inb_S8192x512_S8192x512_0_0 : ∀ a, (![0, 0] : Fin 2 → Nat) a + S8192x512.size a ≤ S8192x512.size a
  h_S8192x512 : 0 < S8192x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S8192x512_S8192x512 : S8192x512.ShapeCasts S8192x512
  reduces_S256x8192_S256 : S256x8192.Reduces [1] S256
  shapeCasts_S256_S256x1 : S256.ShapeCasts S256x1
  broadcasts_S256x1_S256x8192 : S256x1.Broadcasts S256x8192
  shapeCasts_S32768x512_S4x8192x512 : S32768x512.ShapeCasts S4x8192x512
  dot_S1024x512_S1536x512_S1024x1536_1_1_0_0_n_n_wf : DotDims.WF S1024x512 S1536x512 S1024x1536 [1] [1] [0] [0] [] []
  gather_S32768x512_S8192x1_S8192x512_1_0_n_n_0_1_1512_wf : GatherDims.WF S32768x512 S8192x1 S8192x512 [1] [0] [] [0] [] 1 ![1, 512]
  dot_S256x512_S8192x512_S256x8192_1_1_0_0_n_n_wf : DotDims.WF S256x512 S8192x512 S256x8192 [1] [1] [0] [0] [] []
  dot_S256x8192_S256x512_S8192x512_0_0_1_1_n_n_wf : DotDims.WF S256x8192 S256x512 S8192x512 [0] [0] [1] [1] [] []
  scatter_S32768x512_S8192x1_S8192x512_1_0_0_1_wf : ScatterDims.WF S32768x512 S8192x1 S8192x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S32768x1536.size a
  hwx0_3 : ∀ i : grid0.Coords, EltTy.bits .f32 = 32 ∨ (Rect.block (s := S32768x1536) S1024x1536.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .bf16 = 32 ∨ (Rect.block (s := S8192x512) S256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S8192x512.size a
  hwx1_1 : ∀ i : grid1.Coords, EltTy.bits .bf16 = 32 ∨ (Rect.block (s := S8192x512) S256x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x512.size a ≤ S8192x512.size a
  hwx1_2 : ∀ i : grid1.Coords, EltTy.bits .bf16 = 32 ∨ (Rect.block (s := S8192x512) S8192x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x512.size a ≤ S8192x512.size a
  hwx1_3 : ∀ i : grid1.Coords, EltTy.bits .f32 = 32 ∨ (Rect.block (s := S8192x512) S8192x512.size (cc1_transform_3 i) (hinb1_3 i)).WholeWords (EltTy.packing .f32)

variable [Facts₀]

def dot_S1024x512_S1536x512_S1024x1536_1_1_0_0_n_n : DotDims S1024x512 S1536x512 S1024x1536 where
  lhsContracting := [1]
  rhsContracting := [1]
  lhsNonContracting := [0]
  rhsNonContracting := [0]
  lhsBatch := []
  rhsBatch := []
  wf := dot_S1024x512_S1536x512_S1024x1536_1_1_0_0_n_n_wf
def comparator_i32_d0 : BitVec 32 → BitVec 32 → BitVec 1 :=
  fun l r =>
    let v1 := IntOp.cmpi .slt l r
    v1
def gather_S32768x512_S8192x1_S8192x512_1_0_n_n_0_1_1512 : GatherDims S32768x512 S8192x1 S8192x512 where
  offsetDims := [1]
  collapsedSliceDims := [0]
  operandBatchingDims := []
  startIndicesBatchingDims := []
  startIndexMap := [0]
  indexVectorDim := 1
  sliceSizes := ![1, 512]
  wf := gather_S32768x512_S8192x1_S8192x512_1_0_n_n_0_1_1512_wf
def dot_S256x512_S8192x512_S256x8192_1_1_0_0_n_n : DotDims S256x512 S8192x512 S256x8192 where
  lhsContracting := [1]
  rhsContracting := [1]
  lhsNonContracting := [0]
  rhsNonContracting := [0]
  lhsBatch := []
  rhsBatch := []
  wf := dot_S256x512_S8192x512_S256x8192_1_1_0_0_n_n_wf
def dot_S256x8192_S256x512_S8192x512_0_0_1_1_n_n : DotDims S256x8192 S256x512 S8192x512 where
  lhsContracting := [0]
  rhsContracting := [0]
  lhsNonContracting := [1]
  rhsNonContracting := [1]
  lhsBatch := []
  rhsBatch := []
  wf := dot_S256x8192_S256x512_S8192x512_0_0_1_1_n_n_wf
def scatter_S32768x512_S8192x1_S8192x512_1_0_0_1 : ScatterDims S32768x512 S8192x1 S8192x512 where
  updateWindowDims := [1]
  insertedWindowDims := [0]
  scatterDimsToOperandDims := [0]
  indexVectorDim := 1
  wf := scatter_S32768x512_S8192x1_S8192x512_1_0_0_1_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8192x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S8192x512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8192x512 : Shape := ⟨3, ![4, 8192, 512]⟩
abbrev S512x512 : Shape := ⟨2, ![512, 512]⟩
abbrev S512 : Shape := ⟨1, ![512]⟩
abbrev S8192 : Shape := ⟨1, ![8192]⟩
abbrev S32768x512 : Shape := ⟨2, ![32768, 512]⟩
abbrev S1x512 : Shape := ⟨2, ![1, 512]⟩
abbrev S_ : Shape := ⟨0, ![]⟩
abbrev S8192x1 : Shape := ⟨2, ![8192, 1]⟩
abbrev S8192x512 : Shape := ⟨2, ![8192, 512]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8192, .i32⟩
  | .hbm, ⟨8, _⟩ => ⟨S8192, .i32⟩
  | .hbm, ⟨9, _⟩ => ⟨S32768x512, .f32⟩
  | .hbm, ⟨10, _⟩ => ⟨S512x512, .f32⟩
  | .hbm, ⟨11, _⟩ => ⟨S32768x512, .f32⟩
  | .hbm, ⟨12, _⟩ => ⟨S1x512, .f32⟩
  | .hbm, ⟨13, _⟩ => ⟨S32768x512, .f32⟩
  | .hbm, ⟨14, _⟩ => ⟨S32768x512, .f32⟩
  | .hbm, ⟨15, _⟩ => ⟨S512x512, .f32⟩
  | .hbm, ⟨16, _⟩ => ⟨S32768x512, .f32⟩
  | .hbm, ⟨17, _⟩ => ⟨S1x512, .f32⟩
  | .hbm, ⟨18, _⟩ => ⟨S32768x512, .f32⟩
  | .hbm, ⟨19, _⟩ => ⟨S32768x512, .f32⟩
  | .hbm, ⟨20, _⟩ => ⟨S512x512, .f32⟩
  | .hbm, ⟨21, _⟩ => ⟨S32768x512, .f32⟩
  | .hbm, ⟨22, _⟩ => ⟨S1x512, .f32⟩
  | .hbm, ⟨23, _⟩ => ⟨S32768x512, .f32⟩
  | .hbm, ⟨24, _⟩ => ⟨S32768x512, .f32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x512, .f32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x512, .f32⟩
  | .hbm, ⟨45, _⟩ => ⟨S512x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S1x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S1x8192, .f32⟩
  | .hbm, ⟨62, _⟩ => ⟨S8192x8192, .f32⟩
  | .hbm, ⟨63, _⟩ => ⟨S8192x8192, .f32⟩
  | .hbm, ⟨64, _⟩ => ⟨S_, .i32⟩
  | .hbm, ⟨65, _⟩ => ⟨S8192, .i32⟩
  | .hbm, ⟨66, _⟩ => ⟨S8192, .i1⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .i32⟩
  | .hbm, ⟨71, _⟩ => ⟨S8192x1, .i32⟩
  | .hbm, ⟨72, _⟩ => ⟨S8192x512, .f32⟩
  | .hbm, ⟨73, _⟩ => ⟨S8192x512, .f32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .i32⟩
  | .hbm, ⟨81, _⟩ => ⟨S8192x1, .i32⟩
  | .hbm, ⟨82, _⟩ => ⟨S32768x512, .f32⟩
  | .hbm, ⟨83, _⟩ => ⟨S4x8192x512, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_c_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  shapeCasts_S4x8192x512_S32768x512 : S4x8192x512.ShapeCasts S32768x512
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S8192 : S_.BroadcastsInDim S8192 (![] : Fin 0 → Fin S8192.rank)
  bcast_S8192_S8192x1_0 : S8192.BroadcastsInDim S8192x1 (![0] : Fin 1 → Fin S8192x1.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  shapeCasts_S32768x512_S4x8192x512 : S32768x512.ShapeCasts S4x8192x512
  dot_S32768x512_S512x512_S32768x512_1_0_0_1_n_n_wf : DotDims.WF S32768x512 S512x512 S32768x512 [1] [0] [0] [1] [] []
  gather_S32768x512_S8192x1_S8192x512_1_0_n_n_0_1_1512_wf : GatherDims.WF S32768x512 S8192x1 S8192x512 [1] [0] [] [0] [] 1 ![1, 512]
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []
  scatter_S32768x512_S8192x1_S8192x512_1_0_0_1_wf : ScatterDims.WF S32768x512 S8192x1 S8192x512 [1] [0] [0] 1

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def comparator_i32_d0 : BitVec 32 → BitVec 32 → BitVec 1 :=
  fun l r =>
    let v1 := IntOp.cmpi .slt l r
    v1
def gather_S32768x512_S8192x1_S8192x512_1_0_n_n_0_1_1512 : GatherDims S32768x512 S8192x1 S8192x512 where
  offsetDims := [1]
  collapsedSliceDims := [0]
  operandBatchingDims := []
  startIndicesBatchingDims := []
  startIndexMap := [0]
  indexVectorDim := 1
  sliceSizes := ![1, 512]
  wf := gather_S32768x512_S8192x1_S8192x512_1_0_n_n_0_1_1512_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def scatter_S32768x512_S8192x1_S8192x512_1_0_0_1 : ScatterDims S32768x512 S8192x1 S8192x512 where
  updateWindowDims := [1]
  insertedWindowDims := [0]
  scatterDimsToOperandDims := [0]
  indexVectorDim := 1
  wf := scatter_S32768x512_S8192x1_S8192x512_1_0_0_1_wf

class Facts : Prop extends Facts₀ where

variable [Facts]
-- ==== Proof.K.QkvRegion.lean ====
/- The frame half of region 0, the fused QKV projection kernel, at a parameter `V` — the TensorCore's buffer
   contents when the region is entered. The body is of the plainest class: it loads its three input windows' staging
   buffers whole (the activation block, the weights, the bias), computes one pure value from them, loads the output
   window's staging buffer once (the value is not used), and stores the computed value over the whole output buffer.
   So what it leaves in the output buffer is a closed function `qkvOut` of the three input blocks at the point, and
   what it finds in an input buffer is that window's block there, whether or not the pipeline fetched it at that
   point (the weights and the bias are fetched at the first point only: their block index never moves). -/
import proofs.«418280_j79096117723502_1_alg».proof.Proof.Gen.Kernel.Launch
import proofs.«418280_j79096117723502_1_alg».proof.Proof.Gen.Kernel.Skeleton
import proofs.«418280_j79096117723502_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the covering check of the output rectangle walks its long axes coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section QkvRegion
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): unfetched, the block index
    has not moved, so the previous point's block is this point's. Window 0, the activation block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1, the weights (one block, index constant over the grid). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2, the bias (one block, index constant over the grid). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev rX : Rect S1024x512 := Rect.unit (s := S1024x512) ![0, 0] S1024x512.size inb_S1024x512_S1024x512_0_0
abbrev rW : Rect S1536x512 := Rect.unit (s := S1536x512) ![0, 0] S1536x512.size inb_S1536x512_S1536x512_0_0
abbrev rB : Rect S1x1536 := Rect.unit (s := S1x1536) ![0, 0] S1x1536.size inb_S1x1536_S1x1536_0_0
abbrev rO : Rect S1024x1536 := Rect.unit (s := S1024x1536) ![0, 0] S1024x1536.size inb_S1024x1536_S1024x1536_0_0

/-! ## What the body leaves in the output window's buffer -/

/-- The output window's staging buffer after the body, from the three input blocks: its one store as a piece
    (the payload is the skeleton's: the bf16 product of the activations with the transposed weights, accumulated
    in f32, plus the broadcast bias). -/
def qkvOut (x : Vec F S1024x512 .f32) (w : Vec F S1536x512 .f32) (b : Vec F S1x1536 .f32) : Vec F S1024x1536 .f32 :=
  View.canon [⟨rO, k0_pay1 (View.ld x rX) (View.ld w rW) (View.ld b rB)⟩]

/-- The one store tiles the buffer (checked by evaluation), so it covers it. -/
theorem cover0_3 (p0 : Vec F S1024x1536 .f32) (y : S1024x1536.Idx) :
    ∃ pc ∈ ([⟨rO, p0⟩] : List (View.Piece (Elt F) S1024x1536 .f32)), y ∈ pc.1.set :=
  View.cover_of_tiled [⟨rO, p0⟩] S1024x1536.size (by rfl) y

/-! ## The body's triple -/

set_option maxHeartbeats 1000000 in
/-- The kernel body on whole staging memrefs, the inputs' at read contents `x`, `w`, `b` and the output's at
    anything, runs to the continuation holding the inputs' as they were and the output's at `qkvOut x w b`. -/
theorem sound_kernel0 (c : Dev nD) (E : Set ℕ) (i : grid0.Coords)
    (arg1 : Memref sig .tc .vmem S1024x512 .f32) (harg1 : arg1.IsWhole) (arg2 : Memref sig .tc .vmem S1536x512 .f32) (harg2 : arg2.IsWhole)
    (arg3 : Memref sig .tc .vmem S1x1536 .f32) (harg3 : arg3.IsWhole) (arg4 : Memref sig .tc .vmem S1024x1536 .f32) (harg4 : arg4.IsWhole)
    (x : Vec F S1024x512 .f32) (w : Vec F S1536x512 .f32) (b : Vec F S1x1536 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (qkvOut x w b)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The pipeline's proof data -/

/-- The proof data of pipeline 0 on core `c`: the arrays as the region finds them (`V`); after the body at point
    `t` each input's buffer at its block and the output's at `qkvOut` of the input blocks; the invariant the class's
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => qkvOut (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = qkvOut (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end QkvRegion

end Cert.Kernel.Hand

end
-- ==== Proof.K.AttnRunA.lean ====
/- The attention kernel's body, run whole at the first grid point: its branch condition over the grid, the staging
   memrefs it is called on, and the triple of the body when the output block is first zeroed and then updated. -/
import proofs.«418280_j79096117723502_1_alg».proof.Proof.Gen.Kernel.Launch
import proofs.«418280_j79096117723502_1_alg».proof.Proof.Gen.Kernel.Skeleton
import proofs.«418280_j79096117723502_1_alg».proof.Proof.Gen.Kernel.Points
import Idealize.ShloMosaic.Lib.Pipeline.FrameBody
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The attention body's branch condition -/

/-- The condition of the body's one `scf.if`, from the grid coordinate (the skeleton's scalar chain substituted):
    the coordinate is zero. -/
abbrev cond1_0 (i : grid1.Coords) : Prop := (Scalar.cmpi .ne (Scalar.extui (Scalar.cmpi .eq (BitVec.ofNat 32 (i 0).val) 0#32)) 0#32) = 1#1
/-- It holds at the first point only: decided over the 32 points of the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-! ## The staging memrefs the body is called on -/

/-- The one staging buffer of the output window, through which its contents are stated (the choice does not matter:
    a whole-block cover reads back the same from any view). -/
abbrev VO1_3 : View sig .tc .vmem S8192x512 .f32 := (Memref.whole cc1_stg3_0 : Memref sig .tc .vmem S8192x512 .f32).view
/-- Each window's current staging memref at point `t`, spelled as the pipeline passes it, and its wholeness. -/
abbrev ms1_0 (t : Fin cfg1.N) : Memref sig .tc .vmem S256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x512 .f32 := win1_3.stage (cfg1.slots t 3)
abbrev hs1_3 (t : Fin cfg1.N) : (ms1_3 t).IsWhole := hstage1_3 ((cfg1.slots t 3).cast nbuf1_3)

-- (the run's proof term is large: the definition's epilogue walks it past the default budget)
set_option maxHeartbeats 1000000 in
/-- What the body's stores leave in the output's staging memref, as pieces (last first), AT THE FIRST POINT (the `scf.if` taken: the block is zeroed, then updated), WITH the
    proof that on whole staging memrefs — the three inputs' at their contents, the output's at anything — the
    body runs to the continuation holding the inputs' as they were and the output's buffer with its pieces written.
    The printed function is its skeleton, which the symbolic execution runs, the `scf.if` decided by `hc0`; the
    pieces are the witness that run finds (assigned when the buffer is handed to the continuation). -/
noncomputable def kernelRun1_A (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : cond1_0 i)
    (x0 : Vec F S256x512 .bf16) (x1 : Vec F S256x512 .bf16) (x2 : Vec F S8192x512 .bf16) :
    { L3 : List (View.Piece (Elt F) S8192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__attn_kernel i arg1 harg1 arg2 harg2 arg3 harg3 arg4 harg4) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.K.AttnRunB.lean ====
/- The attention kernel's body, run whole at a grid point after the first: the triple of the body when the output
   block is updated from the running contents the point before left. -/
import proofs.«418280_j79096117723502_1_alg».proof.Proof.K.AttnRunA

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first), AFTER THE FIRST POINT (the `scf.if` not taken: the block is updated from its running contents `xo3`), WITH the
    proof that on whole staging memrefs — the three inputs' at their contents, the output's at its running contents — the
    body runs to the continuation holding the inputs' as they were and the output's buffer with its pieces written.
    The printed function is its skeleton, which the symbolic execution runs, the `scf.if` decided by `hc0`; the
    pieces are the witness that run finds (assigned when the buffer is handed to the continuation). -/
noncomputable def kernelRun1_B (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : ¬cond1_0 i)
    (x0 : Vec F S256x512 .bf16) (x1 : Vec F S256x512 .bf16) (x2 : Vec F S8192x512 .bf16) (xo3 : Vec F S8192x512 .f32) :
    { L3 : List (View.Piece (Elt F) S8192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__attn_kernel i arg1 harg1 arg2 harg2 arg3 harg3 arg4 harg4) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.K.AttnRegion.lean ====
/- The frame half of the attention region: what each control case of the body leaves in the output block, what the block
   holds point by point (reset at the first point, then accumulated), the pipeline's proof data at a parameter `V` (the
   buffers' contents when the region is entered), the body obligation, and the two value equations of the
   accumulation. -/
import proofs.«418280_j79096117723502_1_alg».proof.Proof.K.AttnRunB
import Idealize.ShloMosaic.Lib.Pipeline.Value

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof data
    whose array is `V`'s (`hA`) and whose body leaves the block in place (`hafter`): unfetched, the block index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof data
    whose array is `V`'s (`hA`) and whose body leaves the block in place (`hafter`): unfetched, the block index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's staging buffer -/

/-- At the first point the pieces tile the output block (two whole-block stores), so they cover it. -/
theorem cover1_A_3 (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : cond1_0 i)
    (x0 : Vec F S256x512 .bf16) (x1 : Vec F S256x512 .bf16) (x2 : Vec F S8192x512 .bf16) (y : S8192x512.Idx) :
    ∃ pc ∈ (kernelRun1_A c i arg1 harg1 arg2 harg2 arg3 harg3 arg4 harg4 hc0 x0 x1 x2).1, y ∈ pc.1.set :=
  View.cover_of_tiledL (kernelRun1_A c i arg1 harg1 arg2 harg2 arg3 harg3 arg4 harg4 hc0 x0 x1 x2).1 S8192x512.size (by sl_kernel_rfl) y

/-- What the first point leaves in the output's staging buffer: its pieces read back over junk. -/
def out1_A_3 (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : cond1_0 i)
    (x0 : Vec F S256x512 .bf16) (x1 : Vec F S256x512 .bf16) (x2 : Vec F S8192x512 .bf16) : Vec F S8192x512 .f32 :=
  VO1_3.read (Elt F) (VO1_3.writes (Elt F) VO1_3.junk (kernelRun1_A c i arg1 harg1 arg2 harg2 arg3 harg3 arg4 harg4 hc0 x0 x1 x2).1)

/-- After the first point the pieces tile the output block (one whole-block store), so they cover it. -/
theorem cover1_B_3 (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : ¬cond1_0 i)
    (x0 : Vec F S256x512 .bf16) (x1 : Vec F S256x512 .bf16) (x2 : Vec F S8192x512 .bf16) (xo3 : Vec F S8192x512 .f32) (y : S8192x512.Idx) :
    ∃ pc ∈ (kernelRun1_B c i arg1 harg1 arg2 harg2 arg3 harg3 arg4 harg4 hc0 x0 x1 x2 xo3).1, y ∈ pc.1.set :=
  View.cover_of_tiledL (kernelRun1_B c i arg1 harg1 arg2 harg2 arg3 harg3 arg4 harg4 hc0 x0 x1 x2 xo3).1 S8192x512.size (by sl_kernel_rfl) y

/-- What a later point leaves in the output's staging buffer: its pieces read back over junk. -/
def out1_B_3 (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : ¬cond1_0 i)
    (x0 : Vec F S256x512 .bf16) (x1 : Vec F S256x512 .bf16) (x2 : Vec F S8192x512 .bf16) (xo3 : Vec F S8192x512 .f32) : Vec F S8192x512 .f32 :=
  VO1_3.read (Elt F) (VO1_3.writes (Elt F) VO1_3.junk (kernelRun1_B c i arg1 harg1 arg2 harg2 arg3 harg3 arg4 harg4 hc0 x0 x1 x2 xo3).1)

/-! ## What the output holds after each point -/

/-- THE ACCUMULATION. What the output's staging buffer holds after the body at position `n`: at the first point
    (and at any multiple of the grid's length) the reset case, run at the point's memrefs and input blocks; otherwise
    the update case over what this leaves at `n - 1` (the buffer is not written back between). -/
def attnAt (c : Dev nD) : (n : ℕ) → n < cfg1.N → Vec F S8192x512 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 32 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (attnAt c n (Nat.lt_of_succ_lt hn))

/-- `attnAt` at a point of the reset case: that case's contents. -/
theorem attnAt_A (c : Dev nD) (t : Fin cfg1.N) (h0 : t.val % 32 = 0) :
    attnAt V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

/-- `attnAt` at a point of the update case: that case's contents, over what the point before left. -/
theorem attnAt_B (c : Dev nD) (t : Fin cfg1.N) (h0 : ¬t.val % 32 = 0) :
    attnAt V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (attnAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the attention pipeline on core `c`: the arrays as the region finds them (`V`); after the body at
    point `t` each input's buffer at its block and the output's at `attnAt`; the class's invariant (the scoped rest
    and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (attnAt V c t.val t.isLt)
  Φ _ := Pipeline.ΦA spec1 c
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = attnAt V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of the update case the output's current staging buffer holds what the body left at the point before:
    the point is not the first, the buffer was not written back between (it is written back at the last point only),
    the window is live and uncut. -/
theorem before1_3_B (c : Dev nD) (t : Fin cfg1.N) (h0 : ¬t.val % 32 = 0) (d) :
    (dat1 V c).before 3 t d = (attnAt V c (t.val - 1) (Nat.lt_of_le_of_lt (Nat.sub_le _ _) t.isLt)) := by
  have hN : t.val < 32 := lt_of_lt_of_eq t.isLt (show cfg1.N = 32 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; the closed form says which case the point is in; in the
    update case the output's memref holds what the point before left; so that case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 32 := lt_of_lt_of_eq t.isLt (show cfg1.N = 32 from N_1)
  by_cases h0 : t.val % 32 = 0
  · rw [attnAt_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [attnAt_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The two value equations: what each case's found pieces read back to -/

/-- The origin of a whole-block access is the zero offset. -/
theorem hz1 : (![0, 0] : Fin 2 → Nat) = fun _ => 0 := funext fun a => by fin_cases a <;> rfl

/-- The reset case's contents: the update of the zero block (the reset's store, then the update's store of the
    payload over the zeros read back; the later store covers). -/
theorem out1_A_3_eq (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : cond1_0 i)
    (x0 : Vec F S256x512 .bf16) (x1 : Vec F S256x512 .bf16) (x2 : Vec F S8192x512 .bf16) :
    out1_A_3 c i arg1 harg1 arg2 harg2 arg3 harg3 arg4 harg4 hc0 x0 x1 x2 = k1_pay2 x0 x2 x1 (k1_pay1 (F := F)) := by
  unfold out1_A_3
  rw [View.read_writes_eq_canon _ _ _ (cover1_A_3 c i arg1 harg1 arg2 harg2 arg3 harg3 arg4 harg4 hc0 x0 x1 x2)]
  unfold kernelRun1_A
  dsimp only
  sl_unfold_words
  rw [View.canon_cons_unit_zero (S := S8192x512) hz1, View.readCov_unit_zero (S := S8192x512) _ hz1]
  simp only [View.readAt_eq_ld, harg1.read_unread, harg2.read_unread, harg3.read_unread,
    View.ld_unit_zero (S := S256x512) hz1, View.ld_unit_zero (S := S8192x512) hz1]

/-- The update case's contents: the payload over the running contents (one store, which covers). -/
theorem out1_B_3_eq (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : ¬cond1_0 i)
    (x0 : Vec F S256x512 .bf16) (x1 : Vec F S256x512 .bf16) (x2 : Vec F S8192x512 .bf16) (xo3 : Vec F S8192x512 .f32) :
    out1_B_3 c i arg1 harg1 arg2 harg2 arg3 harg3 arg4 harg4 hc0 x0 x1 x2 xo3 = k1_pay2 x0 x2 x1 xo3 := by
  unfold out1_B_3
  rw [View.read_writes_eq_canon _ _ _ (cover1_B_3 c i arg1 harg1 arg2 harg2 arg3 harg3 arg4 harg4 hc0 x0 x1 x2 xo3)]
  unfold kernelRun1_B
  dsimp only
  sl_unfold_words
  rw [View.canon_unit_zero hz1]
  simp only [View.readAt_eq_ld, harg1.read_unread, harg2.read_unread, harg3.read_unread, harg4.read_unread,
    View.ld_unit_zero (S := S256x512) hz1, View.ld_unit_zero (S := S8192x512) hz1]

/-- At the first point the output block is the update of the zero block by that point's tiles. -/
theorem attnAt_zero (c : Dev nD) (h : 0 < cfg1.N) :
    attnAt V c 0 h = k1_pay2 (iblk1 V c 0 ⟨0, h⟩) (iblk1 V c 2 ⟨0, h⟩) (iblk1 V c 1 ⟨0, h⟩) (k1_pay1 (F := F)) := by
  exact (attnAt_A V c ⟨0, h⟩ (Nat.zero_mod _)).trans
    (out1_A_3_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr (Nat.zero_mod _))
      (iblk1 V c 0 ⟨0, h⟩) (iblk1 V c 1 ⟨0, h⟩) (iblk1 V c 2 ⟨0, h⟩))

/-- At a later point the output block is the update, by that point's tiles, of what the point before left. -/
theorem attnAt_succ (c : Dev nD) (n : ℕ) (h : n + 1 < cfg1.N) :
    attnAt V c (n + 1) h = k1_pay2 (iblk1 V c 0 ⟨n + 1, h⟩) (iblk1 V c 2 ⟨n + 1, h⟩) (iblk1 V c 1 ⟨n + 1, h⟩) (attnAt V c n (Nat.lt_of_succ_lt h)) := by
  have hN : n + 1 < 32 := lt_of_lt_of_eq h (show cfg1.N = 32 from N_1)
  have h0 : ¬(n + 1) % 32 = 0 := by omega
  exact (attnAt_B V c ⟨n + 1, h⟩ h0).trans
    (out1_B_3_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => h0 ((hcond1_0 ⟨n + 1, h⟩).mp hh))
      (iblk1 V c 0 ⟨n + 1, h⟩) (iblk1 V c 1 ⟨n + 1, h⟩) (iblk1 V c 2 ⟨n + 1, h⟩) (attnAt V c n (Nat.lt_of_succ_lt h)))

end Region

end Cert.Kernel.Hand

end
-- ==== Proof.K.Run.lean ====
/-
  The whole run of the program. Between two items of @main a core holds every unscoped buffer at a known content: the launch
  memory, then each host stretch's operations applied in turn, and after each of the two launches the launch's result array at
  what its pipeline wrote back (the block each grid point flushed, folded over the grid), every other buffer as before. A launch
  is entered from "every unscoped buffer at its contents, the generator register at some state, nothing owed" and left in the
  same form; its arrays are taken out of the unscoped buffers at entry and put back at exit. The run then ends with every
  unscoped buffer at the last boundary's contents, read against the final state: the argument arrays are among them (no item
  writes one), and so is the result.
-/
import proofs.«418280_j79096117723502_1_alg».proof.Proof.Gen.Kernel.Regions
import proofs.«418280_j79096117723502_1_alg».proof.Proof.K.QkvRegion
import proofs.«418280_j79096117723502_1_alg».proof.Proof.K.AttnRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two launches leave -/

/-- The first launch's entry contents: the launch memory after the first host stretch, read at the TensorCore's references. -/
abbrev entry0 : (c : Dev nD) → (b : Ref sig .tc) → Buf (Elt F) ((c : Thread nD τ).loc b) := fun c b => Gen.V1 m c b

/-- After the first launch: its arrays at what the pipeline leaves, every other buffer as entered. -/
def after0 (c : Dev nD) : Valuation τ sig (Elt F) :=
  Pipeline.withArrays spec0 c (Gen.V1 m c) fun w => (dat0 (entry0 m) c).arrAt w cfg0.N
theorem after0_arr (c : Dev nD) (w : Fin cfg0.W) :
    after0 m c (Proc.devRef .tc (Pipeline.arrRef spec0 w)) = (dat0 (entry0 m) c).arrAt w cfg0.N := by
  unfold after0; exact Pipeline.withArrays_arr spec0 launch0.win.arr_inj c _ _ w

/-- The contents the launches leave, when only the first is known: enough to name the second launch's entry contents. -/
def outsA : Gen.Outs (F := F) := fun _ r c => after0 m c r

/-- The second launch's entry contents. -/
abbrev entry1 : (c : Dev nD) → (b : Ref sig .tc) → Buf (Elt F) ((c : Thread nD τ).loc b) := fun c b => Gen.V11 m (outsA m) c b

/-- After the second launch: its arrays at what the pipeline leaves, every other buffer as entered. -/
def after1 (c : Dev nD) : Valuation τ sig (Elt F) :=
  Pipeline.withArrays spec1 c (Gen.V11 m (outsA m) c) fun w => (dat1 (entry1 m) c).arrAt w cfg1.N
theorem after1_arr (c : Dev nD) (w : Fin cfg1.W) :
    after1 m c (Proc.devRef .tc (Pipeline.arrRef spec1 w)) = (dat1 (entry1 m) c).arrAt w cfg1.N := by
  unfold after1; exact Pipeline.withArrays_arr spec1 launch1.win.arr_inj c _ _ w

/-- What the two launches leave: after item 11 the second launch's contents, before it the first's. -/
def outs : Gen.Outs (F := F) := fun J r c => match J with
  | 12 => after1 m c r
  | _ => after0 m c r

theorem outs_two (c : Dev nD) : outs m 2 main_v4 c = (dat0 (entry0 m) c).arrAt 3 cfg0.N :=
  after0_arr m c 3
theorem outs_twelve (c : Dev nD) : outs m 12 main_v16 c = (dat1 (entry1 m) c).arrAt 3 cfg1.N :=
  after1_arr m c 3
/-- The second launch is entered at the same contents under either naming. -/
theorem V11_outs (c : Dev nD) : Gen.V11 m (outs m) c = Gen.V11 m (outsA m) c := rfl

/-! ## The proof data and what rides along -/

/-- Every pipeline's proof data, each at its launch's entry contents (a literal match, so that a pipeline index at a numeral
    reduces to the printed configuration). -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev 𝒱₀ : Variants := Variants.none
/-- No core owes another anything: no level is assigned. -/
abbrev Lev : GSem nD τ sig → Finset Unit := fun _ => ∅
abbrev lev : GSem nD τ sig → Unit → ℕ := fun _ _ => 0
/-- Beside the buffers, through every item: the core's generator register at some state and its dues, at nothing. -/
abbrev Rest (c : Dev nD) : sProp 𝕄 := iprop((∃ r, prngReg c r) ∗ ∃ W, owes (c : Thread nD τ) (0 : CellTallies nD τ sig Unit) W)
abbrev rests : Fin 3 → Dev nD → sProp 𝕄 := fun _ c => Rest c

/-! ## Each launch's arrays at its exit -/

/-- The contents after the first launch, read at the TensorCore's references. -/
abbrev exit0 : (c : Dev nD) → (b : Ref sig .tc) → Buf (Elt F) ((c : Thread nD τ).loc b) := fun c b => Gen.V2 m (outs m) c b
/-- The contents after the second launch. -/
abbrev exit1 : (c : Dev nD) → (b : Ref sig .tc) → Buf (Elt F) ((c : Thread nD τ).loc b) := fun c b => Gen.V12 m (outs m) c b

/-- After the first launch each of its arrays holds what the pipeline leaves: an input as entered, the result the flushed blocks. -/
theorem hF0 (c : Dev nD) : ∀ w : Fin cfg0.W, (dat0 (entry0 m) c).arrAt w cfg0.N = exit0 m c (Pipeline.arrRef spec0 w)
  | ⟨0, _⟩ => ((dat0 (entry0 m) c).arrAt_in 0 rfl _).trans ((A_eq0 (entry0 m) c 0).trans (Gen.V2_of m (outs m) c main_v0 (by decide)).symm)
  | ⟨1, _⟩ => ((dat0 (entry0 m) c).arrAt_in 1 rfl _).trans ((A_eq0 (entry0 m) c 1).trans (Gen.V2_of m (outs m) c main_v1 (by decide)).symm)
  | ⟨2, _⟩ => ((dat0 (entry0 m) c).arrAt_in 2 rfl _).trans ((A_eq0 (entry0 m) c 2).trans (Gen.V2_of m (outs m) c main_v3 (by decide)).symm)
  | ⟨3, _⟩ => (outs_two m c).symm.trans (by show _ = Gen.V2 m (outs m) c main_v4; simp only [Gen.V2, Function.update_self])
  | ⟨_ + 4, h⟩ => absurd h (Nat.not_lt.2 (Nat.le_add_left _ _))
/-- Every other buffer is as entered. -/
theorem hrest0 (c : Dev nD) : ∀ b, b ∉ Finset.univ.image (Pipeline.arrRef spec0) → exit0 m c b = entry0 m c b :=
  fun b hb => Gen.V2_of m (outs m) c b (by
    intro hmem
    rw [List.mem_singleton] at hmem
    exact hb (Finset.mem_image.mpr ⟨3, Finset.mem_univ _, hmem.symm⟩))

/-- After the second launch each of its arrays holds what the pipeline leaves. -/
theorem hF1 (c : Dev nD) : ∀ w : Fin cfg1.W, (dat1 (entry1 m) c).arrAt w cfg1.N = exit1 m c (Pipeline.arrRef spec1 w)
  | ⟨0, _⟩ => ((dat1 (entry1 m) c).arrAt_in 0 rfl _).trans ((A_eq1 (entry1 m) c 0).trans (Gen.V12_of m (outs m) c main_v13 (by decide)).symm)
  | ⟨1, _⟩ => ((dat1 (entry1 m) c).arrAt_in 1 rfl _).trans ((A_eq1 (entry1 m) c 1).trans (Gen.V12_of m (outs m) c main_v15 (by decide)).symm)
  | ⟨2, _⟩ => ((dat1 (entry1 m) c).arrAt_in 2 rfl _).trans ((A_eq1 (entry1 m) c 2).trans (Gen.V12_of m (outs m) c main_v11 (by decide)).symm)
  | ⟨3, _⟩ => (outs_twelve m c).symm.trans (by show _ = Gen.V12 m (outs m) c main_v16; simp only [Gen.V12, Function.update_self])
  | ⟨_ + 4, h⟩ => absurd h (Nat.not_lt.2 (Nat.le_add_left _ _))
theorem hrest1 (c : Dev nD) : ∀ b, b ∉ Finset.univ.image (Pipeline.arrRef spec1) → exit1 m c b = entry1 m c b :=
  fun b hb => Gen.V12_of m (outs m) c b (by
    intro hmem
    rw [List.mem_singleton] at hmem
    exact hb (Finset.mem_image.mpr ⟨3, Finset.mem_univ _, hmem.symm⟩))

/-! ## The launches as segments -/

set_option backward.isDefEq.respectTransparency.types false in
/-- The first launch over the thread state: entered from every unscoped buffer at the contents after the first host stretch,
    left at those with its result array at what the pipeline wrote. Its arrays are split out of the unscoped buffers and put
    back at the exit contents; the generator register goes into the body's invariant and out; nothing is owed; the kernel has
    no semaphore of its own. -/
def reg0 : RegionSeg (pcfgs (F := F)) Gen.adm (pdats m) () defs₀ 𝒱₀ Lev lev 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ Lev lev 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state, in the same way: entered from every unscoped buffer at the contents after the
    last stretch before it, left at those with its result array at what the pipeline wrote. -/
def reg1 : RegionSeg (pcfgs (F := F)) Gen.adm (pdats m) () defs₀ 𝒱₀ Lev lev 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ Lev lev 1 fun _ _ => rfl
  pre c := iprop(StableHlo.held (c : Thread nD τ) (Pipeline.ucRefs τ sig) (Gen.V11 m (outsA m) c) ∗ Rest c)
  post c := iprop(StableHlo.held (c : Thread nD τ) (Pipeline.ucRefs τ sig) (Gen.V12 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- After the last host stretch: the buffers and the generator register on one side, the dues (nothing) on the other. -/
theorem last_step (c : Dev nD) :
    iprop(StableHlo.held (c : Thread nD τ) (Pipeline.ucRefs τ sig) (Gen.V13 m (outs m) c) ∗ Rest (F := F) c)
      ⊢ iprop((StableHlo.held (c : Thread nD τ) (Pipeline.ucRefs τ sig) (Gen.V13 m (outs m) c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN. From any memory with zero counters every weakly fair execution of @main terminates, nothing faulting, and in
    every final state each unscoped buffer holds the last boundary's contents: the launch memory pushed through the host
    stretches and the two launches in order. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V13 m (outs m) c b) := by
  refine Pipeline.θ_run_regions_kit_dev (pcfgs (F := F)) Gen.adm (pdats m) () cellOf_inj emb₁ defs₀ 𝒱₀ Lev lev m ρ main
    (Gen.segs m (outs m) 𝒱₀ Lev lev rests () (pdats m) (reg0 m) (reg1 m))
    (fun c Q => by
      rewrite [main_chain c, Seg.run_eq_chain,
        show (Gen.segs m (outs m) 𝒱₀ Lev lev rests () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => iprop(StableHlo.held (c : Thread nD τ) (Pipeline.ucRefs τ sig) (Gen.V13 m (outs m) c) ∗ ∃ r, prngReg c r))
    (hch := fun c => ⟨.rfl, .rfl, .rfl, .rfl, .rfl, .rfl, .rfl, .rfl, .rfl, .rfl, .rfl,
      Entails.of_eq (congrArg (fun V => iprop(StableHlo.held (c : Thread nD τ) (Pipeline.ucRefs τ sig) V ∗ Rest c)) (V11_outs m c)), .rfl,
      last_step m c⟩)
    (hinit := by
      refine Pipeline.initEach Lev lev fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V13 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V13 m (outs m) c) s')
      isplitl [Hh] <;> iassumption)
    (hQ := fun s h c => h c)

/-- THE FRAME: the program runs to the end, faulting nowhere, and each argument array ends as launched — no host stretch
    writes one and no launch may change one, so the last boundary's contents at an argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c),
     (h c _ (mem_uc main_arg6 (by decide))).trans (Gen.V13_main_arg6 m (outs m) c),
     (h c _ (mem_uc main_arg7 (by decide))).trans (Gen.V13_main_arg7 m (outs m) c),
     (h c _ (mem_uc main_arg8 (by decide))).trans (Gen.V13_main_arg8 m (outs m) c)⟩) (run m ρ)

/-- The same run, with the result array's final contents named beside the unchanged arguments. -/
theorem run_result : θ_run defs (onTc (τ := τ) (main (F := F))) ⟨m, fun _ => 0, ρ⟩ (fun r => ∀ c : Dev nD,
      r.2.mem ((c.tc : Thread nD τ).loc main_v24) = Gen.V13 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v24 (by decide)),
     (h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c),
     (h c _ (mem_uc main_arg6 (by decide))).trans (Gen.V13_main_arg6 m (outs m) c),
     (h c _ (mem_uc main_arg7 (by decide))).trans (Gen.V13_main_arg7 m (outs m) c),
     (h c _ (mem_uc main_arg8 (by decide))).trans (Gen.V13_main_arg8 m (outs m) c)⟩) (run m ρ)

end Cert.Kernel.Hand

end
-- ==== Proof.KI.QkvRegion.lean ====
/- The frame half of region 0, the fused QKV projection kernel, at a parameter `V` — the TensorCore's buffer
   contents when the region is entered. The body is of the plainest class: it loads its three input windows' staging
   buffers whole (the activation block, the weights, the bias), computes one pure value from them, loads the output
   window's staging buffer once (the value is not used), and stores the computed value over the whole output buffer.
   So what it leaves in the output buffer is a closed function `qkvOut` of the three input blocks at the point, and
   what it finds in an input buffer is that window's block there, whether or not the pipeline fetched it at that
   point (the weights and the bias are fetched at the first point only: their block index never moves). -/
import proofs.«418280_j79096117723502_1_alg».proof.Proof.Gen.KernelIdeal.Launch
import proofs.«418280_j79096117723502_1_alg».proof.Proof.Gen.KernelIdeal.Skeleton
import proofs.«418280_j79096117723502_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the covering check of the output rectangle walks its long axes coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section QkvRegion
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): unfetched, the block index
    has not moved, so the previous point's block is this point's. Window 0, the activation block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1, the weights (one block, index constant over the grid). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2, the bias (one block, index constant over the grid). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev rX : Rect S1024x512 := Rect.unit (s := S1024x512) ![0, 0] S1024x512.size inb_S1024x512_S1024x512_0_0
abbrev rW : Rect S1536x512 := Rect.unit (s := S1536x512) ![0, 0] S1536x512.size inb_S1536x512_S1536x512_0_0
abbrev rB : Rect S1x1536 := Rect.unit (s := S1x1536) ![0, 0] S1x1536.size inb_S1x1536_S1x1536_0_0
abbrev rO : Rect S1024x1536 := Rect.unit (s := S1024x1536) ![0, 0] S1024x1536.size inb_S1024x1536_S1024x1536_0_0

/-! ## What the body leaves in the output window's buffer -/

/-- The output window's staging buffer after the body, from the three input blocks: its one store as a piece
    (the payload is the skeleton's: the bf16 product of the activations with the transposed weights, accumulated
    in f32, plus the broadcast bias). -/
def qkvOut (x : Vec F S1024x512 .f32) (w : Vec F S1536x512 .f32) (b : Vec F S1x1536 .f32) : Vec F S1024x1536 .f32 :=
  View.canon [⟨rO, k0_pay1 (View.ld x rX) (View.ld w rW) (View.ld b rB)⟩]

/-- The one store tiles the buffer (checked by evaluation), so it covers it. -/
theorem cover0_3 (p0 : Vec F S1024x1536 .f32) (y : S1024x1536.Idx) :
    ∃ pc ∈ ([⟨rO, p0⟩] : List (View.Piece (Elt F) S1024x1536 .f32)), y ∈ pc.1.set :=
  View.cover_of_tiled [⟨rO, p0⟩] S1024x1536.size (by rfl) y

/-! ## The body's triple -/

set_option maxHeartbeats 1000000 in
/-- The kernel body on whole staging memrefs, the inputs' at read contents `x`, `w`, `b` and the output's at
    anything, runs to the continuation holding the inputs' as they were and the output's at `qkvOut x w b`. -/
theorem sound_kernel0 (c : Dev nD) (E : Set ℕ) (i : grid0.Coords)
    (arg1 : Memref sig .tc .vmem S1024x512 .f32) (harg1 : arg1.IsWhole) (arg2 : Memref sig .tc .vmem S1536x512 .f32) (harg2 : arg2.IsWhole)
    (arg3 : Memref sig .tc .vmem S1x1536 .f32) (harg3 : arg3.IsWhole) (arg4 : Memref sig .tc .vmem S1024x1536 .f32) (harg4 : arg4.IsWhole)
    (x : Vec F S1024x512 .f32) (w : Vec F S1536x512 .f32) (b : Vec F S1x1536 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (qkvOut x w b)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The pipeline's proof data -/

/-- The proof data of pipeline 0 on core `c`: the arrays as the region finds them (`V`); after the body at point
    `t` each input's buffer at its block and the output's at `qkvOut` of the input blocks; the invariant the class's
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => qkvOut (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = qkvOut (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end QkvRegion

end Cert.KernelIdeal.Hand

end
-- ==== Proof.KI.AttnRunA.lean ====
/- The attention kernel's body, run whole at the first grid point: its branch condition over the grid, the staging
   memrefs it is called on, and the triple of the body when the output block is first zeroed and then updated. -/
import proofs.«418280_j79096117723502_1_alg».proof.Proof.Gen.KernelIdeal.Launch
import proofs.«418280_j79096117723502_1_alg».proof.Proof.Gen.KernelIdeal.Skeleton
import proofs.«418280_j79096117723502_1_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The attention body's branch condition -/

/-- The condition of the body's one `scf.if`, from the grid coordinate (the skeleton's scalar chain substituted):
    the coordinate is zero. -/
abbrev cond1_0 (i : grid1.Coords) : Prop := (Scalar.cmpi .ne (Scalar.extui (Scalar.cmpi .eq (BitVec.ofNat 32 (i 0).val) 0#32)) 0#32) = 1#1
/-- It holds at the first point only: decided over the 32 points of the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-! ## The staging memrefs the body is called on -/

/-- The one staging buffer of the output window, through which its contents are stated (the choice does not matter:
    a whole-block cover reads back the same from any view). -/
abbrev VO1_3 : View sig .tc .vmem S8192x512 .f32 := (Memref.whole cc1_stg3_0 : Memref sig .tc .vmem S8192x512 .f32).view
/-- Each window's current staging memref at point `t`, spelled as the pipeline passes it, and its wholeness. -/
abbrev ms1_0 (t : Fin cfg1.N) : Memref sig .tc .vmem S256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x512 .f32 := win1_3.stage (cfg1.slots t 3)
abbrev hs1_3 (t : Fin cfg1.N) : (ms1_3 t).IsWhole := hstage1_3 ((cfg1.slots t 3).cast nbuf1_3)

-- (the run's proof term is large: the definition's epilogue walks it past the default budget)
set_option maxHeartbeats 1000000 in
/-- What the body's stores leave in the output's staging memref, as pieces (last first), AT THE FIRST POINT (the `scf.if` taken: the block is zeroed, then updated), WITH the
    proof that on whole staging memrefs — the three inputs' at their contents, the output's at anything — the
    body runs to the continuation holding the inputs' as they were and the output's buffer with its pieces written.
    The printed function is its skeleton, which the symbolic execution runs, the `scf.if` decided by `hc0`; the
    pieces are the witness that run finds (assigned when the buffer is handed to the continuation). -/
noncomputable def kernelRun1_A (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : cond1_0 i)
    (x0 : Vec F S256x512 .bf16) (x1 : Vec F S256x512 .bf16) (x2 : Vec F S8192x512 .bf16) :
    { L3 : List (View.Piece (Elt F) S8192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__attn_kernel i arg1 harg1 arg2 harg2 arg3 harg3 arg4 harg4) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.KI.AttnRunB.lean ====
/- The attention kernel's body, run whole at a grid point after the first: the triple of the body when the output
   block is updated from the running contents the point before left. -/
import proofs.«418280_j79096117723502_1_alg».proof.Proof.KI.AttnRunA

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first), AFTER THE FIRST POINT (the `scf.if` not taken: the block is updated from its running contents `xo3`), WITH the
    proof that on whole staging memrefs — the three inputs' at their contents, the output's at its running contents — the
    body runs to the continuation holding the inputs' as they were and the output's buffer with its pieces written.
    The printed function is its skeleton, which the symbolic execution runs, the `scf.if` decided by `hc0`; the
    pieces are the witness that run finds (assigned when the buffer is handed to the continuation). -/
noncomputable def kernelRun1_B (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : ¬cond1_0 i)
    (x0 : Vec F S256x512 .bf16) (x1 : Vec F S256x512 .bf16) (x2 : Vec F S8192x512 .bf16) (xo3 : Vec F S8192x512 .f32) :
    { L3 : List (View.Piece (Elt F) S8192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__attn_kernel i arg1 harg1 arg2 harg2 arg3 harg3 arg4 harg4) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.KI.AttnRegion.lean ====
/- The frame half of the attention region: what each control case of the body leaves in the output block, what the block
   holds point by point (reset at the first point, then accumulated), the pipeline's proof data at a parameter `V` (the
   buffers' contents when the region is entered), the body obligation, and the two value equations of the
   accumulation. -/
import proofs.«418280_j79096117723502_1_alg».proof.Proof.KI.AttnRunB
import Idealize.ShloMosaic.Lib.Pipeline.Value

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof data
    whose array is `V`'s (`hA`) and whose body leaves the block in place (`hafter`): unfetched, the block index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof data
    whose array is `V`'s (`hA`) and whose body leaves the block in place (`hafter`): unfetched, the block index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's staging buffer -/

/-- At the first point the pieces tile the output block (two whole-block stores), so they cover it. -/
theorem cover1_A_3 (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : cond1_0 i)
    (x0 : Vec F S256x512 .bf16) (x1 : Vec F S256x512 .bf16) (x2 : Vec F S8192x512 .bf16) (y : S8192x512.Idx) :
    ∃ pc ∈ (kernelRun1_A c i arg1 harg1 arg2 harg2 arg3 harg3 arg4 harg4 hc0 x0 x1 x2).1, y ∈ pc.1.set :=
  View.cover_of_tiledL (kernelRun1_A c i arg1 harg1 arg2 harg2 arg3 harg3 arg4 harg4 hc0 x0 x1 x2).1 S8192x512.size (by sl_kernel_rfl) y

/-- What the first point leaves in the output's staging buffer: its pieces read back over junk. -/
def out1_A_3 (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : cond1_0 i)
    (x0 : Vec F S256x512 .bf16) (x1 : Vec F S256x512 .bf16) (x2 : Vec F S8192x512 .bf16) : Vec F S8192x512 .f32 :=
  VO1_3.read (Elt F) (VO1_3.writes (Elt F) VO1_3.junk (kernelRun1_A c i arg1 harg1 arg2 harg2 arg3 harg3 arg4 harg4 hc0 x0 x1 x2).1)

/-- After the first point the pieces tile the output block (one whole-block store), so they cover it. -/
theorem cover1_B_3 (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : ¬cond1_0 i)
    (x0 : Vec F S256x512 .bf16) (x1 : Vec F S256x512 .bf16) (x2 : Vec F S8192x512 .bf16) (xo3 : Vec F S8192x512 .f32) (y : S8192x512.Idx) :
    ∃ pc ∈ (kernelRun1_B c i arg1 harg1 arg2 harg2 arg3 harg3 arg4 harg4 hc0 x0 x1 x2 xo3).1, y ∈ pc.1.set :=
  View.cover_of_tiledL (kernelRun1_B c i arg1 harg1 arg2 harg2 arg3 harg3 arg4 harg4 hc0 x0 x1 x2 xo3).1 S8192x512.size (by sl_kernel_rfl) y

/-- What a later point leaves in the output's staging buffer: its pieces read back over junk. -/
def out1_B_3 (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : ¬cond1_0 i)
    (x0 : Vec F S256x512 .bf16) (x1 : Vec F S256x512 .bf16) (x2 : Vec F S8192x512 .bf16) (xo3 : Vec F S8192x512 .f32) : Vec F S8192x512 .f32 :=
  VO1_3.read (Elt F) (VO1_3.writes (Elt F) VO1_3.junk (kernelRun1_B c i arg1 harg1 arg2 harg2 arg3 harg3 arg4 harg4 hc0 x0 x1 x2 xo3).1)

/-! ## What the output holds after each point -/

/-- THE ACCUMULATION. What the output's staging buffer holds after the body at position `n`: at the first point
    (and at any multiple of the grid's length) the reset case, run at the point's memrefs and input blocks; otherwise
    the update case over what this leaves at `n - 1` (the buffer is not written back between). -/
def attnAt (c : Dev nD) : (n : ℕ) → n < cfg1.N → Vec F S8192x512 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 32 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (attnAt c n (Nat.lt_of_succ_lt hn))

/-- `attnAt` at a point of the reset case: that case's contents. -/
theorem attnAt_A (c : Dev nD) (t : Fin cfg1.N) (h0 : t.val % 32 = 0) :
    attnAt V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

/-- `attnAt` at a point of the update case: that case's contents, over what the point before left. -/
theorem attnAt_B (c : Dev nD) (t : Fin cfg1.N) (h0 : ¬t.val % 32 = 0) :
    attnAt V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (attnAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the attention pipeline on core `c`: the arrays as the region finds them (`V`); after the body at
    point `t` each input's buffer at its block and the output's at `attnAt`; the class's invariant (the scoped rest
    and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (attnAt V c t.val t.isLt)
  Φ _ := Pipeline.ΦA spec1 c
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = attnAt V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of the update case the output's current staging buffer holds what the body left at the point before:
    the point is not the first, the buffer was not written back between (it is written back at the last point only),
    the window is live and uncut. -/
theorem before1_3_B (c : Dev nD) (t : Fin cfg1.N) (h0 : ¬t.val % 32 = 0) (d) :
    (dat1 V c).before 3 t d = (attnAt V c (t.val - 1) (Nat.lt_of_le_of_lt (Nat.sub_le _ _) t.isLt)) := by
  have hN : t.val < 32 := lt_of_lt_of_eq t.isLt (show cfg1.N = 32 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; the closed form says which case the point is in; in the
    update case the output's memref holds what the point before left; so that case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 32 := lt_of_lt_of_eq t.isLt (show cfg1.N = 32 from N_1)
  by_cases h0 : t.val % 32 = 0
  · rw [attnAt_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [attnAt_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The two value equations: what each case's found pieces read back to -/

/-- The origin of a whole-block access is the zero offset. -/
theorem hz1 : (![0, 0] : Fin 2 → Nat) = fun _ => 0 := funext fun a => by fin_cases a <;> rfl

/-- The reset case's contents: the update of the zero block (the reset's store, then the update's store of the
    payload over the zeros read back; the later store covers). -/
theorem out1_A_3_eq (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : cond1_0 i)
    (x0 : Vec F S256x512 .bf16) (x1 : Vec F S256x512 .bf16) (x2 : Vec F S8192x512 .bf16) :
    out1_A_3 c i arg1 harg1 arg2 harg2 arg3 harg3 arg4 harg4 hc0 x0 x1 x2 = k1_pay2 x0 x2 x1 (k1_pay1 (F := F)) := by
  unfold out1_A_3
  rw [View.read_writes_eq_canon _ _ _ (cover1_A_3 c i arg1 harg1 arg2 harg2 arg3 harg3 arg4 harg4 hc0 x0 x1 x2)]
  unfold kernelRun1_A
  dsimp only
  sl_unfold_words
  rw [View.canon_cons_unit_zero (S := S8192x512) hz1, View.readCov_unit_zero (S := S8192x512) _ hz1]
  simp only [View.readAt_eq_ld, harg1.read_unread, harg2.read_unread, harg3.read_unread,
    View.ld_unit_zero (S := S256x512) hz1, View.ld_unit_zero (S := S8192x512) hz1]

/-- The update case's contents: the payload over the running contents (one store, which covers). -/
theorem out1_B_3_eq (c : Dev nD) (i : grid1.Coords) (arg1 : Memref sig .tc .vmem S256x512 .bf16) (harg1 : arg1.IsWhole) (arg2 : Memref sig .tc .vmem S256x512 .bf16) (harg2 : arg2.IsWhole) (arg3 : Memref sig .tc .vmem S8192x512 .bf16) (harg3 : arg3.IsWhole) (arg4 : Memref sig .tc .vmem S8192x512 .f32) (harg4 : arg4.IsWhole) (hc0 : ¬cond1_0 i)
    (x0 : Vec F S256x512 .bf16) (x1 : Vec F S256x512 .bf16) (x2 : Vec F S8192x512 .bf16) (xo3 : Vec F S8192x512 .f32) :
    out1_B_3 c i arg1 harg1 arg2 harg2 arg3 harg3 arg4 harg4 hc0 x0 x1 x2 xo3 = k1_pay2 x0 x2 x1 xo3 := by
  unfold out1_B_3
  rw [View.read_writes_eq_canon _ _ _ (cover1_B_3 c i arg1 harg1 arg2 harg2 arg3 harg3 arg4 harg4 hc0 x0 x1 x2 xo3)]
  unfold kernelRun1_B
  dsimp only
  sl_unfold_words
  rw [View.canon_unit_zero hz1]
  simp only [View.readAt_eq_ld, harg1.read_unread, harg2.read_unread, harg3.read_unread, harg4.read_unread,
    View.ld_unit_zero (S := S256x512) hz1, View.ld_unit_zero (S := S8192x512) hz1]

/-- At the first point the output block is the update of the zero block by that point's tiles. -/
theorem attnAt_zero (c : Dev nD) (h : 0 < cfg1.N) :
    attnAt V c 0 h = k1_pay2 (iblk1 V c 0 ⟨0, h⟩) (iblk1 V c 2 ⟨0, h⟩) (iblk1 V c 1 ⟨0, h⟩) (k1_pay1 (F := F)) := by
  exact (attnAt_A V c ⟨0, h⟩ (Nat.zero_mod _)).trans
    (out1_A_3_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr (Nat.zero_mod _))
      (iblk1 V c 0 ⟨0, h⟩) (iblk1 V c 1 ⟨0, h⟩) (iblk1 V c 2 ⟨0, h⟩))

/-- At a later point the output block is the update, by that point's tiles, of what the point before left. -/
theorem attnAt_succ (c : Dev nD) (n : ℕ) (h : n + 1 < cfg1.N) :
    attnAt V c (n + 1) h = k1_pay2 (iblk1 V c 0 ⟨n + 1, h⟩) (iblk1 V c 2 ⟨n + 1, h⟩) (iblk1 V c 1 ⟨n + 1, h⟩) (attnAt V c n (Nat.lt_of_succ_lt h)) := by
  have hN : n + 1 < 32 := lt_of_lt_of_eq h (show cfg1.N = 32 from N_1)
  have h0 : ¬(n + 1) % 32 = 0 := by omega
  exact (attnAt_B V c ⟨n + 1, h⟩ h0).trans
    (out1_B_3_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => h0 ((hcond1_0 ⟨n + 1, h⟩).mp hh))
      (iblk1 V c 0 ⟨n + 1, h⟩) (iblk1 V c 1 ⟨n + 1, h⟩) (iblk1 V c 2 ⟨n + 1, h⟩) (attnAt V c n (Nat.lt_of_succ_lt h)))

end Region

end Cert.KernelIdeal.Hand

end
-- ==== Proof.KI.Run.lean ====
/-
  The whole run of the program. Between two items of @main a core holds every unscoped buffer at a known content: the launch
  memory, then each host stretch's operations applied in turn, and after each of the two launches the launch's result array at
  what its pipeline wrote back (the block each grid point flushed, folded over the grid), every other buffer as before. A launch
  is entered from "every unscoped buffer at its contents, the generator register at some state, nothing owed" and left in the
  same form; its arrays are taken out of the unscoped buffers at entry and put back at exit. The run then ends with every
  unscoped buffer at the last boundary's contents, read against the final state: the argument arrays are among them (no item
  writes one), and so is the result.
-/
import proofs.«418280_j79096117723502_1_alg».proof.Proof.Gen.KernelIdeal.Regions
import proofs.«418280_j79096117723502_1_alg».proof.Proof.KI.QkvRegion
import proofs.«418280_j79096117723502_1_alg».proof.Proof.KI.AttnRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two launches leave -/

/-- The first launch's entry contents: the launch memory after the first host stretch, read at the TensorCore's references. -/
abbrev entry0 : (c : Dev nD) → (b : Ref sig .tc) → Buf (Elt F) ((c : Thread nD τ).loc b) := fun c b => Gen.V1 m c b

/-- After the first launch: its arrays at what the pipeline leaves, every other buffer as entered. -/
def after0 (c : Dev nD) : Valuation τ sig (Elt F) :=
  Pipeline.withArrays spec0 c (Gen.V1 m c) fun w => (dat0 (entry0 m) c).arrAt w cfg0.N
theorem after0_arr (c : Dev nD) (w : Fin cfg0.W) :
    after0 m c (Proc.devRef .tc (Pipeline.arrRef spec0 w)) = (dat0 (entry0 m) c).arrAt w cfg0.N := by
  unfold after0; exact Pipeline.withArrays_arr spec0 launch0.win.arr_inj c _ _ w

/-- The contents the launches leave, when only the first is known: enough to name the second launch's entry contents. -/
def outsA : Gen.Outs (F := F) := fun _ r c => after0 m c r

/-- The second launch's entry contents. -/
abbrev entry1 : (c : Dev nD) → (b : Ref sig .tc) → Buf (Elt F) ((c : Thread nD τ).loc b) := fun c b => Gen.V11 m (outsA m) c b

/-- After the second launch: its arrays at what the pipeline leaves, every other buffer as entered. -/
def after1 (c : Dev nD) : Valuation τ sig (Elt F) :=
  Pipeline.withArrays spec1 c (Gen.V11 m (outsA m) c) fun w => (dat1 (entry1 m) c).arrAt w cfg1.N
theorem after1_arr (c : Dev nD) (w : Fin cfg1.W) :
    after1 m c (Proc.devRef .tc (Pipeline.arrRef spec1 w)) = (dat1 (entry1 m) c).arrAt w cfg1.N := by
  unfold after1; exact Pipeline.withArrays_arr spec1 launch1.win.arr_inj c _ _ w

/-- What the two launches leave: after item 11 the second launch's contents, before it the first's. -/
def outs : Gen.Outs (F := F) := fun J r c => match J with
  | 12 => after1 m c r
  | _ => after0 m c r

theorem outs_two (c : Dev nD) : outs m 2 main_v4 c = (dat0 (entry0 m) c).arrAt 3 cfg0.N :=
  after0_arr m c 3
theorem outs_twelve (c : Dev nD) : outs m 12 main_v16 c = (dat1 (entry1 m) c).arrAt 3 cfg1.N :=
  after1_arr m c 3
/-- The second launch is entered at the same contents under either naming. -/
theorem V11_outs (c : Dev nD) : Gen.V11 m (outs m) c = Gen.V11 m (outsA m) c := rfl

/-! ## The proof data and what rides along -/

/-- Every pipeline's proof data, each at its launch's entry contents (a literal match, so that a pipeline index at a numeral
    reduces to the printed configuration). -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev 𝒱₀ : Variants := Variants.none
/-- No core owes another anything: no level is assigned. -/
abbrev Lev : GSem nD τ sig → Finset Unit := fun _ => ∅
abbrev lev : GSem nD τ sig → Unit → ℕ := fun _ _ => 0
/-- Beside the buffers, through every item: the core's generator register at some state and its dues, at nothing. -/
abbrev Rest (c : Dev nD) : sProp 𝕄 := iprop((∃ r, prngReg c r) ∗ ∃ W, owes (c : Thread nD τ) (0 : CellTallies nD τ sig Unit) W)
abbrev rests : Fin 3 → Dev nD → sProp 𝕄 := fun _ c => Rest c

/-! ## Each launch's arrays at its exit -/

/-- The contents after the first launch, read at the TensorCore's references. -/
abbrev exit0 : (c : Dev nD) → (b : Ref sig .tc) → Buf (Elt F) ((c : Thread nD τ).loc b) := fun c b => Gen.V2 m (outs m) c b
/-- The contents after the second launch. -/
abbrev exit1 : (c : Dev nD) → (b : Ref sig .tc) → Buf (Elt F) ((c : Thread nD τ).loc b) := fun c b => Gen.V12 m (outs m) c b

/-- After the first launch each of its arrays holds what the pipeline leaves: an input as entered, the result the flushed blocks. -/
theorem hF0 (c : Dev nD) : ∀ w : Fin cfg0.W, (dat0 (entry0 m) c).arrAt w cfg0.N = exit0 m c (Pipeline.arrRef spec0 w)
  | ⟨0, _⟩ => ((dat0 (entry0 m) c).arrAt_in 0 rfl _).trans ((A_eq0 (entry0 m) c 0).trans (Gen.V2_of m (outs m) c main_v0 (by decide)).symm)
  | ⟨1, _⟩ => ((dat0 (entry0 m) c).arrAt_in 1 rfl _).trans ((A_eq0 (entry0 m) c 1).trans (Gen.V2_of m (outs m) c main_v1 (by decide)).symm)
  | ⟨2, _⟩ => ((dat0 (entry0 m) c).arrAt_in 2 rfl _).trans ((A_eq0 (entry0 m) c 2).trans (Gen.V2_of m (outs m) c main_v3 (by decide)).symm)
  | ⟨3, _⟩ => (outs_two m c).symm.trans (by show _ = Gen.V2 m (outs m) c main_v4; simp only [Gen.V2, Function.update_self])
  | ⟨_ + 4, h⟩ => absurd h (Nat.not_lt.2 (Nat.le_add_left _ _))
/-- Every other buffer is as entered. -/
theorem hrest0 (c : Dev nD) : ∀ b, b ∉ Finset.univ.image (Pipeline.arrRef spec0) → exit0 m c b = entry0 m c b :=
  fun b hb => Gen.V2_of m (outs m) c b (by
    intro hmem
    rw [List.mem_singleton] at hmem
    exact hb (Finset.mem_image.mpr ⟨3, Finset.mem_univ _, hmem.symm⟩))

/-- After the second launch each of its arrays holds what the pipeline leaves. -/
theorem hF1 (c : Dev nD) : ∀ w : Fin cfg1.W, (dat1 (entry1 m) c).arrAt w cfg1.N = exit1 m c (Pipeline.arrRef spec1 w)
  | ⟨0, _⟩ => ((dat1 (entry1 m) c).arrAt_in 0 rfl _).trans ((A_eq1 (entry1 m) c 0).trans (Gen.V12_of m (outs m) c main_v13 (by decide)).symm)
  | ⟨1, _⟩ => ((dat1 (entry1 m) c).arrAt_in 1 rfl _).trans ((A_eq1 (entry1 m) c 1).trans (Gen.V12_of m (outs m) c main_v15 (by decide)).symm)
  | ⟨2, _⟩ => ((dat1 (entry1 m) c).arrAt_in 2 rfl _).trans ((A_eq1 (entry1 m) c 2).trans (Gen.V12_of m (outs m) c main_v11 (by decide)).symm)
  | ⟨3, _⟩ => (outs_twelve m c).symm.trans (by show _ = Gen.V12 m (outs m) c main_v16; simp only [Gen.V12, Function.update_self])
  | ⟨_ + 4, h⟩ => absurd h (Nat.not_lt.2 (Nat.le_add_left _ _))
theorem hrest1 (c : Dev nD) : ∀ b, b ∉ Finset.univ.image (Pipeline.arrRef spec1) → exit1 m c b = entry1 m c b :=
  fun b hb => Gen.V12_of m (outs m) c b (by
    intro hmem
    rw [List.mem_singleton] at hmem
    exact hb (Finset.mem_image.mpr ⟨3, Finset.mem_univ _, hmem.symm⟩))

/-! ## The launches as segments -/

set_option backward.isDefEq.respectTransparency.types false in
/-- The first launch over the thread state: entered from every unscoped buffer at the contents after the first host stretch,
    left at those with its result array at what the pipeline wrote. Its arrays are split out of the unscoped buffers and put
    back at the exit contents; the generator register goes into the body's invariant and out; nothing is owed; the kernel has
    no semaphore of its own. -/
def reg0 : RegionSeg (pcfgs (F := F)) Gen.adm (pdats m) () defs₀ 𝒱₀ Lev lev 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ Lev lev 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state, in the same way: entered from every unscoped buffer at the contents after the
    last stretch before it, left at those with its result array at what the pipeline wrote. -/
def reg1 : RegionSeg (pcfgs (F := F)) Gen.adm (pdats m) () defs₀ 𝒱₀ Lev lev 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ Lev lev 1 fun _ _ => rfl
  pre c := iprop(StableHlo.held (c : Thread nD τ) (Pipeline.ucRefs τ sig) (Gen.V11 m (outsA m) c) ∗ Rest c)
  post c := iprop(StableHlo.held (c : Thread nD τ) (Pipeline.ucRefs τ sig) (Gen.V12 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- After the last host stretch: the buffers and the generator register on one side, the dues (nothing) on the other. -/
theorem last_step (c : Dev nD) :
    iprop(StableHlo.held (c : Thread nD τ) (Pipeline.ucRefs τ sig) (Gen.V13 m (outs m) c) ∗ Rest (F := F) c)
      ⊢ iprop((StableHlo.held (c : Thread nD τ) (Pipeline.ucRefs τ sig) (Gen.V13 m (outs m) c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN. From any memory with zero counters every weakly fair execution of @main terminates, nothing faulting, and in
    every final state each unscoped buffer holds the last boundary's contents: the launch memory pushed through the host
    stretches and the two launches in order. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V13 m (outs m) c b) := by
  refine Pipeline.θ_run_regions_kit_dev (pcfgs (F := F)) Gen.adm (pdats m) () cellOf_inj emb₁ defs₀ 𝒱₀ Lev lev m ρ main
    (Gen.segs m (outs m) 𝒱₀ Lev lev rests () (pdats m) (reg0 m) (reg1 m))
    (fun c Q => by
      rewrite [main_chain c, Seg.run_eq_chain,
        show (Gen.segs m (outs m) 𝒱₀ Lev lev rests () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => iprop(StableHlo.held (c : Thread nD τ) (Pipeline.ucRefs τ sig) (Gen.V13 m (outs m) c) ∗ ∃ r, prngReg c r))
    (hch := fun c => ⟨.rfl, .rfl, .rfl, .rfl, .rfl, .rfl, .rfl, .rfl, .rfl, .rfl, .rfl,
      Entails.of_eq (congrArg (fun V => iprop(StableHlo.held (c : Thread nD τ) (Pipeline.ucRefs τ sig) V ∗ Rest c)) (V11_outs m c)), .rfl,
      last_step m c⟩)
    (hinit := by
      refine Pipeline.initEach Lev lev fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V13 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V13 m (outs m) c) s')
      isplitl [Hh] <;> iassumption)
    (hQ := fun s h c => h c)

/-- THE FRAME: the program runs to the end, faulting nowhere, and each argument array ends as launched — no host stretch
    writes one and no launch may change one, so the last boundary's contents at an argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c),
     (h c _ (mem_uc main_arg6 (by decide))).trans (Gen.V13_main_arg6 m (outs m) c),
     (h c _ (mem_uc main_arg7 (by decide))).trans (Gen.V13_main_arg7 m (outs m) c),
     (h c _ (mem_uc main_arg8 (by decide))).trans (Gen.V13_main_arg8 m (outs m) c)⟩) (run m ρ)

/-- The same run, with the result array's final contents named beside the unchanged arguments. -/
theorem run_result : θ_run defs (onTc (τ := τ) (main (F := F))) ⟨m, fun _ => 0, ρ⟩ (fun r => ∀ c : Dev nD,
      r.2.mem ((c.tc : Thread nD τ).loc main_v24) = Gen.V13 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v24 (by decide)),
     (h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c),
     (h c _ (mem_uc main_arg6 (by decide))).trans (Gen.V13_main_arg6 m (outs m) c),
     (h c _ (mem_uc main_arg7 (by decide))).trans (Gen.V13_main_arg7 m (outs m) c),
     (h c _ (mem_uc main_arg8 (by decide))).trans (Gen.V13_main_arg8 m (outs m) c)⟩) (run m ρ)

end Cert.KernelIdeal.Hand

end
-- ==== Proof.Spec.lean ====
/-
  The mathematics both programs compute, over the extended reals, as functions of plain coordinates.

  * `lin x W b n j` — one entry of an affine projection: row `n` of `x` against row `j` of `W`, plus `b j`.
  * `score q kr t` — the scaled inner product of ONE key row `kr` with query row `t` (the scale is the word 0x3E000000,
    one eighth).
  * `rowMax`, `ex`, `rowSum`, `prob` — for that key row, the softmax over ALL query rows `t`: the largest score, the
    shifted exponentials, their sum, the quotient. They depend on the key row alone, which is why a tile of key rows can be
    treated without the others.
  * `attn q k v t h` — entry `(t, h)` of the attention result: the sum over key rows `s` of `prob (k s) t` times the value
    entry `(s, h)`.
-/
import Idealize.ShloMosaic.PureOps.Ideal

noncomputable section

namespace Cert.Spec

open Idealize.ShloMosaic

/-- Row `n` of `x` against row `j` of `W`, plus the bias entry `j`. -/
def lin (x : Fin 32768 → Fin 512 → EReal) (W : Fin 512 → Fin 512 → EReal) (b : Fin 512 → EReal)
    (n : Fin 32768) (j : Fin 512) : EReal :=
  (∑ h : Fin 512, x n h * W j h) + b j

/-- The scale of the scores: the single-precision word of one eighth. -/
def eighth : EReal := Ideal.ofBits .f32 0x3E000000#32

/-- One key row against query row `t`, scaled. -/
def score (q : Fin 8192 → Fin 512 → EReal) (kr : Fin 512 → EReal) (t : Fin 8192) : EReal :=
  (∑ h : Fin 512, kr h * q t h) * eighth

/-- The largest score of the key row over all query rows (from the bottom element). -/
def rowMax (q : Fin 8192 → Fin 512 → EReal) (kr : Fin 512 → EReal) : EReal :=
  (Finset.univ : Finset (Fin 8192)).fold max (⊥ : EReal) (fun t => score q kr t)

/-- The shifted exponential. -/
def ex (q : Fin 8192 → Fin 512 → EReal) (kr : Fin 512 → EReal) (t : Fin 8192) : EReal :=
  Ideal.exp (score q kr t - rowMax q kr)

/-- The normaliser of the key row: the sum of its shifted exponentials over all query rows. -/
def rowSum (q : Fin 8192 → Fin 512 → EReal) (kr : Fin 512 → EReal) : EReal :=
  ∑ t : Fin 8192, ex q kr t

/-- The softmax weight of query row `t` for the key row. -/
def prob (q : Fin 8192 → Fin 512 → EReal) (kr : Fin 512 → EReal) (t : Fin 8192) : EReal :=
  Ideal.div (ex q kr t) (rowSum q kr)

/-- Entry `(t, h)` of the attention result. -/
def attn (q k v : Fin 8192 → Fin 512 → EReal) (t : Fin 8192) (h : Fin 512) : EReal :=
  ∑ s : Fin 8192, prob q (k s) t * v s h

end Cert.Spec

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KI.AttnPayload.lean ====
/-
  The value of the edge-attention tile step at the ideal instance, read at one output coordinate.

  One step takes a tile of 256 key rows k, all 8192 query rows q, the tile's 256 value rows v and the running
  output o, and returns o plus the tile's contribution. For key row r of the tile:

    score r t  = (Σ_h k[r,h] · q[t,h]) · (1/8)            (first contraction, over the feature axis)
    rowMax r   = the largest score r t over ALL query rows t, folded from the bottom element
    ex r t     = exp (score r t − rowMax r)
    rowSum r   = Σ_t ex r t
    prob r t   = ex r t / rowSum r
    result t h = o[t,h] + Σ_r prob r t · v[r,h]            (second contraction, over the tile's rows)

  The module reads each stage at coordinates and identifies it with the common specification's function of the same
  name (Cert.Spec). Format changes and same-shape casts are identities on extended reals; the column forms of a
  per-row quantity ([256] → [256,1] → [256,8192]) read the row's entry.
-/
import proofs.«418280_j79096117723502_1_alg».proof.Proof.Gen.KernelIdeal.Skeleton
import proofs.«418280_j79096117723502_1_alg».proof.Proof.Spec
import proofs.«418280_j79096117723502_1_alg».proof.Proof.LibKeepdims
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The zero block -/

/-- The block the first grid point stores before accumulating is zero everywhere. -/
theorem k1_pay1_apply (i : S8192x512.Idx) : k1_pay1 (F := Ideal) i = 0 :=
  Ideal.ofBits_zero_f32

/-! ## The first contraction: key rows against query rows, over the feature axis

Both operands contract their axis 1; the result's axes are the key row then the query row. -/

theorem d1_lhs_0 (i : S256x8192.Idx) (c : dot_S256x512_S8192x512_S256x8192_1_1_0_0_n_n.contr.Idx) : (dot_S256x512_S8192x512_S256x8192_1_1_0_0_n_n.lhsIdx i c 0).val = (i 0).val := by
  unfold DotDims.lhsIdx
  rw [dif_neg (show ¬(0 : Fin S256x512.rank) ∈ dot_S256x512_S8192x512_S256x8192_1_1_0_0_n_n.lhsBatch by decide),
    dif_pos (show (0 : Fin S256x512.rank) ∈ dot_S256x512_S8192x512_S256x8192_1_1_0_0_n_n.lhsNonContracting by decide)]
  rfl
theorem d1_lhs_1 (i : S256x8192.Idx) (c : dot_S256x512_S8192x512_S256x8192_1_1_0_0_n_n.contr.Idx) : (dot_S256x512_S8192x512_S256x8192_1_1_0_0_n_n.lhsIdx i c 1).val = (c ⟨0, by decide⟩).val :=
  dot_S256x512_S8192x512_S256x8192_1_1_0_0_n_n.lhsIdx_val_of_single rfl i c
theorem d1_rhs_0 (i : S256x8192.Idx) (c : dot_S256x512_S8192x512_S256x8192_1_1_0_0_n_n.contr.Idx) : (dot_S256x512_S8192x512_S256x8192_1_1_0_0_n_n.rhsIdx i c 0).val = (i 1).val := by
  unfold DotDims.rhsIdx
  rw [dif_neg (show ¬(0 : Fin S8192x512.rank) ∈ dot_S256x512_S8192x512_S256x8192_1_1_0_0_n_n.rhsBatch by decide),
    dif_pos (show (0 : Fin S8192x512.rank) ∈ dot_S256x512_S8192x512_S256x8192_1_1_0_0_n_n.rhsNonContracting by decide)]
  rfl
theorem d1_rhs_1 (i : S256x8192.Idx) (c : dot_S256x512_S8192x512_S256x8192_1_1_0_0_n_n.contr.Idx) : (dot_S256x512_S8192x512_S256x8192_1_1_0_0_n_n.rhsIdx i c 1).val = (c ⟨0, by decide⟩).val :=
  dot_S256x512_S8192x512_S256x8192_1_1_0_0_n_n.rhsIdx_val_of_single rfl i c

/-- Entry (r, t) of the first product into the zero accumulator: row r of the left operand against row t of the right. -/
theorem mm1_apply (a : FVec Ideal S256x512 .bf16) (b : FVec Ideal S8192x512 .bf16) (r : Fin 256) (t : Fin 8192) :
    matmul dot_S256x512_S8192x512_S256x8192_1_1_0_0_n_n none a b (constant S256x8192 .f32 0x00000000#32) (ix2 r t) = ∑ h : Fin 512, a (ix2 r h) * b (ix2 t h) := by
  refine (Ideal.matmul_constant_zero_apply dot_S256x512_S8192x512_S256x8192_1_1_0_0_n_n none a b (ix2 r t)).trans ?_
  rw [← Equiv.sum_comp (contrEquiv1 dot_S256x512_S8192x512_S256x8192_1_1_0_0_n_n 512 rfl rfl).symm]
  refine Finset.sum_congr rfl fun h _ => ?_
  have hk := contrEquiv1_symm_val dot_S256x512_S8192x512_S256x8192_1_1_0_0_n_n 512 rfl rfl h
  have el : dot_S256x512_S8192x512_S256x8192_1_1_0_0_n_n.lhsIdx (ix2 r t) ((contrEquiv1 dot_S256x512_S8192x512_S256x8192_1_1_0_0_n_n 512 rfl rfl).symm h) = ix2 r h := funext fun x => Fin.ext (by
    match x with
    | ⟨0, _⟩ => exact d1_lhs_0 _ _
    | ⟨1, _⟩ => exact (d1_lhs_1 _ _).trans hk)
  have er : dot_S256x512_S8192x512_S256x8192_1_1_0_0_n_n.rhsIdx (ix2 r t) ((contrEquiv1 dot_S256x512_S8192x512_S256x8192_1_1_0_0_n_n 512 rfl rfl).symm h) = ix2 t h := funext fun x => Fin.ext (by
    match x with
    | ⟨0, _⟩ => exact d1_rhs_0 _ _
    | ⟨1, _⟩ => exact (d1_rhs_1 _ _).trans hk)
  rw [el, er]

/-! ## The second contraction: weights against value rows, over the tile's rows

Both operands contract their axis 0; the result's axes are the query row then the feature. -/

theorem d2_lhs_0 (i : S8192x512.Idx) (c : dot_S256x8192_S256x512_S8192x512_0_0_1_1_n_n.contr.Idx) : (dot_S256x8192_S256x512_S8192x512_0_0_1_1_n_n.lhsIdx i c 0).val = (c ⟨0, by decide⟩).val :=
  dot_S256x8192_S256x512_S8192x512_0_0_1_1_n_n.lhsIdx_val_of_single rfl i c
theorem d2_lhs_1 (i : S8192x512.Idx) (c : dot_S256x8192_S256x512_S8192x512_0_0_1_1_n_n.contr.Idx) : (dot_S256x8192_S256x512_S8192x512_0_0_1_1_n_n.lhsIdx i c 1).val = (i 0).val := by
  unfold DotDims.lhsIdx
  rw [dif_neg (show ¬(1 : Fin S256x8192.rank) ∈ dot_S256x8192_S256x512_S8192x512_0_0_1_1_n_n.lhsBatch by decide),
    dif_pos (show (1 : Fin S256x8192.rank) ∈ dot_S256x8192_S256x512_S8192x512_0_0_1_1_n_n.lhsNonContracting by decide)]
  rfl
theorem d2_rhs_0 (i : S8192x512.Idx) (c : dot_S256x8192_S256x512_S8192x512_0_0_1_1_n_n.contr.Idx) : (dot_S256x8192_S256x512_S8192x512_0_0_1_1_n_n.rhsIdx i c 0).val = (c ⟨0, by decide⟩).val :=
  dot_S256x8192_S256x512_S8192x512_0_0_1_1_n_n.rhsIdx_val_of_single rfl i c
theorem d2_rhs_1 (i : S8192x512.Idx) (c : dot_S256x8192_S256x512_S8192x512_0_0_1_1_n_n.contr.Idx) : (dot_S256x8192_S256x512_S8192x512_0_0_1_1_n_n.rhsIdx i c 1).val = (i 1).val := by
  unfold DotDims.rhsIdx
  rw [dif_neg (show ¬(1 : Fin S256x512.rank) ∈ dot_S256x8192_S256x512_S8192x512_0_0_1_1_n_n.rhsBatch by decide),
    dif_pos (show (1 : Fin S256x512.rank) ∈ dot_S256x8192_S256x512_S8192x512_0_0_1_1_n_n.rhsNonContracting by decide)]
  rfl

/-- Entry (t, h) of the second product into the zero accumulator: column t of the weights against column h of the values. -/
theorem mm2_apply (p : FVec Ideal S256x8192 .bf16) (v : FVec Ideal S256x512 .bf16) (t : Fin 8192) (h : Fin 512) :
    matmul dot_S256x8192_S256x512_S8192x512_0_0_1_1_n_n none p v (constant S8192x512 .f32 0x00000000#32) (ix2 t h) = ∑ r : Fin 256, p (ix2 r t) * v (ix2 r h) := by
  refine (Ideal.matmul_constant_zero_apply dot_S256x8192_S256x512_S8192x512_0_0_1_1_n_n none p v (ix2 t h)).trans ?_
  rw [← Equiv.sum_comp (contrEquiv1 dot_S256x8192_S256x512_S8192x512_0_0_1_1_n_n 256 rfl rfl).symm]
  refine Finset.sum_congr rfl fun r _ => ?_
  have hk := contrEquiv1_symm_val dot_S256x8192_S256x512_S8192x512_0_0_1_1_n_n 256 rfl rfl r
  have el : dot_S256x8192_S256x512_S8192x512_0_0_1_1_n_n.lhsIdx (ix2 t h) ((contrEquiv1 dot_S256x8192_S256x512_S8192x512_0_0_1_1_n_n 256 rfl rfl).symm r) = ix2 r t := funext fun x => Fin.ext (by
    match x with
    | ⟨0, _⟩ => exact (d2_lhs_0 _ _).trans hk
    | ⟨1, _⟩ => exact d2_lhs_1 _ _)
  have er : dot_S256x8192_S256x512_S8192x512_0_0_1_1_n_n.rhsIdx (ix2 t h) ((contrEquiv1 dot_S256x8192_S256x512_S8192x512_0_0_1_1_n_n 256 rfl rfl).symm r) = ix2 r h := funext fun x => Fin.ext (by
    match x with
    | ⟨0, _⟩ => exact (d2_rhs_0 _ _).trans hk
    | ⟨1, _⟩ => exact d2_rhs_1 _ _)
  rw [el, er]

/-! ## The reductions along a key row

A reduction of a [256, 8192] array over its axis 1 reads, at row r, the source at (r, t) for every t. -/

/-- The source index over row r with coordinate t inserted on the reduced axis is (r, t). -/
theorem lift_row (r : Fin 256) (t : Fin 8192) :
    reduces_S256x8192_S256.lift (ix1 r) t = ix2 r t := funext fun x => Fin.ext (by
  match x with
  | ⟨0, _⟩ => rfl
  | ⟨1, _⟩ => rfl)

/-- The bottom word is the bottom element. -/
theorem ofBits_bot : Ideal.ofBits .f32 0xFF800000#32 = ⊥ := by simp [Ideal.ofBits, Ideal.ieee]

/-- A row's maximum: the fold of max from the bottom element over the row. -/
theorem rowMax_read (x : FVec Ideal S256x8192 .f32) (hφ : FKind.Formats .f32)
    (hacc : (0xFF800000#32 : BitVec 32) = FKind.maximumf.neutral .f32 hφ) (r : Fin 256) :
    multiReduction .maximumf [1] S256 x 0xFF800000#32 reduces_S256x8192_S256 hφ hacc (ix1 r)
      = (Finset.univ : Finset (Fin 8192)).fold max (⊥ : EReal) (fun t => x (ix2 r t)) := by
  refine (Ideal.multiReduction_maximumf_single x 0xFF800000#32 reduces_S256x8192_S256 hφ hacc (ix1 r)).trans ?_
  show (Finset.univ : Finset (Fin 8192)).fold max (Ideal.ofBits .f32 0xFF800000#32) (x ∘ reduces_S256x8192_S256.lift (ix1 r)) = _
  have e : (x ∘ reduces_S256x8192_S256.lift (ix1 r)) = fun t : Fin 8192 => x (ix2 r t) :=
    funext fun t => congrArg x (lift_row r t)
  rw [ofBits_bot, e]
  rfl

/-- A row's sum. -/
theorem rowSum_read (x : FVec Ideal S256x8192 .f32) (hφ : FKind.Formats .f32)
    (hacc : (0x00000000#32 : BitVec 32) = FKind.add.neutral .f32 hφ) (r : Fin 256) :
    multiReduction .add [1] S256 x 0x00000000#32 reduces_S256x8192_S256 hφ hacc (ix1 r) = ∑ t : Fin 8192, x (ix2 r t) := by
  refine (Ideal.multiReduction_add_single x 0x00000000#32 reduces_S256x8192_S256 hφ hacc (ix1 r)).trans ?_
  show ∑ t : Fin 8192, x (reduces_S256x8192_S256.lift (ix1 r) t) = _
  exact Finset.sum_congr rfl fun t _ => congrArg x (lift_row r t)

/-! ## Pointwise readings, over variables

Each operation of the step read at one index, for arbitrary operands. -/

/-- A scalar word read at the ideal instance is the extended real it encodes. -/
theorem scalar_ofBits (w : BitVec 32) : (Scalar.ofBits .f32 w : Ideal .f32) = Ideal.ofBits .f32 w := rfl

/-- The exponential of a difference, at an index. -/
theorem expSub_read {s : Shape} (A B : FVec Ideal s .f32) (i : s.Idx) : exp (subf A B) i = Ideal.exp (A i - B i) := rfl

/-- A per-row quantity carried back over its row ([256] → [256, 1] → [256, 8192]) reads the row's entry. -/
theorem keep_read (y : FVec Ideal S256 .f32) (r : Fin 256) (t : Fin 8192) :
    broadcastTo S256x8192 (shapeCast S256x1 y shapeCasts_S256_S256x1) broadcasts_S256x1_S256x8192 (ix2 r t) = y (ix1 r) := by
  rw [Cert.LibKeepdims.broadcastTo_a1_ab_apply, Cert.LibKeepdims.shapeCast_a_a1_apply]

/-! ## The stages of the tile step, named -/

section Stages

variable (k : Vec Ideal S256x512 .bf16) (q : Vec Ideal S8192x512 .bf16)

/-- The scaled scores of the tile's key rows against all query rows. -/
def tScore : FVec Ideal S256x8192 .f32 :=
  mulf (matmul (φ₁ := .bf16) (φ₂ := .bf16) dot_S256x512_S8192x512_S256x8192_1_1_0_0_n_n none
      (shapeCast S256x512 k shapeCasts_S256x512_S256x512) (shapeCast S8192x512 q shapeCasts_S8192x512_S8192x512)
      (constant S256x8192 .f32 0x00000000#32))
    (broadcast S256x8192 (Scalar.ofBits .f32 0x3E000000#32))

/-- Each key row's largest score. -/
def tMax : FVec Ideal S256 .f32 :=
  maximumf (broadcast S256 (Scalar.ofBits .f32 0xFF800000#32))
    (multiReduction .maximumf [1] S256 (tScore k q) 0xFF800000#32 reduces_S256x8192_S256 (.inl rfl) rfl)

/-- The shifted exponentials. -/
def tExp : FVec Ideal S256x8192 .f32 :=
  exp (subf (tScore k q) (broadcastTo S256x8192 (shapeCast S256x1 (tMax k q) shapeCasts_S256_S256x1) broadcasts_S256x1_S256x8192))

/-- Each key row's normaliser. -/
def tSum : FVec Ideal S256 .f32 :=
  multiReduction .add [1] S256 (tExp k q) 0x00000000#32 reduces_S256x8192_S256 (.inl rfl) rfl

/-- The softmax weights. -/
def tProb : FVec Ideal S256x8192 .f32 :=
  divf (tExp k q) (broadcastTo S256x8192 (shapeCast S256x1 (tSum k q) shapeCasts_S256_S256x1) broadcasts_S256x1_S256x8192)

/-- The tile step is the running output plus the weights contracted with the value rows. -/
theorem k1_pay2_eq (v : Vec Ideal S256x512 .bf16) (o : Vec Ideal S8192x512 .f32) :
    k1_pay2 (F := Ideal) k q v o
      = addf (shapeCast S8192x512 o shapeCasts_S8192x512_S8192x512)
          (matmul (φ₁ := .bf16) (φ₂ := .bf16) dot_S256x8192_S256x512_S8192x512_0_0_1_1_n_n none
            (truncf .bf16 (tProb k q) bitsLt_bf16_f32) (shapeCast S256x512 v shapeCasts_S256x512_S256x512)
            (constant S8192x512 .f32 0x00000000#32)) := rfl

theorem tScore_apply (r : Fin 256) (t : Fin 8192) :
    tScore k q (ix2 r t) = Cert.Spec.score (fun t h => q (ix2 t h)) (fun h => k (ix2 r h)) t := by
  unfold tScore Cert.Spec.score Cert.Spec.eighth
  rw [shapeCast_self, shapeCast_self]
  refine (mulf_apply _ _ _).trans ?_
  rw [mm1_apply, broadcast_apply, scalar_ofBits]

theorem tMax_apply (r : Fin 256) :
    tMax k q (ix1 r) = Cert.Spec.rowMax (fun t h => q (ix2 t h)) (fun h => k (ix2 r h)) := by
  unfold tMax Cert.Spec.rowMax
  refine (maximumf_apply _ _ _).trans ?_
  rw [broadcast_apply, scalar_ofBits, ofBits_bot, max_bot_left]
  refine (rowMax_read (tScore k q) _ _ r).trans ?_
  exact congrArg (fun f => Finset.fold max (⊥ : EReal) f (Finset.univ : Finset (Fin 8192))) (funext fun t => tScore_apply k q r t)

theorem tExp_apply (r : Fin 256) (t : Fin 8192) :
    tExp k q (ix2 r t) = Cert.Spec.ex (fun t h => q (ix2 t h)) (fun h => k (ix2 r h)) t := by
  unfold tExp Cert.Spec.ex
  refine (expSub_read _ _ _).trans ?_
  rw [keep_read, tScore_apply, tMax_apply]

theorem tSum_apply (r : Fin 256) :
    tSum k q (ix1 r) = Cert.Spec.rowSum (fun t h => q (ix2 t h)) (fun h => k (ix2 r h)) := by
  unfold tSum Cert.Spec.rowSum
  refine (rowSum_read (tExp k q) _ _ r).trans ?_
  exact Finset.sum_congr rfl fun t _ => tExp_apply k q r t

theorem tProb_apply (r : Fin 256) (t : Fin 8192) :
    tProb k q (ix2 r t) = Cert.Spec.prob (fun t h => q (ix2 t h)) (fun h => k (ix2 r h)) t := by
  unfold tProb Cert.Spec.prob
  refine (divf_apply _ _ _).trans ?_
  rw [keep_read, tExp_apply, tSum_apply]

end Stages

/-! ## The tile step at an output coordinate -/

/-- Entry (t, h) of the tile step: the running entry plus, over the tile's key rows r, the softmax weight of query row t
    for key row r times the value entry (r, h). -/
theorem k1_pay2_apply (k : Vec Ideal S256x512 .bf16) (q : Vec Ideal S8192x512 .bf16) (v : Vec Ideal S256x512 .bf16)
    (o : Vec Ideal S8192x512 .f32) (t : Fin 8192) (h : Fin 512) :
    k1_pay2 (F := Ideal) k q v o (ix2 t h)
      = o (ix2 t h) + ∑ r : Fin 256, Cert.Spec.prob (fun t h => q (ix2 t h)) (fun h => k (ix2 r h)) t * v (ix2 r h) := by
  rw [k1_pay2_eq, shapeCast_self, shapeCast_self]
  refine (addf_apply _ _ _).trans ?_
  rw [mm2_apply]
  refine congrArg (o (ix2 t h) + ·) (Finset.sum_congr rfl fun r _ => ?_)
  rw [truncf_apply, tProb_apply]

end Cert.KernelIdeal.Hand

end
-- ==== Proof.Ref.Imports.lean ====
/- The reference's run and its stage-by-stage reading, brought into scope for the modules that read the reference's value. -/
import proofs.«418280_j79096117723502_1_alg».proof.Proof.Gen.ReferenceIdeal.Read
-- ==== Proof.Ref.Defs.lean ====
/-
  The reference program's value at the ideal instance (a float an extended real), as a composition of named functions of
  arrays: three affine projections of the flattened input, two sorted index vectors, three row lookups, the attention
  block (scores, a softmax down each column, a contraction with the value rows), and the write-back of the attention rows
  followed by the restoring of the batch axis. The functions are stated at the ideal instance (the names ending in `R`)
  and, as the same terms, over any float family (the names ending in `G`).
-/
import proofs.«418280_j79096117723502_1_alg».proof.Proof.Ref.Imports
import proofs.«418280_j79096117723502_1_alg».proof.Proof.Spec

noncomputable section

namespace Cert.ReferenceIdeal.RefValue

open Cert.ReferenceIdeal Cert.ReferenceIdeal.Facts₀ Cert.ReferenceIdeal.Facts Idealize.ShloMosaic ValueIdx

/-! ## At the ideal instance -/

/-- The affine projection: the rows of `x` against the rows of `W` (its transpose on the right of the product), plus the
    bias row repeated down the rows. -/
def linR (x : FVec Ideal S32768x512 .f32) (W : FVec Ideal S512x512 .f32) (b : FVec Ideal S512 .f32) :
    FVec Ideal S32768x512 .f32 :=
  addf (Host.dotGeneral dot_S32768x512_S512x512_S32768x512_1_0_0_1_n_n none x
      (transpose S512x512 [1, 0] W transposes_S512x512_S512x512_1_0))
    (broadcastInDim S32768x512 ![0, 1] bcast_S1x512_S32768x512_0_1 (broadcastInDim S1x512 ![1] bcast_S512_S1x512_1 b))

/-- A negative index counts from the end: it is shifted up by the number of rows. -/
def wrapIdx (s : IVec S8192 32) : IVec S8192 32 :=
  select (cmpi .slt s (broadcastInDim S8192 ![] bcast_S_S8192 (constantI S_ 32 0#32)))
    (addi s (broadcastInDim S8192 ![] bcast_S_S8192 (constantI S_ 32 32768#32))) s

/-- The index vector as a column of start indices. -/
def idxOf (s : IVec S8192 32) : IVec S8192x1 32 :=
  broadcastInDim S8192x1 ![0] bcast_S8192_S8192x1_0 (wrapIdx s)

/-- The rows of `a` the index vector names. -/
def gatherRows (a : FVec Ideal S32768x512 .f32) (s : IVec S8192 32) : FVec Ideal S8192x512 .f32 :=
  Host.gather gather_S32768x512_S8192x1_S8192x512_1_0_n_n_0_1_1512 a (idxOf s)

/-- The sorted index vector. -/
def sorted (x : IVec S8192 32) : IVec S8192 32 := Host.sort S8192 0 comparator_i32_d0 x

/-- The scores: entry `(t, s)` is query row `t` against key row `s`, divided by the word of eight. -/
def scoreR (gq gk : FVec Ideal S8192x512 .f32) : FVec Ideal S8192x8192 .f32 :=
  Host.divf (Host.dotGeneral dot_S8192x512_S512x8192_S8192x8192_1_0_0_1_n_n none gq
      (transpose S512x8192 [1, 0] gk transposes_S8192x512_S512x8192_1_0))
    (broadcastInDim S8192x8192 ![] bcast_S_S8192x8192 (constant S_ .f32 0x41000000#32))

/-- The largest score of each column (over the query rows), from the word of minus infinity. -/
def maxR (sc : FVec Ideal S8192x8192 .f32) : FVec Ideal S8192 .f32 :=
  maximumf (broadcastInDim S8192 ![] bcast_S_S8192 (constant S_ .f32 0xFF800000#32))
    (Host.reduce FloatOps.maximumf sc (constant S_ .f32 0xFF800000#32) reducesTo_S8192x8192_S8192_d0 h_S_)

/-- A vector over the columns repeated down the rows. -/
def colsR (v : FVec Ideal S8192 .f32) : FVec Ideal S8192x8192 .f32 :=
  broadcastInDim S8192x8192 ![0, 1] bcast_S1x8192_S8192x8192_0_1 (broadcastInDim S1x8192 ![1] bcast_S8192_S1x8192_1 v)

/-- The shifted exponentials of the scores. -/
def expR (sc : FVec Ideal S8192x8192 .f32) : FVec Ideal S8192x8192 .f32 :=
  Host.exp (subf sc (colsR (maxR sc)))

/-- The sum of each column of shifted exponentials (over the query rows), from zero. -/
def sumR (e : FVec Ideal S8192x8192 .f32) : FVec Ideal S8192 .f32 :=
  Host.reduceAdd e (constant S_ .f32 0x00000000#32) reducesTo_S8192x8192_S8192_d0 h_S_

/-- The softmax weights: each shifted exponential over the sum of its column. -/
def probR (sc : FVec Ideal S8192x8192 .f32) : FVec Ideal S8192x8192 .f32 :=
  Host.divf (expR sc) (colsR (sumR (expR sc)))

/-- The attention block: the softmax weights of the scores contracted with the value rows. -/
def attnR (gq gk gv : FVec Ideal S8192x512 .f32) : FVec Ideal S8192x512 .f32 :=
  Host.dotGeneral dot_S8192x8192_S8192x512_S8192x512_1_0_0_1_n_n none (probR (scoreR gq gk)) gv

/-- The last step: the attention rows written into the value array at the named rows, then the batch axis restored. -/
def tailR (v : FVec Ideal S32768x512 .f32) (s : IVec S8192 32) (a : FVec Ideal S8192x512 .f32) :
    FVec Ideal S4x8192x512 .f32 :=
  shapeCast S4x8192x512 (Host.scatter scatter_S32768x512_S8192x1_S8192x512_1_0_0_1 (fun _ b => b) v (idxOf s) a)
    shapeCasts_S32768x512_S4x8192x512

/-! ## Over any float family (the same terms) -/

section Any

variable {F : FTy → Type} [FloatOps F]

def linG (x : FVec F S32768x512 .f32) (W : FVec F S512x512 .f32) (b : FVec F S512 .f32) : FVec F S32768x512 .f32 :=
  addf (Host.dotGeneral dot_S32768x512_S512x512_S32768x512_1_0_0_1_n_n none x
      (transpose S512x512 [1, 0] W transposes_S512x512_S512x512_1_0))
    (broadcastInDim S32768x512 ![0, 1] bcast_S1x512_S32768x512_0_1 (broadcastInDim S1x512 ![1] bcast_S512_S1x512_1 b))

def gatherG (a : FVec F S32768x512 .f32) (s : IVec S8192 32) : FVec F S8192x512 .f32 :=
  Host.gather gather_S32768x512_S8192x1_S8192x512_1_0_n_n_0_1_1512 a (idxOf s)

def scoreG (gq gk : FVec F S8192x512 .f32) : FVec F S8192x8192 .f32 :=
  Host.divf (Host.dotGeneral dot_S8192x512_S512x8192_S8192x8192_1_0_0_1_n_n none gq
      (transpose S512x8192 [1, 0] gk transposes_S8192x512_S512x8192_1_0))
    (broadcastInDim S8192x8192 ![] bcast_S_S8192x8192 (constant S_ .f32 0x41000000#32))

def maxG (sc : FVec F S8192x8192 .f32) : FVec F S8192 .f32 :=
  maximumf (broadcastInDim S8192 ![] bcast_S_S8192 (constant S_ .f32 0xFF800000#32))
    (Host.reduce FloatOps.maximumf sc (constant S_ .f32 0xFF800000#32) reducesTo_S8192x8192_S8192_d0 h_S_)

def colsG (v : FVec F S8192 .f32) : FVec F S8192x8192 .f32 :=
  broadcastInDim S8192x8192 ![0, 1] bcast_S1x8192_S8192x8192_0_1 (broadcastInDim S1x8192 ![1] bcast_S8192_S1x8192_1 v)

def expG (sc : FVec F S8192x8192 .f32) : FVec F S8192x8192 .f32 :=
  Host.exp (subf sc (colsG (maxG sc)))

def sumG (e : FVec F S8192x8192 .f32) : FVec F S8192 .f32 :=
  Host.reduceAdd e (constant S_ .f32 0x00000000#32) reducesTo_S8192x8192_S8192_d0 h_S_

def probG (sc : FVec F S8192x8192 .f32) : FVec F S8192x8192 .f32 :=
  Host.divf (expG sc) (colsG (sumG (expG sc)))

def attnG (gq gk gv : FVec F S8192x512 .f32) : FVec F S8192x512 .f32 :=
  Host.dotGeneral dot_S8192x8192_S8192x512_S8192x512_1_0_0_1_n_n none (probG (scoreG gq gk)) gv

def tailG (v : FVec F S32768x512 .f32) (s : IVec S8192 32) (a : FVec F S8192x512 .f32) : FVec F S4x8192x512 .f32 :=
  shapeCast S4x8192x512 (Host.scatter scatter_S32768x512_S8192x1_S8192x512_1_0_0_1 (fun _ b => b) v (idxOf s) a)
    shapeCasts_S32768x512_S4x8192x512

end Any

end Cert.ReferenceIdeal.RefValue

end
-- ==== Proof.Ref.Res.lean ====
/-
  The reference's result is the composition of its named pieces: the composed term of the program's operations, with the
  three projections, the two sorted index vectors, the three row lookups, the attention block and the write-back named.
-/
import proofs.«418280_j79096117723502_1_alg».proof.Proof.Ref.Defs

noncomputable section

namespace Cert.ReferenceIdeal.RefValue

open Cert.ReferenceIdeal Cert.ReferenceIdeal.Facts₀ Cert.ReferenceIdeal.Facts Idealize.ShloMosaic
  Idealize.ShloMosaic.TcCoe Idealize.SL.Sem Idealize.ShloMosaic.StableHlo ValueIdx

/-- Over any float family: the program's composed term is the composition of the named pieces. -/
theorem res_eqG {F : FTy → Type} [FloatOps F] (m : (ℓ : Loc nD τ sig) → Buf (Elt F) ℓ) (c : Dev nD) :
    Cert.ReferenceIdeal.Value.res_main_v62 (F := F) m c
      = tailG
          (linG (shapeCast S32768x512 (m ((c.tc : Thread nD τ).loc main_arg0)) shapeCasts_S4x8192x512_S32768x512)
                (m ((c.tc : Thread nD τ).loc main_arg5)) (m ((c.tc : Thread nD τ).loc main_arg6)))
          (sorted (m ((c.tc : Thread nD τ).loc main_arg8)))
          (attnG
            (gatherG
              (linG (shapeCast S32768x512 (m ((c.tc : Thread nD τ).loc main_arg0)) shapeCasts_S4x8192x512_S32768x512)
                (m ((c.tc : Thread nD τ).loc main_arg1)) (m ((c.tc : Thread nD τ).loc main_arg2)))
              (sorted (m ((c.tc : Thread nD τ).loc main_arg8))))
            (gatherG
              (linG (shapeCast S32768x512 (m ((c.tc : Thread nD τ).loc main_arg0)) shapeCasts_S4x8192x512_S32768x512)
                (m ((c.tc : Thread nD τ).loc main_arg3)) (m ((c.tc : Thread nD τ).loc main_arg4)))
              (sorted (m ((c.tc : Thread nD τ).loc main_arg7))))
            (gatherG
              (linG (shapeCast S32768x512 (m ((c.tc : Thread nD τ).loc main_arg0)) shapeCasts_S4x8192x512_S32768x512)
                (m ((c.tc : Thread nD τ).loc main_arg5)) (m ((c.tc : Thread nD τ).loc main_arg6)))
              (sorted (m ((c.tc : Thread nD τ).loc main_arg7))))) := by
  unfold Cert.ReferenceIdeal.Value.res_main_v62
  rfl

/-- At the ideal instance. -/
theorem res_eq (m : (ℓ : Loc nD τ sig) → Buf (Elt Ideal) ℓ) (c : Dev nD) :
    Cert.ReferenceIdeal.Value.res_main_v62 (F := Ideal) m c
      = tailR
          (linR (shapeCast S32768x512 (m ((c.tc : Thread nD τ).loc main_arg0)) shapeCasts_S4x8192x512_S32768x512)
                (m ((c.tc : Thread nD τ).loc main_arg5)) (m ((c.tc : Thread nD τ).loc main_arg6)))
          (sorted (m ((c.tc : Thread nD τ).loc main_arg8)))
          (attnR
            (gatherRows
              (linR (shapeCast S32768x512 (m ((c.tc : Thread nD τ).loc main_arg0)) shapeCasts_S4x8192x512_S32768x512)
                (m ((c.tc : Thread nD τ).loc main_arg1)) (m ((c.tc : Thread nD τ).loc main_arg2)))
              (sorted (m ((c.tc : Thread nD τ).loc main_arg8))))
            (gatherRows
              (linR (shapeCast S32768x512 (m ((c.tc : Thread nD τ).loc main_arg0)) shapeCasts_S4x8192x512_S32768x512)
                (m ((c.tc : Thread nD τ).loc main_arg3)) (m ((c.tc : Thread nD τ).loc main_arg4)))
              (sorted (m ((c.tc : Thread nD τ).loc main_arg7))))
            (gatherRows
              (linR (shapeCast S32768x512 (m ((c.tc : Thread nD τ).loc main_arg0)) shapeCasts_S4x8192x512_S32768x512)
                (m ((c.tc : Thread nD τ).loc main_arg5)) (m ((c.tc : Thread nD τ).loc main_arg6)))
              (sorted (m ((c.tc : Thread nD τ).loc main_arg7))))) :=
  (res_eqG (F := Ideal) m c).trans rfl

end Cert.ReferenceIdeal.RefValue

end
-- ==== Proof.Ref.Lin.lean ====
/-
  The affine projection of the reference read at an index: entry (n, j) is row n of the input against row j of the
  weight matrix, plus entry j of the bias. The product is read as a sum over its contraction coordinate, the transposed
  weight matrix and the repeated bias row at their coordinates.
-/
import proofs.«418280_j79096117723502_1_alg».proof.Proof.Ref.Defs
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Facts₀ Cert.ReferenceIdeal.Facts Idealize.ShloMosaic
  Idealize.ShloMosaic.TcCoe Idealize.SL.Sem Idealize.ShloMosaic.StableHlo ValueIdx

/-- The transposed weight matrix read at (h, j) is the weight matrix at (j, h). -/
theorem transposeW_apply (W : FVec Ideal S512x512 .f32) (h j : Fin 512) :
    transpose S512x512 [1, 0] W transposes_S512x512_S512x512_1_0 (ix2 h j) = W (ix2 j h) :=
  transpose_apply [1, 0] W transposes_S512x512_S512x512_1_0 (ix2 h j) (ix2 j h) (fun b => match b with
    | ⟨0, _⟩ => rfl
    | ⟨1, _⟩ => rfl)

/-- The bias, made a row and repeated down the rows, read at (n, j) is the bias at j. -/
theorem biasRows_apply (b : FVec Ideal S512 .f32) (n : Fin 32768) (j : Fin 512) :
    broadcastInDim S32768x512 ![0, 1] bcast_S1x512_S32768x512_0_1 (broadcastInDim S1x512 ![1] bcast_S512_S1x512_1 b) (ix2 n j)
      = b (ix1 j) := by
  rw [broadcastInDim_apply _ bcast_S1x512_S32768x512_0_1 _ (ix2 n j) (ix2 (0 : Fin 1) j) (fun a => match a with
    | ⟨0, _⟩ => by show 0 = if (1 : Nat) = 1 then 0 else n.val; rw [if_pos rfl]
    | ⟨1, _⟩ => by show j.val = if (512 : Nat) = 1 then 0 else j.val; rw [if_neg (by decide)])]
  exact broadcastInDim_apply _ bcast_S512_S1x512_1 b (ix2 (0 : Fin 1) j) (ix1 j) (fun a => match a with
    | ⟨0, _⟩ => by show j.val = if (512 : Nat) = 1 then 0 else j.val; rw [if_neg (by decide)])

/-- The product of an array of rows with a 512 × 512 matrix read at (n, j): the sum over the contraction coordinate k of
    the left operand at (n, k) times the right at (k, j). -/
theorem linDot_apply (x : FVec Ideal S32768x512 .f32) (y : FVec Ideal S512x512 .f32) (n : Fin 32768) (j : Fin 512) :
    Host.dotGeneral dot_S32768x512_S512x512_S32768x512_1_0_0_1_n_n none x y (ix2 n j)
      = ∑ k : Fin 512, x (ix2 n k) * y (ix2 k j) := by
  simp only [Host.dotGeneral]
  rw [Ideal.dotGeneral_apply, ← Equiv.sum_comp (contrEquiv1 dot_S32768x512_S512x512_S32768x512_1_0_0_1_n_n 512 rfl rfl).symm]
  refine Finset.sum_congr rfl fun k _ => ?_
  have hk := contrEquiv1_symm_val dot_S32768x512_S512x512_S32768x512_1_0_0_1_n_n 512 rfl rfl k
  have el : dot_S32768x512_S512x512_S32768x512_1_0_0_1_n_n.lhsIdx (ix2 n j)
      ((contrEquiv1 dot_S32768x512_S512x512_S32768x512_1_0_0_1_n_n 512 rfl rfl).symm k) = ix2 n k :=
    funext fun a => Fin.ext (by
      match a with
      | ⟨0, _⟩ => exact Cert.ReferenceIdeal.Read.lhs_main_v2_0 _ _
      | ⟨1, _⟩ => exact (Cert.ReferenceIdeal.Read.lhs_main_v2_1 _ _).trans hk)
  have er : dot_S32768x512_S512x512_S32768x512_1_0_0_1_n_n.rhsIdx (ix2 n j)
      ((contrEquiv1 dot_S32768x512_S512x512_S32768x512_1_0_0_1_n_n 512 rfl rfl).symm k) = ix2 k j :=
    funext fun a => Fin.ext (by
      match a with
      | ⟨0, _⟩ => exact (Cert.ReferenceIdeal.Read.rhs_main_v2_0 _ _).trans hk
      | ⟨1, _⟩ => exact Cert.ReferenceIdeal.Read.rhs_main_v2_1 _ _)
  rw [el, er]

/-- Entry (n, j) of the projection: row n of the input against row j of the weight matrix, plus entry j of the bias. -/
theorem linR_apply (x : FVec Ideal S32768x512 .f32) (W : FVec Ideal S512x512 .f32) (b : FVec Ideal S512 .f32)
    (n : Fin 32768) (j : Fin 512) :
    linR x W b (ix2 n j) = Cert.Spec.lin (fun n h => x (ix2 n h)) (fun j h => W (ix2 j h)) (fun j => b (ix1 j)) n j := by
  unfold linR Cert.Spec.lin
  rw [addf_apply, biasRows_apply, linDot_apply]
  refine congrArg (· + b (ix1 j)) (Finset.sum_congr rfl fun k _ => ?_)
  rw [transposeW_apply]

end Cert.ReferenceIdeal.RefValue

end
-- ==== Proof.Ref.Attn.lean ====
/-
  The attention block of the reference read at an index: the scores as scaled inner products, the largest score, the
  shifted exponentials, their sum and the quotient down each column (over the query rows, for one key row), and the
  contraction of the weights with the value rows as a sum over the key rows.
-/
import proofs.«418280_j79096117723502_1_alg».proof.Proof.Ref.Defs
import Idealize.ShloMosaic.Lib.ValueIdx
import Idealize.ShloMosaic.Lib.Pipeline.Value
import Idealize.ShloMosaic.Lib.IdealHost
import Idealize.ShloMosaic.PureOps.Ideal.Laws
import Idealize.ShloMosaic.PureOps.Reduce

noncomputable section

namespace Cert.ReferenceIdeal.RefValue

open Cert.ReferenceIdeal Cert.ReferenceIdeal.Facts₀ Cert.ReferenceIdeal.Facts Idealize.ShloMosaic
  Idealize.ShloMosaic.TcCoe Idealize.SL.Sem Idealize.ShloMosaic.StableHlo ValueIdx

/-! ## The two words: eight and minus infinity -/

/-- Dividing by the word of eight is multiplying by the word of one eighth, for every extended real. -/
theorem div_eight (x : EReal) :
    Ideal.div x (Ideal.ofBits .f32 0x41000000#32) = x * Ideal.ofBits .f32 0x3E000000#32 := by
  have h8 : Ideal.ofBits .f32 0x41000000#32 = ((8 : ℝ) : EReal) := by
    simp [Ideal.ofBits, Ideal.ieee, -EReal.coe_mul]; norm_num
  have h18 : Ideal.ofBits .f32 0x3E000000#32 = ((1 / 8 : ℝ) : EReal) := by
    simp [Ideal.ofBits, Ideal.ieee, -EReal.coe_mul]; norm_num
  rw [h8, h18, Ideal.div_coe (by norm_num : (8 : ℝ) ≠ 0)]

/-- The word 0xFF800000 is the bottom element. -/
theorem ofBits_neg_inf : Ideal.ofBits .f32 0xFF800000#32 = (⊥ : EReal) := by
  simp [Ideal.ofBits, Ideal.ieee]

/-! ## The scores -/

/-- The transposed key rows read at (h, s) are the key rows at (s, h). -/
theorem transposeK_apply (gk : FVec Ideal S8192x512 .f32) (h : Fin 512) (s : Fin 8192) :
    transpose S512x8192 [1, 0] gk transposes_S8192x512_S512x8192_1_0 (ix2 h s) = gk (ix2 s h) :=
  transpose_apply [1, 0] gk transposes_S8192x512_S512x8192_1_0 (ix2 h s) (ix2 s h) (fun b => match b with
    | ⟨0, _⟩ => rfl
    | ⟨1, _⟩ => rfl)

/-- The product of the query rows with a 512 × 8192 matrix read at (t, s): the sum over the contraction coordinate. -/
theorem scoreDot_apply (gq : FVec Ideal S8192x512 .f32) (y : FVec Ideal S512x8192 .f32) (t s : Fin 8192) :
    Host.dotGeneral dot_S8192x512_S512x8192_S8192x8192_1_0_0_1_n_n none gq y (ix2 t s)
      = ∑ k : Fin 512, gq (ix2 t k) * y (ix2 k s) := by
  simp only [Host.dotGeneral]
  rw [Ideal.dotGeneral_apply, ← Equiv.sum_comp (contrEquiv1 dot_S8192x512_S512x8192_S8192x8192_1_0_0_1_n_n 512 rfl rfl).symm]
  refine Finset.sum_congr rfl fun k _ => ?_
  have hk := contrEquiv1_symm_val dot_S8192x512_S512x8192_S8192x8192_1_0_0_1_n_n 512 rfl rfl k
  have el : dot_S8192x512_S512x8192_S8192x8192_1_0_0_1_n_n.lhsIdx (ix2 t s)
      ((contrEquiv1 dot_S8192x512_S512x8192_S8192x8192_1_0_0_1_n_n 512 rfl rfl).symm k) = ix2 t k :=
    funext fun a => Fin.ext (by
      match a with
      | ⟨0, _⟩ => exact Cert.ReferenceIdeal.Read.lhs_main_v33_0 _ _
      | ⟨1, _⟩ => exact (Cert.ReferenceIdeal.Read.lhs_main_v33_1 _ _).trans hk)
  have er : dot_S8192x512_S512x8192_S8192x8192_1_0_0_1_n_n.rhsIdx (ix2 t s)
      ((contrEquiv1 dot_S8192x512_S512x8192_S8192x8192_1_0_0_1_n_n 512 rfl rfl).symm k) = ix2 k s :=
    funext fun a => Fin.ext (by
      match a with
      | ⟨0, _⟩ => exact (Cert.ReferenceIdeal.Read.rhs_main_v33_0 _ _).trans hk
      | ⟨1, _⟩ => exact Cert.ReferenceIdeal.Read.rhs_main_v33_1 _ _)
  rw [el, er]

/-- Entry (t, s) of the scores is the scaled inner product of key row s with query row t. -/
theorem scoreR_apply (gq gk : FVec Ideal S8192x512 .f32) (t s : Fin 8192) :
    scoreR gq gk (ix2 t s) = Cert.Spec.score (fun t h => gq (ix2 t h)) (fun h => gk (ix2 s h)) t := by
  unfold scoreR Cert.Spec.score Cert.Spec.eighth
  rw [hostDivf_apply, broadcastInDim_scalar_apply, constant_apply, div_eight, scoreDot_apply]
  refine congrArg (· * Ideal.ofBits .f32 0x3E000000#32) (Finset.sum_congr rfl fun k _ => ?_)
  rw [transposeK_apply, mul_comm]

/-! ## Down a column -/

/-- A vector over the columns repeated down the rows, read at (t, s), is the vector at s. -/
theorem colsR_apply (v : FVec Ideal S8192 .f32) (t s : Fin 8192) : colsR v (ix2 t s) = v (ix1 s) := by
  unfold colsR
  rw [broadcastInDim_apply _ bcast_S1x8192_S8192x8192_0_1 _ (ix2 t s) (ix2 (0 : Fin 1) s) (fun a => match a with
    | ⟨0, _⟩ => by show 0 = if (1 : Nat) = 1 then 0 else t.val; rw [if_pos rfl]
    | ⟨1, _⟩ => by show s.val = if (8192 : Nat) = 1 then 0 else s.val; rw [if_neg (by decide)])]
  exact broadcastInDim_apply _ bcast_S8192_S1x8192_1 v (ix2 (0 : Fin 1) s) (ix1 s) (fun a => match a with
    | ⟨0, _⟩ => by show s.val = if (8192 : Nat) = 1 then 0 else s.val; rw [if_neg (by decide)])

/-- Column s with the row coordinate t inserted is the index (t, s). -/
theorem lift_col (h : S8192x8192.Reduces [0] S8192) (s t : Fin 8192) : h.lift (ix1 s) t = ix2 t s :=
  funext fun a => Fin.ext (by match a with | ⟨0, _⟩ => rfl | ⟨1, _⟩ => rfl)

/-- The largest entry of column s: the fold of the maximum from the bottom element over the rows. -/
theorem maxR_apply (sc : FVec Ideal S8192x8192 .f32) (s : Fin 8192) :
    maxR sc (ix1 s) = (Finset.univ : Finset (Fin 8192)).fold max (⊥ : EReal) (fun t => sc (ix2 t s)) := by
  unfold maxR
  rw [maximumf_apply, broadcastInDim_scalar_apply, constant_apply, ofBits_neg_inf, max_eq_right bot_le,
    Host.reduce_eq_fold_single FloatOps.maximumf sc _ reducesTo_S8192x8192_S8192_d0 (by decide) h_S_ (ix1 s)]
  rw [constant_apply, ofBits_neg_inf]
  refine Finset.fold_congr fun t _ => ?_
  exact congrArg sc (lift_col _ s t)

/-- The sum of column s from zero. -/
theorem sumR_apply (e : FVec Ideal S8192x8192 .f32) (s : Fin 8192) :
    sumR e (ix1 s) = ∑ t : Fin 8192, e (ix2 t s) := by
  unfold sumR
  rw [hostReduceAdd_apply, Ideal.hostReduceAdd_single reducesTo_S8192x8192_S8192_d0 (by decide), constant_apply,
    Ideal.ofBits_zero_f32, zero_add]
  exact Finset.sum_congr rfl fun t _ => congrArg e (lift_col _ s t)

/-- The shifted exponential at (t, s). -/
theorem expR_apply (sc : FVec Ideal S8192x8192 .f32) (t s : Fin 8192) :
    expR sc (ix2 t s) = Ideal.exp (sc (ix2 t s) - maxR sc (ix1 s)) := by
  unfold expR
  show Ideal.exp (subf sc (colsR (maxR sc)) (ix2 t s)) = _
  rw [subf_apply, colsR_apply]

/-- The softmax weight at (t, s). -/
theorem probR_apply (sc : FVec Ideal S8192x8192 .f32) (t s : Fin 8192) :
    probR sc (ix2 t s) = Ideal.div (expR sc (ix2 t s)) (sumR (expR sc) (ix1 s)) := by
  unfold probR
  rw [hostDivf_apply, colsR_apply]

/-! ## Against the specification -/

theorem maxR_score (gq gk : FVec Ideal S8192x512 .f32) (s : Fin 8192) :
    maxR (scoreR gq gk) (ix1 s) = Cert.Spec.rowMax (fun t h => gq (ix2 t h)) (fun h => gk (ix2 s h)) := by
  rw [maxR_apply]; unfold Cert.Spec.rowMax
  exact Finset.fold_congr fun t _ => scoreR_apply gq gk t s

theorem expR_score (gq gk : FVec Ideal S8192x512 .f32) (t s : Fin 8192) :
    expR (scoreR gq gk) (ix2 t s) = Cert.Spec.ex (fun t h => gq (ix2 t h)) (fun h => gk (ix2 s h)) t := by
  rw [expR_apply, scoreR_apply, maxR_score]; rfl

theorem probR_score (gq gk : FVec Ideal S8192x512 .f32) (t s : Fin 8192) :
    probR (scoreR gq gk) (ix2 t s) = Cert.Spec.prob (fun t h => gq (ix2 t h)) (fun h => gk (ix2 s h)) t := by
  rw [probR_apply, sumR_apply, expR_score]
  unfold Cert.Spec.prob Cert.Spec.rowSum
  refine congrArg (Ideal.div _) (Finset.sum_congr rfl fun t' _ => expR_score gq gk t' s)

/-! ## The contraction with the value rows -/

/-- The product of an 8192 × 8192 matrix with the value rows read at (t, h): the sum over the contraction coordinate. -/
theorem attnDot_apply (p : FVec Ideal S8192x8192 .f32) (gv : FVec Ideal S8192x512 .f32) (t : Fin 8192) (h : Fin 512) :
    Host.dotGeneral dot_S8192x8192_S8192x512_S8192x512_1_0_0_1_n_n none p gv (ix2 t h)
      = ∑ k : Fin 8192, p (ix2 t k) * gv (ix2 k h) := by
  simp only [Host.dotGeneral]
  rw [Ideal.dotGeneral_apply, ← Equiv.sum_comp (contrEquiv1 dot_S8192x8192_S8192x512_S8192x512_1_0_0_1_n_n 8192 rfl rfl).symm]
  refine Finset.sum_congr rfl fun k _ => ?_
  have hk := contrEquiv1_symm_val dot_S8192x8192_S8192x512_S8192x512_1_0_0_1_n_n 8192 rfl rfl k
  have el : dot_S8192x8192_S8192x512_S8192x512_1_0_0_1_n_n.lhsIdx (ix2 t h)
      ((contrEquiv1 dot_S8192x8192_S8192x512_S8192x512_1_0_0_1_n_n 8192 rfl rfl).symm k) = ix2 t k :=
    funext fun a => Fin.ext (by
      match a with
      | ⟨0, _⟩ => exact Cert.ReferenceIdeal.Read.lhs_main_v54_0 _ _
      | ⟨1, _⟩ => exact (Cert.ReferenceIdeal.Read.lhs_main_v54_1 _ _).trans hk)
  have er : dot_S8192x8192_S8192x512_S8192x512_1_0_0_1_n_n.rhsIdx (ix2 t h)
      ((contrEquiv1 dot_S8192x8192_S8192x512_S8192x512_1_0_0_1_n_n 8192 rfl rfl).symm k) = ix2 k h :=
    funext fun a => Fin.ext (by
      match a with
      | ⟨0, _⟩ => exact (Cert.ReferenceIdeal.Read.rhs_main_v54_0 _ _).trans hk
      | ⟨1, _⟩ => exact Cert.ReferenceIdeal.Read.rhs_main_v54_1 _ _)
  rw [el, er]

/-- Entry (t, h) of the attention block: the sum over key rows s of the softmax weight of query row t for key row s times
    the value entry (s, h). -/
theorem attnR_apply (gq gk gv : FVec Ideal S8192x512 .f32) (t : Fin 8192) (h : Fin 512) :
    attnR gq gk gv (ix2 t h)
      = Cert.Spec.attn (fun t h => gq (ix2 t h)) (fun s h => gk (ix2 s h)) (fun s h => gv (ix2 s h)) t h := by
  unfold attnR Cert.Spec.attn
  rw [attnDot_apply]
  exact Finset.sum_congr rfl fun s _ => congrArg (· * gv (ix2 s h)) (probR_score gq gk t s)

end Cert.ReferenceIdeal.RefValue

end
-- ==== Proof.Ref.Value.lean ====
/-
  The reference's value at the ideal instance: its result as a composition of named functions of arrays, and the two
  mathematical pieces (the affine projection, the attention block) read at an index.
-/
import proofs.«418280_j79096117723502_1_alg».proof.Proof.Ref.Defs
import proofs.«418280_j79096117723502_1_alg».proof.Proof.Ref.Res
import proofs.«418280_j79096117723502_1_alg».proof.Proof.Ref.Lin
import proofs.«418280_j79096117723502_1_alg».proof.Proof.Ref.Attn
-- ==== Proof.KI.GlueDefs.lean ====
/-
  The host-side steps of the kernel's program around its two launches, each as one named function of arrays (at any float
  family): the stacked weight matrix and bias row the projection is fed, the three column slices of its result (queries, keys,
  values), the index column made from a sorted index vector (a negative index is shifted up by the number of rows), a row
  lookup that answers a fill word where the index is out of range, the change of float format, and the final step that
  writes the attention rows back into the value array and restores the batch axis.
-/
import proofs.«418280_j79096117723502_1_alg».proof.KernelIdeal

noncomputable section

namespace Cert.KernelIdeal.Hand

open Idealize.ShloMosaic Cert.KernelIdeal

variable {F : FTy → Type} [FloatOps F]
variable [Cert.KernelIdeal.Facts]
open Cert.KernelIdeal.Facts₀ Cert.KernelIdeal.Facts

/-- The three weight matrices stacked along the rows: rows 0–511 the first, 512–1023 the second, 1024–1535 the third. -/
def catW (w1 w3 w5 : FVec F S512x512 .f32) : FVec F S1536x512 .f32 :=
  concatenate S1536x512 0 [⟨S512x512, w1⟩, ⟨S512x512, w3⟩, ⟨S512x512, w5⟩] concatenates_S512x512_S512x512_S512x512_S1536x512_d0

/-- The three bias vectors joined end to end, as one row. -/
def catB (b2 b4 b6 : FVec F S512 .f32) : FVec F S1x1536 .f32 :=
  shapeCast S1x1536 (concatenate S1536 0 [⟨S512, b2⟩, ⟨S512, b4⟩, ⟨S512, b6⟩] concatenates_S512_S512_S512_S1536_d0) shapeCasts_S1536_S1x1536

/-- Columns 0–511 of the projection's result. -/
def sliceQ (a : FVec F S32768x1536 .f32) : FVec F S32768x512 .f32 :=
  extractStridedSlice S32768x512 ![0, 0] a slices_S32768x1536_S32768x512_0_0
/-- Columns 512–1023. -/
def sliceK (a : FVec F S32768x1536 .f32) : FVec F S32768x512 .f32 :=
  extractStridedSlice S32768x512 ![0, 512] a slices_S32768x1536_S32768x512_0_512
/-- Columns 1024–1535. -/
def sliceV (a : FVec F S32768x1536 .f32) : FVec F S32768x512 .f32 :=
  extractStridedSlice S32768x512 ![0, 1024] a slices_S32768x1536_S32768x512_0_1024

/-- A negative index counts from the end: it is shifted up by the number of rows. -/
def wrapIdx (s : IVec S8192 32) : IVec S8192 32 :=
  select (cmpi .slt s (broadcastInDim S8192 ![] bcast_S_S8192 (constantI S_ 32 0#32)))
    (addi s (broadcastInDim S8192 ![] bcast_S_S8192 (constantI S_ 32 32768#32))) s

/-- The index vector as a column of start indices. -/
def idxOf (s : IVec S8192 32) : IVec S8192x1 32 :=
  broadcastInDim S8192x1 ![0] bcast_S8192_S8192x1_0 (wrapIdx s)

/-- Row `r` of the lookup is in range: its start index lies between 0 and the last row. -/
def inRange (s : IVec S8192 32) : IVec S8192 1 :=
  Host.reduce IntOp.andi
    (andi (cmpi .sge (idxOf s) (broadcastInDim S8192x1 ![] bcast_S_S8192x1 (constantI S_ 32 0#32)))
      (cmpi .sle (idxOf s) (broadcastInDim S8192x1 ![0, 1] bcast_S1x1_S8192x1_0_1 (broadcastInDim S1x1 ![1] bcast_S1_S1x1_1 (constantI S1 32 32767#32)))))
    (constantI S_ 1 1#1) reducesTo_S8192x1_S8192_d1 h_S_

/-- The rows of `a` the index vector names. -/
def gatherRows (a : FVec F S32768x512 .f32) (s : IVec S8192 32) : FVec F S8192x512 .f32 :=
  Host.gather gather_S32768x512_S8192x1_S8192x512_1_0_n_n_0_1_1512 a (idxOf s)

/-- The row lookup with a fill word: where the index is out of range the row is the word 0x7FC00000 throughout. -/
def takeRows (a : FVec F S32768x512 .f32) (s : IVec S8192 32) : FVec F S8192x512 .f32 :=
  select (broadcastInDim S8192x512 ![0] bcast_S8192_S8192x512_0 (inRange s)) (gatherRows a s)
    (broadcastInDim S8192x512 ![] bcast_S_S8192x512 (constant S_ .f32 0x7FC00000#32))

/-- The change of float format of a looked-up array. -/
def conv (a : FVec F S8192x512 .f32) : FVec F S8192x512 .bf16 :=
  truncf .bf16 a bitsLt_bf16_f32

/-- The last step: the attention rows written into the value array at the named rows, then the batch axis restored. -/
def tailK (v : FVec F S32768x512 .f32) (s : IVec S8192 32) (a : FVec F S8192x512 .f32) : FVec F S4x8192x512 .f32 :=
  shapeCast S4x8192x512 (Host.scatter scatter_S32768x512_S8192x1_S8192x512_1_0_0_1 (fun _ b => b) v (idxOf s) a) shapeCasts_S32768x512_S4x8192x512

/-- The sorted index vector. -/
def sorted (x : IVec S8192 32) : IVec S8192 32 := Host.sort S8192 0 comparator_i32_d0 x

end Cert.KernelIdeal.Hand

end
-- ==== Proof.LibConcatRun.lean ====
/-
  Reading a straight line of host operations at a result whose term holds concatenations of computed operands.
  A concatenation takes its pieces as a list of (shape, contents) pairs beside a proof about the list of shapes, and a
  rewriting pass does not enter that list. Here the two-piece and three-piece concatenations are restated with the pieces
  as plain arguments, an operation over a literal family of three references is read with each operand's contents at its
  own reference, and the one-pass reading of the results is extended by these three facts.
-/
import Idealize.ShloMosaic.Lib.StableHlo.Run

noncomputable section

namespace Idealize.ShloMosaic.StableHlo

section Pieces
variable {α : Type}

/-- The concatenation of two pieces along an axis, the pieces as plain arguments. -/
def cat2 (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

/-- The concatenation of three pieces along an axis, the pieces as plain arguments. -/
def cat3 (t : Shape) (ax : Fin t.rank) (s1 s2 s3 : Shape) (h : Shape.Concatenates [s1, s2, s3] t ax)
    (a : s1.Idx → α) (b : s2.Idx → α) (c : s3.Idx → α) : t.Idx → α :=
  concatenate t ax [⟨s1, a⟩, ⟨s2, b⟩, ⟨s3, c⟩] h

theorem concatenate_two (t : Shape) (ax : Fin t.rank) (s1 s2 : Shape) (h : Shape.Concatenates [s1, s2] t ax)
    (a : s1.Idx → α) (b : s2.Idx → α) :
    concatenate t ax [⟨s1, a⟩, ⟨s2, b⟩] h = cat2 t ax s1 s2 h a b := rfl

theorem concatenate_three (t : Shape) (ax : Fin t.rank) (s1 s2 s3 : Shape) (h : Shape.Concatenates [s1, s2, s3] t ax)
    (a : s1.Idx → α) (b : s2.Idx → α) (c : s3.Idx → α) :
    concatenate t ax [⟨s1, a⟩, ⟨s2, b⟩, ⟨s3, c⟩] h = cat3 t ax s1 s2 s3 h a b c := rfl

end Pieces

section Three
variable {nD : Nat} {τ : Topo} {sig : RefSig} {Val : EltTy → Type} {x a b y : Ref sig .tc}

/-- An operation over a literal family of three references leaves at its result its function of the three contents,
    each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Three

/-- The results of a straight line by one rewriting pass, reaching the operands of two-piece and three-piece
    concatenations: each operation's result at its own buffer is its function's value, at any other buffer what was
    there, and a concatenation of computed pieces is read with the pieces as plain arguments. -/
macro "after_results_simp_cat" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne',
      concatenate_two, concatenate_three]))

end Idealize.ShloMosaic.StableHlo

end
-- ==== Proof.KI.HostGlue.lean ====
/-
  The host stretches of the kernel's program read back. Between the two launches and around them the program runs
  straight lines of host operations: a reshape of the activations and two three-piece concatenations before the
  projection; three column slices of its result, two sorts of index vectors, three row lookups each followed by a change
  of float format before the attention; an index column, a scatter and a reshape after it. Here each buffer a launch
  reads (and the program's result) is shown to hold the corresponding named function of the launch contents and of what
  the two launches leave, and the named functions are read at an index.
-/
import proofs.«418280_j79096117723502_1_alg».proof.Proof.Gen.KernelIdeal.Regions
import proofs.«418280_j79096117723502_1_alg».proof.Proof.KI.GlueDefs
import proofs.«418280_j79096117723502_1_alg».proof.Proof.LibConcatRun
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.StableHlo

section StretchLemmas
variable {F : FTy → Type} [FloatOps F]
variable (W : Valuation τ sig (Elt F))

/-- The first stretch leaves the merged activations in its first result. -/
theorem ops0_x : StableHlo.after hostOps0 W (Proc.devRef .tc main_v0)
    = shapeCast S32768x512 (W (Proc.devRef .tc main_arg0)) shapeCasts_S4x8192x512_S32768x512 := by
  after_results_simp_cat <;> rfl

/-- The first stretch leaves the stacked weight matrix in its second result. -/
theorem ops0_w : StableHlo.after hostOps0 W (Proc.devRef .tc main_v1)
    = catW (W (Proc.devRef .tc main_arg1)) (W (Proc.devRef .tc main_arg3)) (W (Proc.devRef .tc main_arg5)) := by
  after_results_simp_cat <;> rfl

/-- The first stretch leaves the bias row in its last result. -/
theorem ops0_b : StableHlo.after hostOps0 W (Proc.devRef .tc main_v3)
    = catB (W (Proc.devRef .tc main_arg2)) (W (Proc.devRef .tc main_arg4)) (W (Proc.devRef .tc main_arg6)) := by
  after_results_simp_cat <;> rfl

/-- The second stretch leaves the three column slices of the projection's result. -/
theorem ops1_q : StableHlo.after hostOps1 W (Proc.devRef .tc main_v5) = sliceQ (W (Proc.devRef .tc main_v4)) := by
  after_results_simp <;> rfl
theorem ops1_k : StableHlo.after hostOps1 W (Proc.devRef .tc main_v6) = sliceK (W (Proc.devRef .tc main_v4)) := by
  after_results_simp <;> rfl
theorem ops1_v : StableHlo.after hostOps1 W (Proc.devRef .tc main_v7) = sliceV (W (Proc.devRef .tc main_v4)) := by
  after_results_simp <;> rfl

/-- Each sort stretch leaves its operand sorted. -/
theorem ops1_1 : StableHlo.after hostOps1_1 W (Proc.devRef .tc main_v8) = sorted (W (Proc.devRef .tc main_arg7)) := by
  after_results_simp <;> rfl
theorem ops1_2 : StableHlo.after hostOps1_2 W (Proc.devRef .tc main_v9) = sorted (W (Proc.devRef .tc main_arg8)) := by
  after_results_simp <;> rfl

/-- Each change-of-format stretch leaves its operand in the narrower format. -/
theorem ops1_4 : StableHlo.after hostOps1_4 W (Proc.devRef .tc main_v11) = conv (W (Proc.devRef .tc main_v10)) := by
  after_results_simp <;> rfl
theorem ops1_6 : StableHlo.after hostOps1_6 W (Proc.devRef .tc main_v13) = conv (W (Proc.devRef .tc main_v12)) := by
  after_results_simp <;> rfl
theorem ops1_8 : StableHlo.after hostOps1_8 W (Proc.devRef .tc main_v15) = conv (W (Proc.devRef .tc main_v14)) := by
  after_results_simp <;> rfl

/-- The last stretch leaves the final step of its three operands: the value array, the index vector, the attention rows. -/
theorem ops2_res : StableHlo.after hostOps2 W (Proc.devRef .tc main_v24)
    = tailK (W (Proc.devRef .tc main_v7)) (W (Proc.devRef .tc main_v9)) (W (Proc.devRef .tc main_v16)) := by
  after_results_simp <;> rfl

end StretchLemmas

section TakeStretches
variable {F : FTy → Type} [FloatOps F]
variable (W : Valuation τ sig (Elt F))

/-- The first row lookup's stretch leaves in its result the lookup of its two operands. -/
theorem ops1_3 : StableHlo.after hostOps1_3 W (Proc.devRef .tc main_v10)
    = takeRows (W (Proc.devRef .tc main_v5)) (W (Proc.devRef .tc main_v9)) := by
  after_results_simp <;> rfl

/-- The second row lookup's stretch. -/
theorem ops1_5 : StableHlo.after hostOps1_5 W (Proc.devRef .tc main_v12)
    = takeRows (W (Proc.devRef .tc main_v6)) (W (Proc.devRef .tc main_v8)) := by
  after_results_simp <;> rfl

/-- The third row lookup's stretch. -/
theorem ops1_7 : StableHlo.after hostOps1_7 W (Proc.devRef .tc main_v14)
    = takeRows (W (Proc.devRef .tc main_v7)) (W (Proc.devRef .tc main_v8)) := by
  after_results_simp <;> rfl

end TakeStretches

section Chains
variable {F : FTy → Type} [FloatOps F]
variable (m : (ℓ : Loc nD τ sig) → Buf (Elt F) ℓ) (outs : Outs (F := F)) (c : Dev nD)

/-- After the projection its output buffer holds what the projection left. -/
theorem V2_v4 : V2 m outs c main_v4 = outs 2 main_v4 c := Function.update_self ..

/-- After the attention its output buffer holds what the attention left. -/
theorem V12_v16 : V12 m outs c main_v16 = outs 12 main_v16 c := Function.update_self ..

/-- The three column slices of what the projection left. -/
theorem V3_q : V3 m outs c main_v5 = sliceQ (outs 2 main_v4 c) :=
  (ops1_q (V2 m outs c)).trans (congrArg sliceQ (V2_v4 m outs c))
theorem V3_k : V3 m outs c main_v6 = sliceK (outs 2 main_v4 c) :=
  (ops1_k (V2 m outs c)).trans (congrArg sliceK (V2_v4 m outs c))
theorem V3_v : V3 m outs c main_v7 = sliceV (outs 2 main_v4 c) :=
  (ops1_v (V2 m outs c)).trans (congrArg sliceV (V2_v4 m outs c))

/-- The first index vector sorted. -/
theorem V4_s8 : V4 m outs c main_v8 = sorted (m ((c : Thread nD τ).loc main_arg7)) :=
  (ops1_1 (V3 m outs c)).trans (congrArg sorted ((V3_of m outs c main_arg7 (by decide)).trans <| (V2_of m outs c main_arg7 (by decide)).trans <| (V1_of m c main_arg7 (by decide)).trans <| rfl))

/-- The second index vector sorted. -/
theorem V5_s9 : V5 m outs c main_v9 = sorted (m ((c : Thread nD τ).loc main_arg8)) :=
  (ops1_2 (V4 m outs c)).trans (congrArg sorted ((V4_of m outs c main_arg8 (by decide)).trans <| (V3_of m outs c main_arg8 (by decide)).trans <| (V2_of m outs c main_arg8 (by decide)).trans <| (V1_of m c main_arg8 (by decide)).trans <| rfl))

/-- The looked-up query rows. -/
theorem V6_10 : V6 m outs c main_v10 = takeRows (sliceQ (outs 2 main_v4 c)) (sorted (m ((c : Thread nD τ).loc main_arg8))) :=
  (ops1_3 (V5 m outs c)).trans (congrArg₂ takeRows
    ((V5_of m outs c main_v5 (by decide)).trans <| (V4_of m outs c main_v5 (by decide)).trans <| V3_q m outs c)
    (V5_s9 m outs c))

/-- The looked-up key rows. -/
theorem V8_12 : V8 m outs c main_v12 = takeRows (sliceK (outs 2 main_v4 c)) (sorted (m ((c : Thread nD τ).loc main_arg7))) :=
  (ops1_5 (V7 m outs c)).trans (congrArg₂ takeRows
    ((V7_of m outs c main_v6 (by decide)).trans <| (V6_of m outs c main_v6 (by decide)).trans <| (V5_of m outs c main_v6 (by decide)).trans <| (V4_of m outs c main_v6 (by decide)).trans <| V3_k m outs c)
    ((V7_of m outs c main_v8 (by decide)).trans <| (V6_of m outs c main_v8 (by decide)).trans <| (V5_of m outs c main_v8 (by decide)).trans <| V4_s8 m outs c))

/-- The looked-up value rows. -/
theorem V10_14 : V10 m outs c main_v14 = takeRows (sliceV (outs 2 main_v4 c)) (sorted (m ((c : Thread nD τ).loc main_arg7))) :=
  (ops1_7 (V9 m outs c)).trans (congrArg₂ takeRows
    ((V9_of m outs c main_v7 (by decide)).trans <| (V8_of m outs c main_v7 (by decide)).trans <| (V7_of m outs c main_v7 (by decide)).trans <| (V6_of m outs c main_v7 (by decide)).trans <| (V5_of m outs c main_v7 (by decide)).trans <| (V4_of m outs c main_v7 (by decide)).trans <| V3_v m outs c)
    ((V9_of m outs c main_v8 (by decide)).trans <| (V8_of m outs c main_v8 (by decide)).trans <| (V7_of m outs c main_v8 (by decide)).trans <| (V6_of m outs c main_v8 (by decide)).trans <| (V5_of m outs c main_v8 (by decide)).trans <| V4_s8 m outs c))

end Chains

section Stretches
variable {F : FTy → Type} [FloatOps F]
variable (m : (ℓ : Loc nD τ sig) → Buf (Elt F) ℓ) (outs : Outs (F := F)) (c : Dev nD)

/-- The activations entering the projection: the argument with its batch axis merged into the rows. -/
theorem V1_x : V1 m c main_v0
    = shapeCast S32768x512 (m ((c : Thread nD τ).loc main_arg0)) shapeCasts_S4x8192x512_S32768x512 :=
  ops0_x (V0 m c)

/-- The weight matrix entering the projection: the three weight arguments stacked. -/
theorem V1_w : V1 m c main_v1
    = catW (m ((c : Thread nD τ).loc main_arg1)) (m ((c : Thread nD τ).loc main_arg3)) (m ((c : Thread nD τ).loc main_arg5)) :=
  ops0_w (V0 m c)

/-- The bias row entering the projection: the three bias arguments joined, as one row. -/
theorem V1_b : V1 m c main_v3
    = catB (m ((c : Thread nD τ).loc main_arg2)) (m ((c : Thread nD τ).loc main_arg4)) (m ((c : Thread nD τ).loc main_arg6)) :=
  ops0_b (V0 m c)

/-- The queries entering the attention: rows of the first column slice looked up at the second index vector sorted. -/
theorem V11_q : V11 m outs c main_v11
    = conv (takeRows (sliceQ (outs 2 main_v4 c)) (sorted (m ((c : Thread nD τ).loc main_arg8)))) :=
  (V11_of m outs c main_v11 (by decide)).trans <| (V10_of m outs c main_v11 (by decide)).trans <| (V9_of m outs c main_v11 (by decide)).trans <| (V8_of m outs c main_v11 (by decide)).trans <| (ops1_4 (V6 m outs c)).trans (congrArg conv (V6_10 m outs c))

/-- The keys entering the attention: rows of the second column slice looked up at the first index vector sorted. -/
theorem V11_k : V11 m outs c main_v13
    = conv (takeRows (sliceK (outs 2 main_v4 c)) (sorted (m ((c : Thread nD τ).loc main_arg7)))) :=
  (V11_of m outs c main_v13 (by decide)).trans <| (V10_of m outs c main_v13 (by decide)).trans <| (ops1_6 (V8 m outs c)).trans (congrArg conv (V8_12 m outs c))

/-- The values entering the attention: rows of the third column slice looked up at the first index vector sorted. -/
theorem V11_v : V11 m outs c main_v15
    = conv (takeRows (sliceV (outs 2 main_v4 c)) (sorted (m ((c : Thread nD τ).loc main_arg7)))) :=
  (ops1_8 (V10 m outs c)).trans (congrArg conv (V10_14 m outs c))

/-- The program's result: the attention's rows written into the third column slice at the second index vector sorted. -/
theorem V13_res : V13 m outs c main_v24
    = tailK (sliceV (outs 2 main_v4 c)) (sorted (m ((c : Thread nD τ).loc main_arg8))) (outs 12 main_v16 c) := by
  have h7 : V12 m outs c (Proc.devRef .tc main_v7) = sliceV (outs 2 main_v4 c) :=
    (V12_of m outs c main_v7 (by decide)).trans <| (V11_of m outs c main_v7 (by decide)).trans <| (V10_of m outs c main_v7 (by decide)).trans <| (V9_of m outs c main_v7 (by decide)).trans <| (V8_of m outs c main_v7 (by decide)).trans <| (V7_of m outs c main_v7 (by decide)).trans <| (V6_of m outs c main_v7 (by decide)).trans <| (V5_of m outs c main_v7 (by decide)).trans <| (V4_of m outs c main_v7 (by decide)).trans <| V3_v m outs c
  have h9 : V12 m outs c (Proc.devRef .tc main_v9) = sorted (m ((c : Thread nD τ).loc main_arg8)) :=
    (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| V5_s9 m outs c
  have h16 : V12 m outs c (Proc.devRef .tc main_v16) = outs 12 main_v16 c := V12_v16 m outs c
  refine (ops2_res (V12 m outs c)).trans ?_
  rw [h7, h9, h16]

end Stretches

section Readings
open Idealize.ShloMosaic.ValueIdx
variable {F : FTy → Type} [FloatOps F]

/-- Rows 0–511 of the stacked weight matrix are the first matrix's. -/
theorem catW_apply1 (w1 w3 w5 : FVec F S512x512 .f32) (r : Fin 1536) (h : Fin 512) (hr : r.val < 512) :
    catW w1 w3 w5 (ix2 r h) = w1 (ix2 ⟨r.val, hr⟩ h) := by
  unfold catW
  refine concatenate_apply_piece (t := S1536x512) 0 _ _ (ix2 r h) 0 (by show 0 < 3; omega) S512x512 w1 rfl rfl 0 rfl
    (ix2 ⟨r.val, hr⟩ h) ?_ ?_
  · intro b hb
    match b with
    | ⟨0, _⟩ => exact absurd rfl hb
    | ⟨1, _⟩ => rfl
  · show 0 + r.val = r.val
    omega

/-- Rows 512–1023 of the stacked weight matrix are the second matrix's. -/
theorem catW_apply2 (w1 w3 w5 : FVec F S512x512 .f32) (r : Fin 1536) (h : Fin 512) (h1 : 512 ≤ r.val) (h2 : r.val < 1024) :
    catW w1 w3 w5 (ix2 r h) = w3 (ix2 ⟨r.val - 512, by omega⟩ h) := by
  unfold catW
  refine concatenate_apply_piece (t := S1536x512) 0 _ _ (ix2 r h) 1 (by show 1 < 3; omega) S512x512 w3 rfl rfl 512 rfl
    (ix2 ⟨r.val - 512, by omega⟩ h) ?_ ?_
  · intro b hb
    match b with
    | ⟨0, _⟩ => exact absurd rfl hb
    | ⟨1, _⟩ => rfl
  · show 512 + (r.val - 512) = r.val
    omega

/-- Rows 1024–1535 of the stacked weight matrix are the third matrix's. -/
theorem catW_apply3 (w1 w3 w5 : FVec F S512x512 .f32) (r : Fin 1536) (h : Fin 512) (h1 : 1024 ≤ r.val) :
    catW w1 w3 w5 (ix2 r h) = w5 (ix2 ⟨r.val - 1024, by have := r.isLt; omega⟩ h) := by
  unfold catW
  refine concatenate_apply_piece (t := S1536x512) 0 _ _ (ix2 r h) 2 (by show 2 < 3; omega) S512x512 w5 rfl rfl 1024 rfl
    (ix2 ⟨r.val - 1024, by have := r.isLt; omega⟩ h) ?_ ?_
  · intro b hb
    match b with
    | ⟨0, _⟩ => exact absurd rfl hb
    | ⟨1, _⟩ => rfl
  · show 1024 + (r.val - 1024) = r.val
    omega

/-- Columns 0–511 of the bias row are the first vector's. -/
theorem catB_apply1 (b2 b4 b6 : FVec F S512 .f32) (z : Fin 1) (r : Fin 1536) (hr : r.val < 512) :
    catB b2 b4 b6 (ix2 z r) = b2 (ix1 ⟨r.val, hr⟩) := by
  unfold catB
  refine (shapeCast_a_1a_apply _ _ z r).trans ?_
  refine concatenate_apply_piece (t := S1536) 0 _ _ (ix1 r) 0 (by show 0 < 3; omega) S512 b2 rfl rfl 0 rfl
    (ix1 ⟨r.val, hr⟩) ?_ ?_
  · intro b hb
    match b with
    | ⟨0, _⟩ => exact absurd rfl hb
  · show 0 + r.val = r.val
    omega

/-- Columns 512–1023 of the bias row are the second vector's. -/
theorem catB_apply2 (b2 b4 b6 : FVec F S512 .f32) (z : Fin 1) (r : Fin 1536) (h1 : 512 ≤ r.val) (h2 : r.val < 1024) :
    catB b2 b4 b6 (ix2 z r) = b4 (ix1 ⟨r.val - 512, by omega⟩) := by
  unfold catB
  refine (shapeCast_a_1a_apply _ _ z r).trans ?_
  refine concatenate_apply_piece (t := S1536) 0 _ _ (ix1 r) 1 (by show 1 < 3; omega) S512 b4 rfl rfl 512 rfl
    (ix1 ⟨r.val - 512, by omega⟩) ?_ ?_
  · intro b hb
    match b with
    | ⟨0, _⟩ => exact absurd rfl hb
  · show 512 + (r.val - 512) = r.val
    omega

/-- Columns 1024–1535 of the bias row are the third vector's. -/
theorem catB_apply3 (b2 b4 b6 : FVec F S512 .f32) (z : Fin 1) (r : Fin 1536) (h1 : 1024 ≤ r.val) :
    catB b2 b4 b6 (ix2 z r) = b6 (ix1 ⟨r.val - 1024, by have := r.isLt; omega⟩) := by
  unfold catB
  refine (shapeCast_a_1a_apply _ _ z r).trans ?_
  refine concatenate_apply_piece (t := S1536) 0 _ _ (ix1 r) 2 (by show 2 < 3; omega) S512 b6 rfl rfl 1024 rfl
    (ix1 ⟨r.val - 1024, by have := r.isLt; omega⟩) ?_ ?_
  · intro b hb
    match b with
    | ⟨0, _⟩ => exact absurd rfl hb
  · show 1024 + (r.val - 1024) = r.val
    omega

/-- The first column slice at (n, j) is the array at (n, j). -/
theorem sliceQ_apply (a : FVec F S32768x1536 .f32) (n : Fin 32768) (j : Fin 512) :
    sliceQ a (ix2 n j) = a (ix2 n ⟨j.val, by have := j.isLt; omega⟩) := by
  unfold sliceQ
  refine extractStridedSlice_apply _ a _ (ix2 n j) _ fun b => ?_
  match b with
  | ⟨0, _⟩ => show n.val = 0 + n.val; omega
  | ⟨1, _⟩ => show j.val = 0 + j.val; omega

/-- The second column slice at (n, j) is the array at (n, j + 512). -/
theorem sliceK_apply (a : FVec F S32768x1536 .f32) (n : Fin 32768) (j : Fin 512) :
    sliceK a (ix2 n j) = a (ix2 n ⟨j.val + 512, by have := j.isLt; omega⟩) := by
  unfold sliceK
  refine extractStridedSlice_apply _ a _ (ix2 n j) _ fun b => ?_
  match b with
  | ⟨0, _⟩ => show n.val = 0 + n.val; omega
  | ⟨1, _⟩ => show j.val + 512 = 512 + j.val; omega

/-- The third column slice at (n, j) is the array at (n, j + 1024). -/
theorem sliceV_apply (a : FVec F S32768x1536 .f32) (n : Fin 32768) (j : Fin 512) :
    sliceV a (ix2 n j) = a (ix2 n ⟨j.val + 1024, by have := j.isLt; omega⟩) := by
  unfold sliceV
  refine extractStridedSlice_apply _ a _ (ix2 n j) _ fun b => ?_
  match b with
  | ⟨0, _⟩ => show n.val = 0 + n.val; omega
  | ⟨1, _⟩ => show j.val + 1024 = 1024 + j.val; omega

/-- At the ideal instance the change of float format is the identity. -/
theorem conv_apply (a : FVec Ideal S8192x512 .f32) (i : S8192x512.Idx) : conv (F := Ideal) a i = a i := by
  unfold conv
  rfl

end Readings

end Cert.KernelIdeal.Hand

end
-- ==== Proof.KI.QkvPayload.lean ====
/- The fused projection's one computed value, read at one entry, at the ideal instance.

   The body multiplies the [1024,512] activation block by the TRANSPOSE of the [1536,512] weight block (both operands are
   contracted along their axis 1, the 512 features) into a zero accumulator, and adds the one bias row broadcast over the
   1024 rows. The two narrowing format changes in front of the product are the identity on the extended reals, and so are
   the shape casts to the same shape. So entry (r, j) is the sum over the features h of x (r, h) · w (j, h), plus b (0, j). -/
import proofs.«418280_j79096117723502_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The product's operand indices, axis by axis

Output index (r, j), contraction position k: the left operand is read at (r, k), the right at (j, k). -/

/-- Left operand, axis 0: the output's row. -/
theorem qkv_lhs_0 (i : S1024x1536.Idx) (q : dot_S1024x512_S1536x512_S1024x1536_1_1_0_0_n_n.contr.Idx) :
    (dot_S1024x512_S1536x512_S1024x1536_1_1_0_0_n_n.lhsIdx i q 0).val = (i 0).val := by
  unfold DotDims.lhsIdx
  rw [dif_neg (show ¬(0 : Fin S1024x512.rank) ∈ dot_S1024x512_S1536x512_S1024x1536_1_1_0_0_n_n.lhsBatch by decide), dif_pos (show (0 : Fin S1024x512.rank) ∈ dot_S1024x512_S1536x512_S1024x1536_1_1_0_0_n_n.lhsNonContracting by decide)]
  rfl
/-- Left operand, axis 1: the contraction position. -/
theorem qkv_lhs_1 (i : S1024x1536.Idx) (q : dot_S1024x512_S1536x512_S1024x1536_1_1_0_0_n_n.contr.Idx) :
    (dot_S1024x512_S1536x512_S1024x1536_1_1_0_0_n_n.lhsIdx i q 1).val = (q ⟨0, by decide⟩).val :=
  dot_S1024x512_S1536x512_S1024x1536_1_1_0_0_n_n.lhsIdx_val_of_single rfl i q
/-- Right operand, axis 0: the output's column (the weight's row: the weight enters transposed). -/
theorem qkv_rhs_0 (i : S1024x1536.Idx) (q : dot_S1024x512_S1536x512_S1024x1536_1_1_0_0_n_n.contr.Idx) :
    (dot_S1024x512_S1536x512_S1024x1536_1_1_0_0_n_n.rhsIdx i q 0).val = (i 1).val := by
  unfold DotDims.rhsIdx
  rw [dif_neg (show ¬(0 : Fin S1536x512.rank) ∈ dot_S1024x512_S1536x512_S1024x1536_1_1_0_0_n_n.rhsBatch by decide), dif_pos (show (0 : Fin S1536x512.rank) ∈ dot_S1024x512_S1536x512_S1024x1536_1_1_0_0_n_n.rhsNonContracting by decide)]
  rfl
/-- Right operand, axis 1: the contraction position. -/
theorem qkv_rhs_1 (i : S1024x1536.Idx) (q : dot_S1024x512_S1536x512_S1024x1536_1_1_0_0_n_n.contr.Idx) :
    (dot_S1024x512_S1536x512_S1024x1536_1_1_0_0_n_n.rhsIdx i q 1).val = (q ⟨0, by decide⟩).val :=
  dot_S1024x512_S1536x512_S1024x1536_1_1_0_0_n_n.rhsIdx_val_of_single rfl i q

/-! ## The product into the zero accumulator, at an entry -/

/-- Entry (r, j) of the product of `a` with the transpose of `b`, accumulated from zero: the sum over the 512 contraction
    positions, re-indexed from the contraction shape's one axis to `Fin 512`. -/
theorem qkv_matmul_apply (a : FVec Ideal S1024x512 .bf16) (b : FVec Ideal S1536x512 .bf16) (r : Fin 1024) (j : Fin 1536) :
    matmul (F := Ideal) dot_S1024x512_S1536x512_S1024x1536_1_1_0_0_n_n none a b (constant (F := Ideal) S1024x1536 .f32 0x00000000#32) (ix2 r j)
      = ∑ h : Fin 512, a (ix2 r h) * b (ix2 j h) := by
  simp only [matmul]
  rw [Ideal.matmul_constant_zero_apply, ← Equiv.sum_comp (contrEquiv1 dot_S1024x512_S1536x512_S1024x1536_1_1_0_0_n_n 512 rfl rfl).symm]
  refine Finset.sum_congr rfl fun k _ => ?_
  have hk := contrEquiv1_symm_val dot_S1024x512_S1536x512_S1024x1536_1_1_0_0_n_n 512 rfl rfl k
  have el : dot_S1024x512_S1536x512_S1024x1536_1_1_0_0_n_n.lhsIdx (ix2 r j) ((contrEquiv1 dot_S1024x512_S1536x512_S1024x1536_1_1_0_0_n_n 512 rfl rfl).symm k) = ix2 r k := funext fun ax => Fin.ext (by
    match ax with
    | ⟨0, _⟩ => exact qkv_lhs_0 _ _
    | ⟨1, _⟩ => exact (qkv_lhs_1 _ _).trans hk)
  have er : dot_S1024x512_S1536x512_S1024x1536_1_1_0_0_n_n.rhsIdx (ix2 r j) ((contrEquiv1 dot_S1024x512_S1536x512_S1024x1536_1_1_0_0_n_n 512 rfl rfl).symm k) = ix2 j k := funext fun ax => Fin.ext (by
    match ax with
    | ⟨0, _⟩ => exact qkv_rhs_0 _ _
    | ⟨1, _⟩ => exact (qkv_rhs_1 _ _).trans hk)
  rw [el, er]

/-! ## The payload at an entry -/

/-- Entry (r, j) of the body's computed value: row r of the activation block against row j of the weight block, plus the
    bias entry j. -/
theorem k0_pay1_apply (x : Vec Ideal S1024x512 .f32) (w : Vec Ideal S1536x512 .f32) (b : Vec Ideal S1x1536 .f32) (r : Fin 1024) (j : Fin 1536) :
    k0_pay1 (F := Ideal) x w b (ix2 r j) = (∑ h : Fin 512, x (ix2 r h) * w (ix2 j h)) + b (ix2 0 j) := by
  unfold k0_pay1
  simp only [shapeCast_self]
  refine (addf_apply _ _ (ix2 r j)).trans ?_
  refine congrArg₂ (· + ·) ?_ ?_
  · exact qkv_matmul_apply _ _ r j
  · exact broadcastTo_1b_ab_apply b broadcasts_S1x1536_S1024x1536 r j

end Cert.KernelIdeal.Hand

end
-- ==== Proof.KI.QkvValue.lean ====
/- The output array of the fused projection after its region, at the ideal instance, from blocks to the whole array.

   The grid has 32 points. At point t the body finds rows 1024 t … 1024 t + 1023 of the activations, the whole
   [1536,512] weight array and the whole bias row in its input buffers, and leaves in the output buffer, at (r, j), the
   sum over the 512 features h of x (1024 t + r, h) · w (j, h), plus b (0, j). Every point writes its [1024,1536] block
   back to rows 1024 t … 1024 t + 1023 of the output array; row n lies in the block of point n / 1024, so the 32 blocks
   cover the array, and the array ends holding, at (n, j), the sum over h of x (n, h) · w (j, h), plus b (0, j). -/
import proofs.«418280_j79096117723502_1_alg».proof.Proof.KI.QkvRegion
import proofs.«418280_j79096117723502_1_alg».proof.Proof.KI.QkvPayload
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's stored value is its payload -/

/-- The offsets of a whole-buffer rectangle are zero on both axes. -/
theorem qkv_zero_off : (![0, 0] : Fin 2 → Nat) = fun _ => 0 := funext fun a => by fin_cases a <;> rfl

section AnyInstance
variable {F : FTy → Type} [FloatOps F]

/-- One store through the whole output buffer leaves its payload, and a load through a whole input buffer reads the
    buffer: the output buffer after the body is the payload of the three input buffers. -/
theorem qkvOut_eq (x : Vec F S1024x512 .f32) (w : Vec F S1536x512 .f32) (b : Vec F S1x1536 .f32) :
    qkvOut x w b = k0_pay1 x w b := by
  unfold qkvOut
  rw [View.canon_unit_zero qkv_zero_off]
  simp only [View.ld_unit_zero (S := S1024x512) qkv_zero_off, View.ld_unit_zero (S := S1536x512) qkv_zero_off,
    View.ld_unit_zero (S := S1x1536) qkv_zero_off]

end AnyInstance

/-! ## The block indices over the grid -/

/-- The index maps, decided over the 32 points: the activation's and the output's block index is (t, 0), the weight's and
    the bias's is (0, 0) at every point. -/
theorem qkv_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section AtIdeal
-- the TensorCore's buffer contents when the region is entered
variable (V : (c : Dev nD) → (b : Ref sig .tc) → Buf (Elt Ideal) ((c : Thread nD τ).loc b))

/-! ## The three input arrays and their blocks, at their literal types -/

/-- The activations as the region finds them, -/
abbrev qkvX (c : Dev nD) : S32768x512.Idx → EReal := V c main_v0
/-- the fused weights, -/
abbrev qkvW (c : Dev nD) : S1536x512.Idx → EReal := V c main_v1
/-- and the fused bias row. -/
abbrev qkvB (c : Dev nD) : S1x1536.Idx → EReal := V c main_v3

/-- The activation block at point t, -/
abbrev qkvXblk (c : Dev nD) (t : Fin cfg0.N) : Vec Ideal S1024x512 .f32 := iblk0 V c 0 t
/-- the weight block, -/
abbrev qkvWblk (c : Dev nD) (t : Fin cfg0.N) : Vec Ideal S1536x512 .f32 := iblk0 V c 1 t
/-- and the bias block. -/
abbrev qkvBblk (c : Dev nD) (t : Fin cfg0.N) : Vec Ideal S1x1536 .f32 := iblk0 V c 2 t

/-! ## Each input block as entries of its array

A block's coordinate in the array is, on each axis, block index × block size + 1 × the coordinate inside the block. -/

/-- The activation block at point t holds rows 1024 t … 1024 t + 1023 of the activations. -/
theorem qkv_xblk_apply (c : Dev nD) (t : Fin cfg0.N) (r : Fin 1024) (h : Fin 512) (n : Fin 32768) (hn : n.val = 1024 * t.val + r.val) :
    qkvXblk V c t (ix2 r h) = qkvX V c (ix2 n h) := by
  obtain ⟨e0, e1, -⟩ := qkv_idx_facts t
  unfold qkvXblk qkvX iblk0
  rw [View.read_apply]
  show V c main_v0 _ = V c main_v0 _
  congr 1
  funext a
  apply Fin.ext
  match a with
  | ⟨0, _⟩ => show win0_0.index t (0 : Fin 2) * 1024 + 1 * r.val = n.val; rw [e0, hn]; omega
  | ⟨1, _⟩ => show win0_0.index t (1 : Fin 2) * 512 + 1 * h.val = h.val; rw [e1]; omega

/-- The weight block at every point is the whole weight array. -/
theorem qkv_wblk_apply (c : Dev nD) (t : Fin cfg0.N) (j : Fin 1536) (h : Fin 512) :
    qkvWblk V c t (ix2 j h) = qkvW V c (ix2 j h) := by
  obtain ⟨-, -, e2, e3, -⟩ := qkv_idx_facts t
  unfold qkvWblk qkvW iblk0
  rw [View.read_apply]
  show V c main_v1 _ = V c main_v1 _
  congr 1
  funext a
  apply Fin.ext
  match a with
  | ⟨0, _⟩ => show win0_1.index t (0 : Fin 2) * 1536 + 1 * j.val = j.val; rw [e2]; omega
  | ⟨1, _⟩ => show win0_1.index t (1 : Fin 2) * 512 + 1 * h.val = h.val; rw [e3]; omega

/-- The bias block at every point is the whole bias row. -/
theorem qkv_bblk_apply (c : Dev nD) (t : Fin cfg0.N) (j : Fin 1536) :
    qkvBblk V c t (ix2 0 j) = qkvB V c (ix2 0 j) := by
  obtain ⟨-, -, -, -, e4, e5, -⟩ := qkv_idx_facts t
  unfold qkvBblk qkvB iblk0
  rw [View.read_apply]
  show V c main_v3 _ = V c main_v3 _
  congr 1
  funext a
  apply Fin.ext
  match a with
  | ⟨0, _⟩ => show win0_2.index t (0 : Fin 2) * 1 + 1 * 0 = 0; rw [e4]
  | ⟨1, _⟩ => show win0_2.index t (1 : Fin 2) * 1536 + 1 * j.val = j.val; rw [e5]; omega

/-! ## The array the region leaves -/

/-- Entry (n, j) of the projection: row n of the activations against row j of the weights, plus the bias entry j. -/
def qkvEntry (c : Dev nD) (n : Fin 32768) (j : Fin 1536) : EReal :=
  (∑ h : Fin 512, qkvX V c (ix2 n h) * qkvW V c (ix2 j h)) + qkvB V c (ix2 0 j)

/-- The whole [32768,1536] array of those entries. -/
def qkvArr (c : Dev nD) : S32768x1536.Idx → EReal := fun i => qkvEntry V c (i 0) (i 1)

/-- Entry (r, j) of the payload of the blocks at point t is entry (1024 t + r, j) of the projection. -/
theorem qkv_blk_entry (c : Dev nD) (t : Fin cfg0.N) (r : Fin 1024) (j : Fin 1536) (n : Fin 32768) (hn : n.val = 1024 * t.val + r.val) :
    k0_pay1 (F := Ideal) (qkvXblk V c t) (qkvWblk V c t) (qkvBblk V c t) (ix2 r j) = qkvEntry V c n j := by
  refine (k0_pay1_apply (qkvXblk V c t) (qkvWblk V c t) (qkvBblk V c t) r j).trans ?_
  unfold qkvEntry
  rw [qkv_bblk_apply V c t j]
  refine congrArg (fun s : EReal => s + qkvB V c (ix2 0 j)) (Finset.sum_congr rfl fun h _ => ?_)
  rw [qkv_xblk_apply V c t r h n hn, qkv_wblk_apply V c t j h]

/-- Element (r, j) of the output's block at point t sits at (1024 t + r, j) of the output array. -/
theorem qkv_oblk_emb (t : Fin cfg0.N) (r : Fin 1024) (j : Fin 1536) (n : Fin 32768) (hn : n.val = 1024 * t.val + r.val) :
    ((cfg0.win 3).blk t).view.emb (ix2 r j) = (ix2 n j : S32768x1536.Idx) := by
  obtain ⟨-, -, -, -, -, -, e6, e7⟩ := qkv_idx_facts t
  funext a
  apply Fin.ext
  match a with
  | ⟨0, _⟩ => show win0_3.index t (0 : Fin 2) * 1024 + 1 * r.val = n.val; rw [e6, hn]; omega
  | ⟨1, _⟩ => show win0_3.index t (1 : Fin 2) * 1536 + 1 * j.val = j.val; rw [e7]; omega

/-- The payload of the blocks at point t, at any element of the block, is the projection at that element's place in the
    output array. -/
theorem qkv_blk_elem (c : Dev nD) (t : Fin cfg0.N) (y : S1024x1536.Idx) :
    k0_pay1 (F := Ideal) (qkvXblk V c t) (qkvWblk V c t) (qkvBblk V c t) y = qkvArr V c (((cfg0.win 3).blk t).view.emb y) := by
  obtain ⟨r, j, rfl⟩ : ∃ (r : Fin 1024) (j : Fin 1536), y = ix2 r j := ⟨y 0, y 1, eq_ix2 y⟩
  have hN : cfg0.N = 32 := N_0
  have ht : t.val < cfg0.N := t.isLt
  have hn : 1024 * t.val + r.val < 32768 := by omega
  rw [qkv_oblk_emb t r j ⟨_, hn⟩ rfl]
  exact qkv_blk_entry V c t r j ⟨_, hn⟩ rfl

/-- WHAT POINT t WRITES BACK is block t of the projection. -/
theorem qkv_flushed_eq (c : Dev nD) (t : Fin cfg0.N) :
    (dat0 V c).flushed 3 t = ((cfg0.win 3).blk t).view.read (Elt Ideal) (qkvArr V c) := by
  show (cfg0.win 3).cut (grid0.coords t) ((dat0 V c).after 3 t) = _
  rw [after0_3, qkvOut_eq]
  funext y
  exact qkv_blk_elem V c t y

/-! ## The output's blocks cover the array -/

/-- An index of the output array is in point t's block iff each coordinate is in the block's range on its axis. -/
theorem qkv_mem_oblk (t : Fin cfg0.N) (i : S32768x1536.Idx) :
    i ∈ ((cfg0.win 3).blk t).view.set ↔ ∀ a : Fin 2, win0_3.index t a * S1024x1536.size a ≤ (i a).val ∧ (i a).val < win0_3.index t a * S1024x1536.size a + S1024x1536.size a := by
  show i ∈ ((View.whole main_v4).slice (win0_3.rect t)).set ↔ _
  rw [View.set_slice_whole, Rect.mem_set_unit]
  exact Iff.rfl

/-- Row n lies in the block of point n / 1024, and every point writes its block back. -/
theorem qkv_cover (i : S32768x1536.Idx) :
    ∃ t : Fin cfg0.N, (cfg0.win 3).flush t = true ∧ i ∈ ((cfg0.win 3).blk t).view.set := by
  have hN : cfg0.N = 32 := N_0
  have hi0 : (i 0).val < 32768 := (i 0).isLt
  have hi1 : (i 1).val < 1536 := (i 1).isLt
  have ht : (i 0).val / 1024 < cfg0.N := by rw [hN]; omega
  obtain ⟨-, -, -, -, -, -, e6, e7⟩ := qkv_idx_facts ⟨(i 0).val / 1024, ht⟩
  refine ⟨⟨(i 0).val / 1024, ht⟩, flush0_3 _, ?_⟩
  rw [qkv_mem_oblk]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, ht⟩ (1 : Fin 2) * 1536 ≤ (i 1).val ∧ (i 1).val < win0_3.index ⟨(i 0).val / 1024, ht⟩ (1 : Fin 2) * 1536 + 1536
    rw [e7]; omega

/-! ## The output array after the region -/

/-- The write-backs cover the array with blocks of the projection, so the array ends holding it. -/
theorem qkv_final (c : Dev nD) : (dat0 V c).arrAt 3 cfg0.N = qkvArr V c :=
  (dat0 V c).arrAt_eq_of_cover 3 (qkvArr V c) (fun t _ => qkv_flushed_eq V c t) qkv_cover

/-- Entry (n, j) of the output array after the region: row n of the activations against row j of the fused weights, plus
    the fused bias entry j. -/
theorem qkv_array (c : Dev nD) (n : Fin 32768) (j : Fin 1536) :
    ((dat0 (F := Ideal) V c).arrAt 3 cfg0.N : S32768x1536.Idx → EReal) (ix2 n j)
      = (∑ h : Fin 512, qkvX V c (ix2 n h) * qkvW V c (ix2 j h)) + qkvB V c (ix2 0 j) :=
  congrFun (qkv_final V c) (ix2 n j)

end AtIdeal

end Cert.KernelIdeal.Hand

end
-- ==== Proof.KI.TakeGather.lean ====
/-
  From the precondition to "the row lookup is the plain gather". The precondition says, of each of the two index vectors,
  that every entry e satisfies 0 ≤ e < 32768 as a signed 32-bit word. Sorting permutes the entries, so the sorted vector
  has the same range. A row lookup that answers a fill word where the index is out of range therefore never answers the
  fill word: every row's mask bit is 1 and the select takes the gathered row everywhere.
-/
import proofs.«418280_j79096117723502_1_alg».proof.Proof.KI.GlueDefs
import proofs.«418280_j79096117723502_1_alg».proof.Defs
import proofs.«418280_j79096117723502_1_alg».proof.Proof.Gen.Pre_finite_inputs
import Idealize.ShloMosaic.Lib.ValueIdx
import Idealize.ShloMosaic.Lib.ReduceAll
import Idealize.ShloMosaic.Lib.SortFacts
import Idealize.ShloMosaic.Lib.StableHlo.Predicate

set_option maxRecDepth 16384

noncomputable section

namespace Cert.KernelIdeal.Hand

open Cert.KernelIdeal Cert.KernelIdeal.Facts₀ Cert.KernelIdeal.Facts
open Idealize.ShloMosaic Idealize.SL.Sem ValueIdx

variable [Cert.KernelIdeal.Facts]

/-! ## The precondition read at an entry -/

/-- The two signed compares of the precondition at one word, read back as its signed value. -/
private theorem range_of_cmp (w : BitVec 32) (h0 : IntOp.cmpi .sge w 0#32 = 1#1) (h1 : IntOp.cmpi .slt w 32768#32 = 1#1) :
    0 ≤ w.toInt ∧ w.toInt < 32768 := by
  have e0 : (0#32 : BitVec 32).toInt = 0 := by decide
  have e1 : (32768#32 : BitVec 32).toInt = 32768 := by decide
  simp only [IntOp.cmpi, StableHlo.Predicate.ofBool_eq_one_iff, BitVec.sle, BitVec.slt, decide_eq_true_eq, e0, e1] at h0 h1
  exact ⟨h0, h1⟩

/-- The last part of the printed precondition, all ones, says of both index vectors that every entry is in range: its
    last four conjuncts are, for each vector, "every entry ≥ 0" and "every entry < 32768", each a reduce-and of a compare
    against a splat. -/
theorem part2_decode (a7 a8 : IVec Cert.Pre_finite_inputs.S8192 32) (v33 : IVec Cert.Pre_finite_inputs.S_ 1)
    (h : Cert.Pre_finite_inputs.fn_part2 (F := Ideal) a7 a8 v33 = fun _ => 1#1) :
    (∀ i, 0 ≤ (a7 i).toInt ∧ (a7 i).toInt < 32768) ∧ (∀ i, 0 ≤ (a8 i).toInt ∧ (a8 i).toInt < 32768) := by
  haveI : Subsingleton (Cert.Pre_finite_inputs.S_).Idx := ⟨fun a b => funext fun d => d.elim0⟩
  have e := congrFun h ix0
  dsimp only [Cert.Pre_finite_inputs.fn_part2] at e
  obtain ⟨e, h48⟩ := IntOp.andi_eq_one.1 e
  obtain ⟨e, h44⟩ := IntOp.andi_eq_one.1 e
  obtain ⟨e, h40⟩ := IntOp.andi_eq_one.1 e
  obtain ⟨e, h36⟩ := IntOp.andi_eq_one.1 e
  exact ⟨fun i => range_of_cmp (a7 i) (Host.reduce_andi_all _ _ _ _ _ h36 i) (Host.reduce_andi_all _ _ _ _ _ h40 i),
    fun i => range_of_cmp (a8 i) (Host.reduce_andi_all _ _ _ _ _ h44 i) (Host.reduce_andi_all _ _ _ _ _ h48 i)⟩

/-- The precondition read at one entry of the first index vector: it lies in [0, 32768) as a signed word. -/
theorem arg7_range (m : (ℓ : Loc nD τ sig) → Buf (Elt Ideal) ℓ) (hpre : Cert.Pre_KernelIdeal m) (c : Dev nD) (i : S8192.Idx) :
    0 ≤ (m ((c.tc : Thread nD τ).loc main_arg7) i : BitVec 32).toInt ∧ (m ((c.tc : Thread nD τ).loc main_arg7) i : BitVec 32).toInt < 32768 :=
  (part2_decode _ _ _ (hpre c)).1 i

/-- The same at one entry of the second index vector. -/
theorem arg8_range (m : (ℓ : Loc nD τ sig) → Buf (Elt Ideal) ℓ) (hpre : Cert.Pre_KernelIdeal m) (c : Dev nD) (i : S8192.Idx) :
    0 ≤ (m ((c.tc : Thread nD τ).loc main_arg8) i : BitVec 32).toInt ∧ (m ((c.tc : Thread nD τ).loc main_arg8) i : BitVec 32).toInt < 32768 :=
  (part2_decode _ _ _ (hpre c)).2 i

/-! ## Sorting keeps the range -/

/-- Sorting permutes the entries: every entry of the sorted vector is an entry of the vector, so a range that holds of
    every entry holds of every sorted entry. -/
theorem sorted_range (x : IVec S8192 32) (hx : ∀ i, 0 ≤ (x i).toInt ∧ (x i).toInt < 32768) :
    ∀ i, 0 ≤ (sorted x i).toInt ∧ (sorted x i).toInt < 32768 := by
  intro i
  unfold sorted
  rw [Host.sort_rank1]
  exact hx _

/-! ## In range, the lookup with a fill word is the plain gather -/

/-- A word in [0, 32768) signed is not negative and at most 32767: the three signed compares of the lookup at it. -/
private theorem word_in_range (w : BitVec 32) (h0 : 0 ≤ w.toInt) (h1 : w.toInt < 32768) :
    IntOp.cmpi .slt w 0#32 = 0#1 ∧ IntOp.cmpi .sge w 0#32 = 1#1 ∧ IntOp.cmpi .sle w 32767#32 = 1#1 := by
  have e0 : (0#32 : BitVec 32).toInt = 0 := by decide
  have e1 : (32767#32 : BitVec 32).toInt = 32767 := by decide
  refine ⟨?_, ?_, ?_⟩
  · simp only [IntOp.cmpi, BitVec.slt, e0]
    rw [decide_eq_false (by omega)]; rfl
  · simp only [IntOp.cmpi, BitVec.sle, e0]
    rw [decide_eq_true (by omega)]; rfl
  · simp only [IntOp.cmpi, BitVec.sle, e1]
    rw [decide_eq_true (by omega)]; rfl

/-- In range, the wrap leaves the index. -/
theorem wrapIdx_apply (s : IVec S8192 32) (hs : ∀ i, 0 ≤ (s i).toInt ∧ (s i).toInt < 32768) (i : S8192.Idx) :
    wrapIdx s i = s i := by
  unfold wrapIdx
  rw [select_apply]
  have h := (word_in_range (s i) (hs i).1 (hs i).2).1
  show Scalar.select (IntOp.cmpi .slt (s i) 0#32) _ _ = _
  rw [h]; rfl

/-- Every entry of the column of start indices is an entry of the index vector. -/
theorem idxOf_apply (s : IVec S8192 32) (hs : ∀ i, 0 ≤ (s i).toInt ∧ (s i).toInt < 32768) (k : S8192x1.Idx) :
    ∃ i, idxOf s k = s i :=
  ⟨_, wrapIdx_apply s hs _⟩

/-- Row `r` of the column of start indices is entry `r` of the index vector. -/
theorem idxOf_ix2 (s : IVec S8192 32) (hs : ∀ i, 0 ≤ (s i).toInt ∧ (s i).toInt < 32768) (r : Fin 8192) (z : Fin 1) :
    idxOf s (ix2 r z) = s (ix1 r) := by
  refine (wrapIdx_apply s hs _).trans (congrArg s ?_)
  funext d
  match d with
  | ⟨0, _⟩ => rfl

/-- A fold of "and" from 1 over all-ones is 1. -/
private theorem fold_andi_ones {ι : Type} (S : Finset ι) (f : ι → BitVec 1) (hf : ∀ i, f i = 1#1) : S.fold IntOp.andi 1#1 f = 1#1 := by
  induction S using Finset.cons_induction with
  | empty => rfl
  | cons a S ha ih => rw [Finset.fold_cons, ih, hf]; rfl

/-- In range, every row's mask bit is 1. -/
theorem inRange_apply (s : IVec S8192 32) (hs : ∀ i, 0 ≤ (s i).toInt ∧ (s i).toInt < 32768) (i : S8192.Idx) :
    inRange s i = 1#1 := by
  unfold inRange
  rw [Host.reduce_eq_fold_single IntOp.andi _ _ reducesTo_S8192x1_S8192_d1 (by decide) h_S_ i]
  refine fold_andi_ones _ _ fun k => ?_
  obtain ⟨i', hi⟩ := idxOf_apply s hs ((by decide : S8192x1.Reduces [1] S8192).lift i k)
  have hw := word_in_range (s i') (hs i').1 (hs i').2
  show IntOp.andi (IntOp.cmpi .sge (idxOf s _) 0#32) (IntOp.cmpi .sle (idxOf s _) 32767#32) = 1#1
  rw [hi, hw.2.1, hw.2.2]; rfl

/-- Every row in range: the select takes the gathered row everywhere. -/
theorem takeRows_eq_gather (a : FVec Ideal S32768x512 .f32) (s : IVec S8192 32) (hs : ∀ i, 0 ≤ (s i).toInt ∧ (s i).toInt < 32768) :
    takeRows (F := Ideal) a s = gatherRows (F := Ideal) a s := by
  funext j
  unfold takeRows
  rw [select_apply]
  show Scalar.select (inRange s _) _ _ = _
  rw [inRange_apply s hs]; rfl

end Cert.KernelIdeal.Hand

end
-- ==== Proof.Bridge1.lean ====
/-
  The two programs compute one function. On the kernel's side the first launch's result array, read column-slice by
  column-slice, is the three affine projections the reference computes (the stacked weights' rows 0–511, 512–1023 and
  1024–1535 are the three weight matrices, and so for the bias); under the precondition every sorted index is in range, so the
  kernel's row lookup with a fill word is the plain row lookup; the second launch's result array is the attention block of the
  looked-up rows; and the last step, the same on both sides, is applied to equal arrays.
-/
import proofs.«418280_j79096117723502_1_alg».proof.Proof.KI.Run
import proofs.«418280_j79096117723502_1_alg».proof.Proof.KI.HostGlue
import proofs.«418280_j79096117723502_1_alg».proof.Proof.KI.QkvValue
import proofs.«418280_j79096117723502_1_alg».proof.Proof.KI.TakeGather
import proofs.«418280_j79096117723502_1_alg».proof.Proof.Ref.Value

noncomputable section

namespace Cert.Bridge

open Idealize.ShloMosaic Idealize.ShloMosaic.ValueIdx Idealize.ShloMosaic.TcCoe Idealize.SL.Sem
open Cert.KernelIdeal Cert.KernelIdeal.Facts₀ Cert.KernelIdeal.Facts Cert.KernelIdeal.Hand

variable [Cert.KernelIdeal.Facts] [Cert.ReferenceIdeal.Facts]
variable (m : (ℓ : Loc nD τ sig) → Buf (Elt Ideal) ℓ) (c : Dev nD)

/-! ## The arguments, at their literal types -/

abbrev argX : FVec Ideal S4x8192x512 .f32 := m ((c.tc : Thread nD τ).loc main_arg0)
abbrev argW1 : FVec Ideal S512x512 .f32 := m ((c.tc : Thread nD τ).loc main_arg1)
abbrev argB2 : FVec Ideal S512 .f32 := m ((c.tc : Thread nD τ).loc main_arg2)
abbrev argW3 : FVec Ideal S512x512 .f32 := m ((c.tc : Thread nD τ).loc main_arg3)
abbrev argB4 : FVec Ideal S512 .f32 := m ((c.tc : Thread nD τ).loc main_arg4)
abbrev argW5 : FVec Ideal S512x512 .f32 := m ((c.tc : Thread nD τ).loc main_arg5)
abbrev argB6 : FVec Ideal S512 .f32 := m ((c.tc : Thread nD τ).loc main_arg6)
abbrev argS7 : IVec S8192 32 := m ((c.tc : Thread nD τ).loc main_arg7)
abbrev argS8 : IVec S8192 32 := m ((c.tc : Thread nD τ).loc main_arg8)
/-- The input with its two leading axes merged. -/
abbrev flatX : FVec Ideal S32768x512 .f32 := shapeCast S32768x512 (argX m c) shapeCasts_S4x8192x512_S32768x512
/-- The first launch's result array. -/
abbrev qkvOutArr : FVec Ideal S32768x1536 .f32 := outs m 2 main_v4 c

/-! ## The first launch's result, slice by slice -/

/-- Entry (n, j) of the first launch's result. -/
theorem qkvOutArr_apply (n : Fin 32768) (j : Fin 1536) :
    qkvOutArr m c (ix2 n j)
      = (∑ h : Fin 512, flatX m c (ix2 n h) * catW (argW1 m c) (argW3 m c) (argW5 m c) (ix2 j h))
        + catB (argB2 m c) (argB4 m c) (argB6 m c) (ix2 0 j) := by
  have h1 : qkvX (entry0 m) c = flatX m c := V1_x m c
  have h2 : qkvW (entry0 m) c = catW (argW1 m c) (argW3 m c) (argW5 m c) := V1_w m c
  have h3 : qkvB (entry0 m) c = catB (argB2 m c) (argB4 m c) (argB6 m c) := V1_b m c
  have h := qkv_array (entry0 m) c n j
  rw [h1, h2, h3] at h
  exact (congrFun (outs_two m c) (ix2 n j)).trans h

/-- Columns 0–511 of the result are the first projection. -/
theorem sliceQ_lin (n : Fin 32768) (j : Fin 512) :
    sliceQ (qkvOutArr m c) (ix2 n j)
      = Cert.Spec.lin (fun n h => flatX m c (ix2 n h)) (fun j h => argW1 m c (ix2 j h)) (fun j => argB2 m c (ix1 j)) n j := by
  rw [sliceQ_apply, qkvOutArr_apply]
  unfold Cert.Spec.lin
  rw [catB_apply1 _ _ _ 0 _ (by show j.val + 0 < 512; omega)]
  refine congrArg₂ (· + ·) (Finset.sum_congr rfl fun h _ => ?_) (congrArg _ (congrArg ix1 (Fin.ext (by simp))))
  rw [catW_apply1 _ _ _ _ h (by show j.val + 0 < 512; omega)]

/-- Columns 512–1023 are the second. -/
theorem sliceK_lin (n : Fin 32768) (j : Fin 512) :
    sliceK (qkvOutArr m c) (ix2 n j)
      = Cert.Spec.lin (fun n h => flatX m c (ix2 n h)) (fun j h => argW3 m c (ix2 j h)) (fun j => argB4 m c (ix1 j)) n j := by
  rw [sliceK_apply, qkvOutArr_apply]
  unfold Cert.Spec.lin
  rw [catB_apply2 _ _ _ 0 _ (by show 512 ≤ j.val + 512; omega) (by show j.val + 512 < 1024; omega)]
  refine congrArg₂ (· + ·) (Finset.sum_congr rfl fun h _ => ?_) (congrArg _ (congrArg ix1 (Fin.ext (by simp))))
  rw [catW_apply2 _ _ _ _ h (by show 512 ≤ j.val + 512; omega) (by show j.val + 512 < 1024; omega)]
  exact congrArg (_ * ·) (congrArg _ (congrArg (ix2 · h) (Fin.ext (by simp))))

/-- Columns 1024–1535 are the third. -/
theorem sliceV_lin (n : Fin 32768) (j : Fin 512) :
    sliceV (qkvOutArr m c) (ix2 n j)
      = Cert.Spec.lin (fun n h => flatX m c (ix2 n h)) (fun j h => argW5 m c (ix2 j h)) (fun j => argB6 m c (ix1 j)) n j := by
  rw [sliceV_apply, qkvOutArr_apply]
  unfold Cert.Spec.lin
  rw [catB_apply3 _ _ _ 0 _ (by show 1024 ≤ j.val + 1024; omega)]
  refine congrArg₂ (· + ·) (Finset.sum_congr rfl fun h _ => ?_) (congrArg _ (congrArg ix1 (Fin.ext (by simp))))
  rw [catW_apply3 _ _ _ _ h (by show 1024 ≤ j.val + 1024; omega)]
  exact congrArg (_ * ·) (congrArg _ (congrArg (ix2 · h) (Fin.ext (by simp))))

end Cert.Bridge

end
-- ==== Proof.KI.AttnValue.lean ====
/- The output array of the edge-attention region after the region, at the ideal instance, from blocks to the whole array.

   The grid has 32 points. At point p the body finds rows 256 p … 256 p + 255 of the keys and of the values in its two
   tiled input buffers and the whole query array in the third. The [8192,512] output block is one whole block, resident
   over the grid: the first point starts it from zero, every point adds, at (t, h), the sum over the 256 key rows r of its
   tile of (the softmax weight of query row t for key row r) · (value entry (r, h)), and the last point alone writes the
   block back. The weight of a key row depends on that row and on all the queries, not on the other key rows, so after
   point n the block holds the sum over the key rows of tiles 0 … n; the 32 tiles of 256 rows are the 8192 key rows, so the
   array ends holding, at (t, h), the sum over all key rows s of prob (k s) t · v (s, h). -/
import proofs.«418280_j79096117723502_1_alg».proof.Proof.KI.AttnRegion
import proofs.«418280_j79096117723502_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The block indices over the grid -/

/-- The index maps, decided over the 32 points: the keys' and the values' block index is (p, 0); the queries' and the
    output's is (0, 0) at every point. -/
theorem attn_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

section AtIdeal
-- the TensorCore's buffer contents when the region is entered
variable (V : (c : Dev nD) → (b : Ref sig .tc) → Buf (Elt Ideal) ((c : Thread nD τ).loc b))

/-! ## The three input arrays and their blocks, at their literal types -/

/-- The queries as the region finds them, -/
abbrev attnQ (c : Dev nD) : S8192x512.Idx → EReal := V c main_v11
/-- the keys, -/
abbrev attnK (c : Dev nD) : S8192x512.Idx → EReal := V c main_v13
/-- and the values. -/
abbrev attnVv (c : Dev nD) : S8192x512.Idx → EReal := V c main_v15

/-- The key tile at point p, -/
abbrev attnKblk (c : Dev nD) (p : Fin cfg1.N) : Vec Ideal S256x512 .bf16 := iblk1 V c 0 p
/-- the value tile, -/
abbrev attnVblk (c : Dev nD) (p : Fin cfg1.N) : Vec Ideal S256x512 .bf16 := iblk1 V c 1 p
/-- and the query block (the whole array). -/
abbrev attnQblk (c : Dev nD) (p : Fin cfg1.N) : Vec Ideal S8192x512 .bf16 := iblk1 V c 2 p

/-! ## Each input block as entries of its array

A block's coordinate in the array is, on each axis, block index × block size + 1 × the coordinate inside the block. -/

/-- The key tile at point p holds rows 256 p … 256 p + 255 of the keys. -/
theorem attn_kblk_apply (c : Dev nD) (p : Fin cfg1.N) (r : Fin 256) (h : Fin 512) (n : Fin 8192) (hn : n.val = 256 * p.val + r.val) :
    attnKblk V c p (ix2 r h) = attnK V c (ix2 n h) := by
  obtain ⟨e0, e1, -⟩ := attn_idx_facts p
  unfold attnKblk attnK iblk1
  rw [View.read_apply]
  show V c main_v13 _ = V c main_v13 _
  congr 1
  funext a
  apply Fin.ext
  match a with
  | ⟨0, _⟩ => show win1_0.index p (0 : Fin 2) * 256 + 1 * r.val = n.val; rw [e0, hn]; omega
  | ⟨1, _⟩ => show win1_0.index p (1 : Fin 2) * 512 + 1 * h.val = h.val; rw [e1]; omega

/-- The value tile at point p holds rows 256 p … 256 p + 255 of the values. -/
theorem attn_vblk_apply (c : Dev nD) (p : Fin cfg1.N) (r : Fin 256) (h : Fin 512) (n : Fin 8192) (hn : n.val = 256 * p.val + r.val) :
    attnVblk V c p (ix2 r h) = attnVv V c (ix2 n h) := by
  obtain ⟨-, -, e2, e3, -⟩ := attn_idx_facts p
  unfold attnVblk attnVv iblk1
  rw [View.read_apply]
  show V c main_v15 _ = V c main_v15 _
  congr 1
  funext a
  apply Fin.ext
  match a with
  | ⟨0, _⟩ => show win1_1.index p (0 : Fin 2) * 256 + 1 * r.val = n.val; rw [e2, hn]; omega
  | ⟨1, _⟩ => show win1_1.index p (1 : Fin 2) * 512 + 1 * h.val = h.val; rw [e3]; omega

/-- The query block at every point is the whole query array. -/
theorem attn_qblk_apply (c : Dev nD) (p : Fin cfg1.N) (t : Fin 8192) (h : Fin 512) :
    attnQblk V c p (ix2 t h) = attnQ V c (ix2 t h) := by
  obtain ⟨-, -, -, -, e4, e5, -⟩ := attn_idx_facts p
  unfold attnQblk attnQ iblk1
  rw [View.read_apply]
  show V c main_v11 _ = V c main_v11 _
  congr 1
  funext a
  apply Fin.ext
  match a with
  | ⟨0, _⟩ => show win1_2.index p (0 : Fin 2) * 8192 + 1 * t.val = t.val; rw [e4]; omega
  | ⟨1, _⟩ => show win1_2.index p (1 : Fin 2) * 512 + 1 * h.val = h.val; rw [e5]; omega

/-! ## The accumulation, point by point -/

/-- Key row r of tile p is row 256 p + r of the 8192 key rows. -/
theorem attn_row_lt (p : Fin 32) (r : Fin 256) : 256 * p.val + r.val < 8192 := by
  have := p.isLt; have := r.isLt; omega

/-- The contribution of key row s to entry (t, h): the softmax weight of query row t for that key row, times the value
    entry (s, h). -/
def attnTerm (c : Dev nD) (t : Fin 8192) (h : Fin 512) (s : Fin 8192) : EReal :=
  Cert.Spec.prob (fun t h => attnQ V c (ix2 t h)) (fun h => attnK V c (ix2 s h)) t * attnVv V c (ix2 s h)

/-- What point p adds at (t, h): the contributions of the 256 key rows of its tile. -/
theorem attn_tile_sum (c : Dev nD) (p : Fin cfg1.N) (t : Fin 8192) (h : Fin 512) (hp : p.val < 32) :
    (∑ r : Fin 256, Cert.Spec.prob (fun t h => attnQblk V c p (ix2 t h)) (fun h => attnKblk V c p (ix2 r h)) t * attnVblk V c p (ix2 r h))
      = ∑ r : Fin 256, attnTerm V c t h ⟨256 * p.val + r.val, attn_row_lt ⟨p.val, hp⟩ r⟩ := by
  -- the query block is the query array, whatever the point
  have eq : (fun (t : Fin 8192) (h : Fin 512) => attnQblk V c p (ix2 t h)) = fun t h => attnQ V c (ix2 t h) :=
    funext fun t => funext fun h => attn_qblk_apply V c p t h
  refine Finset.sum_congr rfl fun r _ => ?_
  -- row r of the key tile is key row 256 p + r
  have ek : (fun h : Fin 512 => attnKblk V c p (ix2 r h))
      = fun h => attnK V c (ix2 (⟨256 * p.val + r.val, attn_row_lt ⟨p.val, hp⟩ r⟩ : Fin 8192) h) :=
    funext fun h => attn_kblk_apply V c p r h ⟨_, attn_row_lt ⟨p.val, hp⟩ r⟩ rfl
  unfold attnTerm
  exact congrArg₂ (· * ·) (by rw [eq, ek]) (attn_vblk_apply V c p r h ⟨_, attn_row_lt ⟨p.val, hp⟩ r⟩ rfl)

/-- The 32 tiles of 256 key rows are the 8192 key rows. -/
theorem attn_regroup (f : Fin 8192 → EReal) :
    (∑ p : Fin 32, ∑ r : Fin 256, f ⟨256 * p.val + r.val, attn_row_lt p r⟩) = ∑ s : Fin 8192, f s := by
  -- the pair (p, r) is sent to r + 256 p, a bijection of the pairs with the 8192 rows
  calc (∑ p : Fin 32, ∑ r : Fin 256, f ⟨256 * p.val + r.val, attn_row_lt p r⟩)
      = ∑ x : Fin 32 × Fin 256, f ⟨256 * x.1.val + x.2.val, attn_row_lt x.1 x.2⟩ :=
        (Fintype.sum_prod_type (fun x : Fin 32 × Fin 256 => f ⟨256 * x.1.val + x.2.val, attn_row_lt x.1 x.2⟩)).symm
    _ = ∑ x : Fin 32 × Fin 256, f ((finProdFinEquiv : Fin 32 × Fin 256 ≃ Fin 8192) x) :=
        Finset.sum_congr rfl fun x _ => congrArg f (Fin.ext (by
          show 256 * x.1.val + x.2.val = x.2.val + 256 * x.1.val
          omega))
    _ = ∑ s : Fin 8192, f s := Equiv.sum_comp (finProdFinEquiv : Fin 32 × Fin 256 ≃ Fin 8192) f

/-- The whole [8192,512] array of attention entries. -/
def attnArr (c : Dev nD) : S8192x512.Idx → EReal :=
  fun i => Cert.Spec.attn (fun t h => attnQ V c (ix2 t h)) (fun s h => attnK V c (ix2 s h)) (fun s h => attnVv V c (ix2 s h)) (i 0) (i 1)

/-- An index of the output array is in point p's block iff each coordinate is in the block's range on its axis. -/
theorem attn_mem_oblk (p : Fin cfg1.N) (i : S8192x512.Idx) :
    i ∈ ((cfg1.win 3).blk p).view.set ↔ ∀ a : Fin 2, win1_3.index p a * S8192x512.size a ≤ (i a).val ∧ (i a).val < win1_3.index p a * S8192x512.size a + S8192x512.size a := by
  show i ∈ ((View.whole main_v16).slice (win1_3.rect p)).set ↔ _
  rw [View.set_slice_whole, Rect.mem_set_unit]
  exact Iff.rfl

/-- Element y of the output's one block sits at y of the output array. -/
theorem attn_oblk_emb (p : Fin cfg1.N) (y : S8192x512.Idx) :
    ((cfg1.win 3).blk p).view.emb y = (y : S8192x512.Idx) := by
  obtain ⟨-, -, -, -, -, -, e6, e7⟩ := attn_idx_facts p
  funext a
  apply Fin.ext
  match a with
  | ⟨0, _⟩ => show win1_3.index p (0 : Fin 2) * 8192 + 1 * (y 0).val = (y 0).val; rw [e6]; omega
  | ⟨1, _⟩ => show win1_3.index p (1 : Fin 2) * 512 + 1 * (y 1).val = (y 1).val; rw [e7]; omega

/-- Every index of the output array is in the block of the last point, the one point that writes back. -/
theorem attn_cover (i : S8192x512.Idx) :
    ∃ p : Fin cfg1.N, (cfg1.win 3).flush p = true ∧ i ∈ ((cfg1.win 3).blk p).view.set := by
  have hN : cfg1.N = 32 := N_1
  have hi0 : (i 0).val < 8192 := (i 0).isLt
  have hi1 : (i 1).val < 512 := (i 1).isLt
  have hl : 31 < cfg1.N := by rw [hN]; omega
  obtain ⟨-, -, -, -, -, -, e6, e7⟩ := attn_idx_facts ⟨31, hl⟩
  refine ⟨⟨31, hl⟩, (flush1_3 _).mpr (show (31 : ℕ) % 32 = 31 from rfl), ?_⟩
  rw [attn_mem_oblk]
  intro a
  match a with
  | ⟨0, _⟩ =>
    show win1_3.index ⟨31, hl⟩ (0 : Fin 2) * 8192 ≤ (i 0).val ∧ (i 0).val < win1_3.index ⟨31, hl⟩ (0 : Fin 2) * 8192 + 8192
    rw [e6]; omega
  | ⟨1, _⟩ =>
    show win1_3.index ⟨31, hl⟩ (1 : Fin 2) * 512 ≤ (i 1).val ∧ (i 1).val < win1_3.index ⟨31, hl⟩ (1 : Fin 2) * 512 + 512
    rw [e7]; omega

section Payload
-- the two reading facts of the body's computed values: the reset value is zero everywhere; the update adds, at (t, h),
-- the contributions of the tile's 256 key rows to what the block held
variable (hp1 : ∀ i : S8192x512.Idx, k1_pay1 (F := Ideal) i = 0)
variable (hp2 : ∀ (k : Vec Ideal S256x512 .bf16) (q : Vec Ideal S8192x512 .bf16) (v : Vec Ideal S256x512 .bf16) (o : Vec Ideal S8192x512 .f32) (t : Fin 8192) (h : Fin 512),
    k1_pay2 (F := Ideal) k q v o (ix2 t h) = o (ix2 t h) + ∑ r : Fin 256, Cert.Spec.prob (fun t h => q (ix2 t h)) (fun h => k (ix2 r h)) t * v (ix2 r h))
include hp1 hp2

/-- After point n the output block holds, at (t, h), the contributions of the key rows of tiles 0 … n. -/
theorem attnAt_apply (c : Dev nD) (n : ℕ) (hn : n < cfg1.N) (hn' : n + 1 ≤ 32) (t : Fin 8192) (h : Fin 512) :
    attnAt V c n hn (ix2 t h)
      = ∑ p : Fin (n + 1), ∑ r : Fin 256, attnTerm V c t h ⟨256 * p.val + r.val, attn_row_lt ⟨p.val, lt_of_lt_of_le p.isLt hn'⟩ r⟩ := by
  induction n with
  | zero =>
    -- the first point: the update of the zero block by tile 0
    rw [attnAt_zero V c hn]
    refine (hp2 (attnKblk V c ⟨0, hn⟩) (attnQblk V c ⟨0, hn⟩) (attnVblk V c ⟨0, hn⟩) (k1_pay1 (F := Ideal)) t h).trans ?_
    rw [hp1, zero_add, attn_tile_sum V c ⟨0, hn⟩ t h (show (0 : ℕ) < 32 by omega), Fin.sum_univ_one]
    rfl
  | succ n ih =>
    -- a later point: what the point before left, plus tile n + 1
    rw [attnAt_succ V c n hn]
    refine (hp2 (attnKblk V c ⟨n + 1, hn⟩) (attnQblk V c ⟨n + 1, hn⟩) (attnVblk V c ⟨n + 1, hn⟩) (attnAt V c n (Nat.lt_of_succ_lt hn)) t h).trans ?_
    rw [ih (Nat.lt_of_succ_lt hn) (by omega), attn_tile_sum V c ⟨n + 1, hn⟩ t h (show n + 1 < 32 by omega)]
    conv_rhs => rw [Fin.sum_univ_castSucc]
    rfl

/-- After the last point the output block is the attention array. -/
theorem attnAt_last (c : Dev nD) (hl : 31 < cfg1.N) : attnAt V c 31 hl = attnArr V c := by
  funext i
  obtain ⟨t, h, rfl⟩ : ∃ (t : Fin 8192) (h : Fin 512), i = ix2 t h := ⟨i 0, i 1, eq_ix2 i⟩
  rw [attnAt_apply V hp1 hp2 c 31 hl (by omega) t h]
  exact attn_regroup (attnTerm V c t h)

/-! ## The write-back and the array after the region -/

/-- WHAT THE LAST POINT WRITES BACK is the one block of the attention array. -/
theorem attn_flushed_eq (c : Dev nD) (p : Fin cfg1.N) (hf : (cfg1.win 3).flush p = true) :
    (dat1 V c).flushed 3 p = ((cfg1.win 3).blk p).view.read (Elt Ideal) (attnArr V c) := by
  have hN : cfg1.N = 32 := N_1
  have h31 : p.val = 31 := by
    have h1 := (flush1_3 p).mp hf
    have h2 : p.val < cfg1.N := p.isLt
    omega
  obtain ⟨pv, hpv⟩ := p
  dsimp only at h31
  subst h31
  show (cfg1.win 3).cut (grid1.coords ⟨31, hpv⟩) ((dat1 V c).after 3 ⟨31, hpv⟩) = _
  rw [after1_3]
  show (cfg1.win 3).cut (grid1.coords ⟨31, hpv⟩) (attnAt V c 31 hpv) = _
  rw [attnAt_last V hp1 hp2 c hpv]
  funext y
  exact (congrArg (attnArr V c) (attn_oblk_emb ⟨31, hpv⟩ y)).symm

/-- The one write-back covers the array with the attention array, so the array ends holding it. -/
theorem attn_final (c : Dev nD) : (dat1 V c).arrAt 3 cfg1.N = attnArr V c :=
  (dat1 V c).arrAt_eq_of_cover 3 (attnArr V c) (fun p hf => attn_flushed_eq V hp1 hp2 c p hf) attn_cover

/-- Entry (t, h) of the output array after the region: the sum over the key rows s of the softmax weight of query row t
    for key row s, times the value entry (s, h). -/
theorem attn_array (c : Dev nD) (t : Fin 8192) (h : Fin 512) :
    ((dat1 (F := Ideal) V c).arrAt 3 cfg1.N : S8192x512.Idx → EReal) (ix2 t h)
      = Cert.Spec.attn (fun t h => attnQ V c (ix2 t h)) (fun s h => attnK V c (ix2 s h)) (fun s h => attnVv V c (ix2 s h)) t h :=
  congrFun (attn_final V hp1 hp2 c) (ix2 t h)

end Payload

end AtIdeal

end Cert.KernelIdeal.Hand

end
-- ==== Proof.Bridge2.lean ====
/-
  The second half of the comparison: the second launch's inputs are plain row lookups of the three projections (every
  sorted index is in range under the precondition, so the fill word is never selected; the change of format is the identity),
  its result array is the attention block of those rows, and the programs' common last step is applied to equal arrays.
-/
import proofs.«418280_j79096117723502_1_alg».proof.Proof.Bridge1
import proofs.«418280_j79096117723502_1_alg».proof.Proof.KI.AttnValue

noncomputable section

namespace Cert.Bridge

open Idealize.ShloMosaic Idealize.ShloMosaic.ValueIdx Idealize.ShloMosaic.TcCoe Idealize.SL.Sem
open Cert.KernelIdeal Cert.KernelIdeal.Facts₀ Cert.KernelIdeal.Facts Cert.KernelIdeal.Hand

variable [Cert.KernelIdeal.Facts] [Cert.ReferenceIdeal.Facts]
variable (m : (ℓ : Loc nD τ sig) → Buf (Elt Ideal) ℓ) (c : Dev nD)

/-! ## The sorted index vectors are in range -/

theorem s7_range (hpre : Cert.Pre_KernelIdeal m) :
    ∀ i, 0 ≤ (sorted (argS7 m c) i).toInt ∧ (sorted (argS7 m c) i).toInt < 32768 :=
  sorted_range _ (arg7_range m hpre c)
theorem s8_range (hpre : Cert.Pre_KernelIdeal m) :
    ∀ i, 0 ≤ (sorted (argS8 m c) i).toInt ∧ (sorted (argS8 m c) i).toInt < 32768 :=
  sorted_range _ (arg8_range m hpre c)

/-! ## The three projections as whole arrays -/

/-- The first projection as the reference writes it. -/
abbrev projQ : FVec Ideal S32768x512 .f32 := Cert.ReferenceIdeal.RefValue.linR (flatX m c) (argW1 m c) (argB2 m c)
abbrev projK : FVec Ideal S32768x512 .f32 := Cert.ReferenceIdeal.RefValue.linR (flatX m c) (argW3 m c) (argB4 m c)
abbrev projV : FVec Ideal S32768x512 .f32 := Cert.ReferenceIdeal.RefValue.linR (flatX m c) (argW5 m c) (argB6 m c)

theorem sliceQ_eq : sliceQ (qkvOutArr m c) = projQ m c := by
  funext i
  obtain ⟨n, j, rfl⟩ : ∃ (n : Fin 32768) (j : Fin 512), i = ix2 n j := ⟨i 0, i 1, eq_ix2 i⟩
  exact (sliceQ_lin m c n j).trans (Cert.ReferenceIdeal.RefValue.linR_apply _ _ _ n j).symm
theorem sliceK_eq : sliceK (qkvOutArr m c) = projK m c := by
  funext i
  obtain ⟨n, j, rfl⟩ : ∃ (n : Fin 32768) (j : Fin 512), i = ix2 n j := ⟨i 0, i 1, eq_ix2 i⟩
  exact (sliceK_lin m c n j).trans (Cert.ReferenceIdeal.RefValue.linR_apply _ _ _ n j).symm
theorem sliceV_eq : sliceV (qkvOutArr m c) = projV m c := by
  funext i
  obtain ⟨n, j, rfl⟩ : ∃ (n : Fin 32768) (j : Fin 512), i = ix2 n j := ⟨i 0, i 1, eq_ix2 i⟩
  exact (sliceV_lin m c n j).trans (Cert.ReferenceIdeal.RefValue.linR_apply _ _ _ n j).symm

/-! ## The second launch's inputs -/

/-- The two programs' row lookups are one function. -/
theorem gather_same (a : FVec Ideal S32768x512 .f32) (s : IVec S8192 32) :
    gatherRows (F := Ideal) a s = Cert.ReferenceIdeal.RefValue.gatherRows a s := rfl

/-- The queries the second launch is fed: the plain lookup of the first projection at the sorted second index vector. -/
theorem attn_in_q (hpre : Cert.Pre_KernelIdeal m) (i : S8192x512.Idx) :
    (entry1 m c main_v11 : S8192x512.Idx → EReal) i
      = Cert.ReferenceIdeal.RefValue.gatherRows (projQ m c) (Cert.ReferenceIdeal.RefValue.sorted (argS8 m c)) i := by
  have h : entry1 m c main_v11 = conv (takeRows (sliceQ (qkvOutArr m c)) (sorted (argS8 m c))) := V11_q m (outsA m) c
  rw [h, conv_apply, takeRows_eq_gather _ _ (s8_range m c hpre), sliceQ_eq]
  rfl
/-- The keys: the lookup of the second projection at the sorted first index vector. -/
theorem attn_in_k (hpre : Cert.Pre_KernelIdeal m) (i : S8192x512.Idx) :
    (entry1 m c main_v13 : S8192x512.Idx → EReal) i
      = Cert.ReferenceIdeal.RefValue.gatherRows (projK m c) (Cert.ReferenceIdeal.RefValue.sorted (argS7 m c)) i := by
  have h : entry1 m c main_v13 = conv (takeRows (sliceK (qkvOutArr m c)) (sorted (argS7 m c))) := V11_k m (outsA m) c
  rw [h, conv_apply, takeRows_eq_gather _ _ (s7_range m c hpre), sliceK_eq]
  rfl
/-- The values: the lookup of the third projection at the sorted first index vector. -/
theorem attn_in_v (hpre : Cert.Pre_KernelIdeal m) (i : S8192x512.Idx) :
    (entry1 m c main_v15 : S8192x512.Idx → EReal) i
      = Cert.ReferenceIdeal.RefValue.gatherRows (projV m c) (Cert.ReferenceIdeal.RefValue.sorted (argS7 m c)) i := by
  have h : entry1 m c main_v15 = conv (takeRows (sliceV (qkvOutArr m c)) (sorted (argS7 m c))) := V11_v m (outsA m) c
  rw [h, conv_apply, takeRows_eq_gather _ _ (s7_range m c hpre), sliceV_eq]
  rfl

/-- The programs' last step is one function. -/
theorem tail_same (v : FVec Ideal S32768x512 .f32) (s : IVec S8192 32) (a : FVec Ideal S8192x512 .f32) :
    tailK (F := Ideal) v s a = Cert.ReferenceIdeal.RefValue.tailR v s a := rfl

/-! ## The second launch's result -/

section Result

-- The body's two stored values read at an index: the reset stores zero everywhere, and the update adds to the running
-- contents, for each key row of the tile, that row's softmax weight at the query row times the row's value entry.
variable (hp1 : ∀ i : S8192x512.Idx, Gen.k1_pay1 (F := Ideal) i = 0)
  (hp2 : ∀ (k : Vec Ideal S256x512 .bf16) (q : Vec Ideal S8192x512 .bf16) (v : Vec Ideal S256x512 .bf16) (o : Vec Ideal S8192x512 .f32)
      (t : Fin 8192) (h : Fin 512),
      Gen.k1_pay2 (F := Ideal) k q v o (ix2 t h)
        = o (ix2 t h) + ∑ r : Fin 256, Cert.Spec.prob (fun t h => q (ix2 t h)) (fun h => k (ix2 r h)) t * v (ix2 r h))
include hp1 hp2

/-- The second launch's result array is the reference's attention block of the looked-up rows. -/
theorem attnOut_eq (hpre : Cert.Pre_KernelIdeal m) :
    (outs m 12 main_v16 c : S8192x512.Idx → EReal)
      = Cert.ReferenceIdeal.RefValue.attnR
          (Cert.ReferenceIdeal.RefValue.gatherRows (projQ m c) (Cert.ReferenceIdeal.RefValue.sorted (argS8 m c)))
          (Cert.ReferenceIdeal.RefValue.gatherRows (projK m c) (Cert.ReferenceIdeal.RefValue.sorted (argS7 m c)))
          (Cert.ReferenceIdeal.RefValue.gatherRows (projV m c) (Cert.ReferenceIdeal.RefValue.sorted (argS7 m c))) := by
  funext i
  obtain ⟨t, h, rfl⟩ : ∃ (t : Fin 8192) (h : Fin 512), i = ix2 t h := ⟨i 0, i 1, eq_ix2 i⟩
  rw [Cert.ReferenceIdeal.RefValue.attnR_apply]
  refine (congrFun (outs_twelve m c) (ix2 t h)).trans ((attn_array (entry1 m) hp1 hp2 c t h).trans ?_)
  have eq : (fun (t : Fin 8192) (h : Fin 512) => attnQ (entry1 m) c (ix2 t h))
      = fun t h => Cert.ReferenceIdeal.RefValue.gatherRows (projQ m c) (Cert.ReferenceIdeal.RefValue.sorted (argS8 m c)) (ix2 t h) :=
    funext fun t => funext fun h => attn_in_q m c hpre (ix2 t h)
  have ek : (fun (s : Fin 8192) (h : Fin 512) => attnK (entry1 m) c (ix2 s h))
      = fun s h => Cert.ReferenceIdeal.RefValue.gatherRows (projK m c) (Cert.ReferenceIdeal.RefValue.sorted (argS7 m c)) (ix2 s h) :=
    funext fun s => funext fun h => attn_in_k m c hpre (ix2 s h)
  have ev : (fun (s : Fin 8192) (h : Fin 512) => attnVv (entry1 m) c (ix2 s h))
      = fun s h => Cert.ReferenceIdeal.RefValue.gatherRows (projV m c) (Cert.ReferenceIdeal.RefValue.sorted (argS7 m c)) (ix2 s h) :=
    funext fun s => funext fun h => attn_in_v m c hpre (ix2 s h)
  rw [eq, ek, ev]

/-- THE VALUE. Under the precondition, and for a reference memory that agrees with the kernel's on the nine arguments, the
    kernel's result buffer ends holding the reference's result term. -/
theorem result_eq (hpre : Cert.Pre_KernelIdeal m)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    Cert.ReferenceIdeal.Value.res_main_v62 (F := Ideal) m' c = Gen.V13 m (outs m) c main_v24 := by
  rw [Cert.ReferenceIdeal.RefValue.res_eq, h0, h1, h2, h3, h4, h5, h6, h7, h8]
  have hk : Gen.V13 m (outs m) c main_v24
      = tailK (sliceV (qkvOutArr m c)) (sorted (argS8 m c)) (outs m 12 main_v16 c) := V13_res m (outs m) c
  rw [hk, sliceV_eq, attnOut_eq m c hp1 hp2 hpre, tail_same]
  rfl

end Result

end Cert.Bridge

end
-- ==== Proof.lean ====
/-
  The certificate of the edge-attention program against its plain reference: frame_Kernel ∧ frame_KernelIdeal ∧
  frame_ReferenceIdeal ∧ preserves_Kernel_KernelIdeal ∧ algebraic_KernelIdeal_ReferenceIdeal.

  The program projects the flattened input once against the three weight matrices stacked (queries, keys and values as column
  slices of one product), sorts the two index vectors, looks the endpoint rows up, and accumulates, one 256-row tile of keys
  at a time, the softmax-weighted sum of value rows into a resident result, where the softmax of a key row runs over ALL query
  rows; the result rows are then written back into the value array. The reference does the same with three separate products,
  one score matrix, a softmax down its columns and one contraction. Over the extended reals the two agree entry by entry: the
  stacked product's column slices are the three products; the scale one eighth is the division by eight; the softmax weight of
  a key row depends on that row alone, so the tiles' contributions add up to the whole contraction; sums may be regrouped
  freely. The precondition keeps every index inside the node range, where the program's row lookup (which answers a fill word
  outside it) and the reference's (which clamps) coincide.

  Each frame is the run of the program's items in order — host stretches and the two launches — with every argument array
  untouched; the reference has no launch and its frame is its run with the result dropped. The idealization rewrote nothing,
  so the preservation claim is trivial.
-/
import proofs.«418280_j79096117723502_1_alg».proof.Defs
import proofs.«418280_j79096117723502_1_alg».proof.Proof.Gen.Kernel
import proofs.«418280_j79096117723502_1_alg».proof.Proof.Gen.KernelIdeal
import proofs.«418280_j79096117723502_1_alg».proof.Proof.Gen.ReferenceIdeal
import proofs.«418280_j79096117723502_1_alg».proof.Proof.Gen.Pre_finite_inputs
import proofs.«418280_j79096117723502_1_alg».proof.Proof.K.Run
import proofs.«418280_j79096117723502_1_alg».proof.Proof.KI.Run
import proofs.«418280_j79096117723502_1_alg».proof.Proof.KI.AttnPayload
import proofs.«418280_j79096117723502_1_alg».proof.Proof.Ref.Value
import proofs.«418280_j79096117723502_1_alg».proof.Proof.Bridge2
import Idealize.ShloMosaic.Adequacy
import Idealize.ShloMosaic.Init

noncomputable section

namespace Cert.Proof

open Idealize.ShloMosaic Idealize.ShloMosaic.ValueIdx Idealize.ShloMosaic.TcCoe Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments and satisfy the precondition both programs run, and the program's result
    buffer ends holding the reference's result term: entry by entry the same extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V13 m (Cert.KernelIdeal.Hand.outs m) c Cert.KernelIdeal.main_v24,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact Cert.Bridge.result_eq m c Cert.KernelIdeal.Hand.k1_pay1_apply Cert.KernelIdeal.Hand.k1_pay2_apply hpre m'
    h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
